-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S256x256 : Shape := ⟨2, ![256, 256]⟩
abbrev S256 : Shape := ⟨1, ![256]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S8x4096x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S8x4096x256 : Shape := ⟨3, ![8, 4096, 256]⟩
abbrev S256x256 : Shape := ⟨2, ![256, 256]⟩
abbrev S256 : Shape := ⟨1, ![256]⟩
abbrev S1x256 : Shape := ⟨2, ![1, 256]⟩
abbrev S8x1x256 : Shape := ⟨3, ![8, 1, 256]⟩
abbrev S1x256x256 : Shape := ⟨3, ![1, 256, 256]⟩
abbrev S1x4096x256 : Shape := ⟨3, ![1, 4096, 256]⟩
abbrev S1x1x256 : Shape := ⟨3, ![1, 1, 256]⟩
abbrev S4096x256 : Shape := ⟨2, ![4096, 256]⟩
abbrev S1x4096 : Shape := ⟨2, ![1, 4096]⟩
abbrev S256x4096 : Shape := ⟨2, ![256, 4096]⟩
abbrev S256x1 : Shape := ⟨2, ![256, 1]⟩
abbrev S4096 : Shape := ⟨1, ![4096]⟩
abbrev S8x256 : Shape := ⟨2, ![8, 256]⟩

abbrev nBuf : Space → Nat
  | .hbm => 12
  | .vmem => 15
  | .smem => 0
  | _ => 0

abbrev bufTy : (tb : Table) → Fin (tcTables nBuf tb) → BufTy
  | .hbm, ⟨0, _⟩ => ⟨S8x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S1x256, .f32⟩
  | .hbm, ⟨9, _⟩ => ⟨S1x256, .f32⟩
  | .hbm, ⟨10, _⟩ => ⟨S8x1x256, .f32⟩
  | .hbm, ⟨11, _⟩ => ⟨S8x256, .f32⟩
  | .local _ .vmem, ⟨0, _⟩ => ⟨S1x256x256, .f32⟩
  | .local _ .vmem, ⟨1, _⟩ => ⟨S1x256x256, .f32⟩
  | .local _ .vmem, ⟨2, _⟩ => ⟨S1x4096x256, .f32⟩
  | .local _ .vmem, ⟨3, _⟩ => ⟨S1x4096x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S1x1x256, .f32⟩
  | .local _ .vmem, ⟨11, _⟩ => ⟨S1x1x256, .f32⟩
  | .local _ .vmem, ⟨12, _⟩ => ⟨S4096x256, .bf16⟩
  | .local _ .vmem, ⟨13, _⟩ => ⟨S4096x256, .bf16⟩
  | .local _ .vmem, ⟨14, _⟩ => ⟨S1x4096, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v37 : BitVec 1 := Scalar.cmpi .eq arg1 c15_i32
  let v38 : BitVec 32 := Scalar.extui v37
  let c0_i32_19 : BitVec 32 := 0#32
  let v39 : BitVec 1 := Scalar.cmpi .ne v38 c0_i32_19
  v39

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S256_S1x256 : S256.ShapeCasts S1x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  broadcasts_S1x256_S256x256 : S1x256.Broadcasts S256x256
  transposes_S4096x256_p1_0_S256x4096 : S4096x256.Transposes [1, 0] S256x4096
  reduces_S256x4096_S256 : S256x4096.Reduces [1] S256
  shapeCasts_S256_S256x1 : S256.ShapeCasts S256x1
  broadcasts_S256x1_S256x4096 : S256x1.Broadcasts S256x4096
  reduces_S256x4096_S4096 : S256x4096.Reduces [0] S4096
  shapeCasts_S4096_S1x4096 : S4096.ShapeCasts S1x4096
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  shapeCasts_S8x1x256_S8x256 : S8x1x256.ShapeCasts S8x256
  dot_S4096x256_S256x256_S4096x256_1_0_0_1_n_n_wf : DotDims.WF S4096x256 S256x256 S4096x256 [1] [0] [0] [1] [] []
  dot_S256x256_S256x256_S256x256_1_0_0_1_n_n_wf : DotDims.WF S256x256 S256x256 S256x256 [1] [0] [0] [1] [] []
  dot_S256x256_S256x4096_S256x4096_1_0_0_1_n_n_wf : DotDims.WF S256x256 S256x4096 S256x4096 [1] [0] [0] [1] [] []
  dot_S1x4096_S4096x256_S1x256_1_0_0_1_n_n_wf : DotDims.WF S1x4096 S4096x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S8x4096x256.size a
  hwx0_0 : ∀ i : grid0.Coords, EltTy.bits .f32 = 32 ∨ (Rect.block (s := S8x4096x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S8x4096x256.size a
  hwx0_1 : ∀ i : grid0.Coords, EltTy.bits .f32 = 32 ∨ (Rect.block (s := S8x4096x256) S1x4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x256.size a ≤ S8x1x256.size a
  hwx0_8 : ∀ i : grid0.Coords, EltTy.bits .f32 = 32 ∨ (Rect.block (s := S8x1x256) S1x1x256.size (cc0_transform_8 i) (hinb0_8 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf
def dot_S1x4096_S4096x256_S1x256_1_0_0_1_n_n : DotDims S1x4096 S4096x256 S1x256 where
  lhsContracting := [1]
  rhsContracting := [0]
  lhsNonContracting := [0]
  rhsNonContracting := [1]
  lhsBatch := []
  rhsBatch := []
  wf := dot_S1x4096_S4096x256_S1x256_1_0_0_1_n_n_wf

abbrev win0_0 : Pipeline.Window sig grid0 :=
  Pipeline.Window.ofSpec (Memref.whole main_arg0) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x1x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S8x4096x256 : Shape := ⟨3, ![8, 4096, 256]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S8x4096x4096 : Shape := ⟨3, ![8, 4096, 4096]⟩
abbrev S8x4096 : Shape := ⟨2, ![8, 4096]⟩
abbrev S8x4096x1 : Shape := ⟨3, ![8, 4096, 1]⟩
abbrev S8x256 : Shape := ⟨2, ![8, 256]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S8x4096x256, .f32⟩
  | .hbm, ⟨8, _⟩ => ⟨S1x1x256, .f32⟩
  | .hbm, ⟨9, _⟩ => ⟨S8x4096x256, .f32⟩
  | .hbm, ⟨10, _⟩ => ⟨S8x4096x256, .f32⟩
  | .hbm, ⟨11, _⟩ => ⟨S8x4096x256, .f32⟩
  | .hbm, ⟨12, _⟩ => ⟨S1x1x256, .f32⟩
  | .hbm, ⟨13, _⟩ => ⟨S8x4096x256, .f32⟩
  | .hbm, ⟨14, _⟩ => ⟨S8x4096x256, .f32⟩
  | .hbm, ⟨15, _⟩ => ⟨S8x4096x256, .f32⟩
  | .hbm, ⟨16, _⟩ => ⟨S1x1x256, .f32⟩
  | .hbm, ⟨17, _⟩ => ⟨S8x4096x256, .f32⟩
  | .hbm, ⟨18, _⟩ => ⟨S8x4096x256, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S_, .f32⟩
  | .hbm, ⟨29, _⟩ => ⟨S8x4096, .f32⟩
  | .hbm, ⟨30, _⟩ => ⟨S8x4096, .f32⟩
  | .hbm, ⟨31, _⟩ => ⟨S8x4096x1, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S8x4096x4096, .f32⟩
  | .hbm, ⟨39, _⟩ => ⟨S8x4096x4096, .f32⟩
  | .hbm, ⟨40, _⟩ => ⟨S8x4096x256, .f32⟩
  | .hbm, ⟨41, _⟩ => ⟨S_, .f32⟩
  | .hbm, ⟨42, _⟩ => ⟨S8x256, .f32⟩
  | .hbm, ⟨43, _⟩ => ⟨S_, .f32⟩
  | .hbm, ⟨44, _⟩ => ⟨S8x256, .f32⟩
  | .hbm, ⟨45, _⟩ => ⟨S8x256, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  reducesTo_S8x4096x256_S8x256_d1 : S8x4096x256.ReducesTo [1] S8x256
  bcast_S_S8x256 : S_.BroadcastsInDim S8x256 (![] : Fin 0 → Fin S8x256.rank)
  dot_S8x4096x256_S256x256_S8x4096x256_2_0_01_1_n_n_wf : DotDims.WF S8x4096x256 S256x256 S8x4096x256 [2] [0] [0, 1] [1] [] []
  dot_S8x4096x256_S8x4096x256_S8x4096x4096_2_2_1_1_0_0_wf : DotDims.WF S8x4096x256 S8x4096x256 S8x4096x4096 [2] [2] [1] [1] [0] [0]
  dot_S8x4096x4096_S8x4096x256_S8x4096x256_2_1_1_2_0_0_wf : DotDims.WF S8x4096x4096 S8x4096x256 S8x4096x256 [2] [1] [1] [2] [0] [0]

variable [Facts₀]

def dot_S8x4096x256_S256x256_S8x4096x256_2_0_01_1_n_n : DotDims S8x4096x256 S256x256 S8x4096x256 where
  lhsContracting := [2]
  rhsContracting := [0]
  lhsNonContracting := [0, 1]
  rhsNonContracting := [1]
  lhsBatch := []
  rhsBatch := []
  wf := dot_S8x4096x256_S256x256_S8x4096x256_2_0_01_1_n_n_wf
def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf
def dot_S8x4096x4096_S8x4096x256_S8x4096x256_2_1_1_2_0_0 : DotDims S8x4096x4096 S8x4096x256 S8x4096x256 where
  lhsContracting := [2]
  rhsContracting := [1]
  lhsNonContracting := [1]
  rhsNonContracting := [2]
  lhsBatch := [0]
  rhsBatch := [0]
  wf := dot_S8x4096x4096_S8x4096x256_S8x4096x256_2_1_1_2_0_0_wf

class Facts : Prop extends Facts₀ where

variable [Facts]
-- ==== Proof.KB.Chain.lean ====
/-
  The fused kernel's arithmetic for one batch, as a chain of the body's own stores: the keys and values projected
  once from the batch's rows, the running column sum of the attention weights bumped once per query tile from
  zero, and the pooled row computed from the last column sum and the values. Stated at any float instance.
-/
import proofs.«430896_j86268713107582_3_alg».proof.Proof.Gen.Kernel.Skeleton

noncomputable section

namespace Cert.Kernel.Hand

open Cert.Kernel Cert.Kernel.Gen
open Idealize.ShloMosaic

variable {F : FTy → Type} [FloatOps F]

/-- The keys of a batch, from the batch's rows of x, the key weights and the key bias row. -/
abbrev keys (xb : Vec F S1x4096x256 .f32) (wk : Vec F S256x256 .f32) (bk : Vec F S1x256 .f32) : FVec F S4096x256 .bf16 := k0_pay4 xb wk bk
/-- The values of a batch. -/
abbrev vals (xb : Vec F S1x4096x256 .f32) (wv : Vec F S256x256 .f32) (bv : Vec F S1x256 .f32) : FVec F S4096x256 .bf16 := k0_pay5 xb wv bv
/-- The cleared column sum. -/
abbrev clear : FVec F S1x4096 .f32 := k0_pay6
/-- One tile's update of the running column sum: the tile's queries against all the keys, softmax row by row,
    the 256 rows summed, added to what was there. -/
abbrev bump (xq : Vec F S1x256x256 .f32) (wq : Vec F S256x256 .f32) (bq : Vec F S1x256 .f32) (K : Vec F S4096x256 .bf16) (C : Vec F S1x4096 .f32) : FVec F S1x4096 .f32 :=
  k0_pay1 (k0_pay7 xq wq bq K C)
/-- The pooled output row of a batch: the column sum over 4096, times the values. -/
abbrev pooled (C : Vec F S1x4096 .f32) (Vs : Vec F S4096x256 .bf16) : FVec F S1x1x256 .f32 := k0_pay2 C Vs

/-- The column sum after the first n tiles of a batch. -/
def colAcc (tile : Fin 16 → Vec F S1x256x256 .f32) (wq : Vec F S256x256 .f32) (bq : Vec F S1x256 .f32) (K : Vec F S4096x256 .bf16) :
    (n : ℕ) → n ≤ 16 → Vec F S1x4096 .f32
  | 0, _ => clear
  | n + 1, hn => bump (tile ⟨n, hn⟩) wq bq K (colAcc tile wq bq K n (Nat.le_of_succ_le hn))

/-- A batch's pooled row from its sixteen query tiles, its rows, the three weight matrices and bias rows. -/
def batchOut (tile : Fin 16 → Vec F S1x256x256 .f32) (xb : Vec F S1x4096x256 .f32)
    (wq : Vec F S256x256 .f32) (bq : Vec F S1x256 .f32) (wk : Vec F S256x256 .f32) (bk : Vec F S1x256 .f32)
    (wv : Vec F S256x256 .f32) (bv : Vec F S1x256 .f32) : Vec F S1x1x256 .f32 :=
  pooled (colAcc tile wq bq (keys xb wk bk) 16 le_rfl) (vals xb wv bv)

end Cert.Kernel.Hand

end
-- ==== Proof.KB.Base.lean ====
/-
  What the three control cases of the fused attention-pool kernel, its proof data and its launch are stated over.

  The grid is (batch, query tile) = 8 x 16, walked row-major: point t is batch t / 16, tile t % 16. Before the
  region @main reshapes the three bias vectors to rows; after it, it drops the middle axis of the result. The body
  has two conditionals on the tile coordinate: at tile 0 it projects the batch's keys and values into two scratch
  buffers and clears the running column sum; at tile 15 it scales the column sum and multiplies it into the values.
  Everything here holds at any float instance.
-/
import proofs.«430896_j86268713107582_3_alg».proof.Proof.Gen.Kernel.Launch
import proofs.«430896_j86268713107582_3_alg».proof.Proof.Gen.Kernel.Skeleton
import proofs.«430896_j86268713107582_3_alg».proof.Proof.Gen.Kernel.Points
import proofs.«430896_j86268713107582_3_alg».proof.Proof.KB.Chain
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: the launch contents after the three bias reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the bias reshapes, the region, and the result's reshape: it reduces to the region continued by the
    last line, at the contents after the first three. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two conditions, in closed form over the grid -/

/-- The first conditional's test (tile coordinate = 0), as the body computes it from the coordinates. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 16 = 0 :=
  (by decide +kernel : ∀ t : Fin grid0.N, isFirst (grid0.coords t) ↔ t.val % 16 = 0)

/-- The second conditional's test (tile coordinate = 15). -/
abbrev isLast (i : grid0.Coords) : Prop := k0_cond2 i = 1#1
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live_in : ∀ (w : Fin 9), w.val < 8 → ∀ t : Fin cfg0.N, cfg0.idle w (grid0.coords t) = false := by decide +kernel
/-- The output block is stored only at the last tile of a batch: elsewhere its window is idle and not written back. -/
theorem idle_out : ∀ t : Fin cfg0.N, ¬isLast (grid0.coords t) → cfg0.idle 8 (grid0.coords t) = true := by decide +kernel
theorem noflush_out : ∀ t : Fin cfg0.N, ¬isLast (grid0.coords t) → (cfg0.win 8).flush t = false := by decide +kernel
theorem live_out : ∀ t : Fin cfg0.N, isLast (grid0.coords t) → cfg0.idle 8 (grid0.coords t) = false := by decide +kernel

/-! ## The staging memrefs at a point, and the three scratch buffers -/

abbrev ms0 (t : Fin cfg0.N) : Memref sig .tc .vmem S1x256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1x256 .f32 := win0_8.stage (cfg0.slots t 8)
abbrev hs8 (t : Fin cfg0.N) : (ms8 t).IsWhole := hstage0_8 ((cfg0.slots t 8).cast nbuf0_8)

/-- The keys' scratch, the values' scratch and the running column sum. -/
abbrev scK : Memref sig .tc .vmem S4096x256 .bf16 := Memref.whole cc0_scratch0
abbrev scV : Memref sig .tc .vmem S4096x256 .bf16 := Memref.whole cc0_scratch1
abbrev scC : Memref sig .tc .vmem S1x4096 .f32 := Memref.whole cc0_scratch2

/-- What the launch hands the region beside the windows: the three scratch buffers at some contents and the
    generator register. -/
theorem PhiA_eq (c : Dev nD) :
    (Pipeline.ΦA spec0 c : sProp 𝕄)
      = iprop(iprop((∃ d, owns (c : Thread nD τ) scK fullShare d) ∗ (∃ d, owns (c : Thread nD τ) scV fullShare d) ∗ (∃ d, owns (c : Thread nD τ) scC fullShare d)) ∗ (∃ r, prngReg c r)) := by
  unfold Pipeline.ΦA; rw [scopedRest0_eq]; simp only [scK, scV, scC, owns_whole]; try rfl

end Cert.Kernel.Hand

end
-- ==== Proof.KB.State.lean ====
/-
  What the three scratch buffers and the output buffer hold after each grid point, and the pipeline's proof data.

  After point t of batch b = t / 16: the keys' and values' scratch hold the batch's keys and values (written at the
  batch's first tile and kept since), the column-sum scratch holds the bumps of tiles 0 .. t % 16 of the batch from
  zero, and — were the output stored there — the pooled row of what the column sum and values then hold. The rows of
  x are read through two windows (one query tile; the whole batch): the core's hold on x is split in two halves.
-/
import proofs.«430896_j86268713107582_3_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input blocks at a point, at their literal types -/

abbrev xq (c : Dev nD) (t : Fin cfg0.N) : Vec F S1x256x256 .f32 := iblk m c 0 t
abbrev xb (c : Dev nD) (t : Fin cfg0.N) : Vec F S1x4096x256 .f32 := iblk m c 1 t
abbrev wq (c : Dev nD) (t : Fin cfg0.N) : Vec F S256x256 .f32 := iblk m c 2 t
abbrev bq (c : Dev nD) (t : Fin cfg0.N) : Vec F S1x256 .f32 := iblk m c 3 t
abbrev wk (c : Dev nD) (t : Fin cfg0.N) : Vec F S256x256 .f32 := iblk m c 4 t
abbrev bk (c : Dev nD) (t : Fin cfg0.N) : Vec F S1x256 .f32 := iblk m c 5 t
abbrev wv (c : Dev nD) (t : Fin cfg0.N) : Vec F S256x256 .f32 := iblk m c 6 t
abbrev bv (c : Dev nD) (t : Fin cfg0.N) : Vec F S1x256 .f32 := iblk m c 7 t

/-! ## The scratch buffers after each point -/

/-- The keys' scratch, the values' scratch and the column sum after the body at position n: at a batch's first tile
    freshly projected and one bump from zero; later what the point before left, the column sum bumped once more. -/
def scAt (c : Dev nD) : (n : ℕ) → n < cfg0.N → Vec F S4096x256 .bf16 × Vec F S4096x256 .bf16 × Vec F S1x4096 .f32
  | 0, hn => (keys (xb m c ⟨0, hn⟩) (wk m c ⟨0, hn⟩) (bk m c ⟨0, hn⟩), vals (xb m c ⟨0, hn⟩) (wv m c ⟨0, hn⟩) (bv m c ⟨0, hn⟩),
      bump (xq m c ⟨0, hn⟩) (wq m c ⟨0, hn⟩) (bq m c ⟨0, hn⟩) (keys (xb m c ⟨0, hn⟩) (wk m c ⟨0, hn⟩) (bk m c ⟨0, hn⟩)) clear)
  | n + 1, hn =>
    if (n + 1) % 16 = 0 then
      (keys (xb m c ⟨n + 1, hn⟩) (wk m c ⟨n + 1, hn⟩) (bk m c ⟨n + 1, hn⟩), vals (xb m c ⟨n + 1, hn⟩) (wv m c ⟨n + 1, hn⟩) (bv m c ⟨n + 1, hn⟩),
        bump (xq m c ⟨n + 1, hn⟩) (wq m c ⟨n + 1, hn⟩) (bq m c ⟨n + 1, hn⟩) (keys (xb m c ⟨n + 1, hn⟩) (wk m c ⟨n + 1, hn⟩) (bk m c ⟨n + 1, hn⟩)) clear)
    else
      ((scAt c n (Nat.lt_of_succ_lt hn)).1, (scAt c n (Nat.lt_of_succ_lt hn)).2.1,
        bump (xq m c ⟨n + 1, hn⟩) (wq m c ⟨n + 1, hn⟩) (bq m c ⟨n + 1, hn⟩) (scAt c n (Nat.lt_of_succ_lt hn)).1 (scAt c n (Nat.lt_of_succ_lt hn)).2.2)

/-- At a batch's first tile. -/
theorem scAt_first (c : Dev nD) (t : Fin cfg0.N) (h : t.val % 16 = 0) :
    scAt m c t.val t.isLt = (keys (xb m c t) (wk m c t) (bk m c t), vals (xb m c t) (wv m c t) (bv m c t),
      bump (xq m c t) (wq m c t) (bq m c t) (keys (xb m c t) (wk m c t) (bk m c t)) clear) := by
  obtain ⟨n, hn⟩ := t
  cases n with
  | zero => rfl
  | succ n => exact (if_pos h).trans rfl

/-- At a later tile: over what the point before left. -/
theorem scAt_later (c : Dev nD) (t : Fin cfg0.N) (h : ¬t.val % 16 = 0) :
    scAt m c t.val t.isLt = ((scAt m c (t.val - 1) (Nat.lt_of_le_of_lt (Nat.sub_le _ _) t.isLt)).1, (scAt m c (t.val - 1) (Nat.lt_of_le_of_lt (Nat.sub_le _ _) t.isLt)).2.1,
      bump (xq m c t) (wq m c t) (bq m c t) (scAt m c (t.val - 1) (Nat.lt_of_le_of_lt (Nat.sub_le _ _) t.isLt)).1 (scAt m c (t.val - 1) (Nat.lt_of_le_of_lt (Nat.sub_le _ _) t.isLt)).2.2) := by
  obtain ⟨n, hn⟩ := t
  cases n with
  | zero => exact absurd (Nat.zero_mod _) h
  | succ n => exact (if_neg h).trans rfl

/-- The pooled row of what the column sum and the values hold after point t: what the last tile of a batch stores. -/
def outAt (c : Dev nD) (t : Fin cfg0.N) : Vec F S1x1x256 .f32 :=
  pooled (scAt m c t.val t.isLt).2.2 (scAt m c t.val t.isLt).2.1

/-! ## The region invariant -/

/-- Before position n: at the start what the launch hands over (the scratch buffers at anything); afterwards the three
    scratch buffers at what the point before left, and the generator register at some state. -/
def PhiS (c : Dev nD) : (n : ℕ) → n ≤ cfg0.N → sProp 𝕄
  | 0, _ => Pipeline.ΦA spec0 c
  | n + 1, hn => iprop(iprop(owns (c : Thread nD τ) scK fullShare (scAt m c n hn).1 ∗ owns (c : Thread nD τ) scV fullShare (scAt m c n hn).2.1
      ∗ owns (c : Thread nD τ) scC fullShare (scAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scK fullShare (scAt m c n hn).1 ∗ owns (c : Thread nD τ) scV fullShare (scAt m c n hn).2.1
      ∗ owns (c : Thread nD τ) scC fullShare (scAt m c n hn).2.2) ∗ (∃ r, prngReg c r)) := rfl

theorem PhiS_pos (c : Dev nD) (n : ℕ) (h : n ≤ cfg0.N) (hz : n ≠ 0) :
    PhiS m c n h = iprop(iprop(owns (c : Thread nD τ) scK fullShare (scAt m c (n - 1) (by omega)).1 ∗ owns (c : Thread nD τ) scV fullShare (scAt m c (n - 1) (by omega)).2.1
      ∗ owns (c : Thread nD τ) scC fullShare (scAt m c (n - 1) (by omega)).2.2) ∗ (∃ r, prngReg c r)) := by
  cases n with
  | zero => exact absurd rfl hz
  | succ n => rfl

/-! ## The proof data -/

/-- The arrays as the region finds them; after the body each input's buffer at its block and the output's at the
    pooled row; the invariant above; nothing owed; x held in two halves by its two windows, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outAt m c t := by dsimp only [dats]

theorem share_0 (c : Dev nD) : (dats m 0 c).share 0 = fullShare.left := rfl
theorem share_1 (c : Dev nD) : (dats m 0 c).share 1 = fullShare.right := rfl
theorem share_rest (c : Dev nD) (w : Fin cfg0.W) (h : 2 ≤ w.val) : (dats m 0 c).share w = fullShare := by
  fin_cases w <;> first | (exfalso; revert h; decide) | rfl

end Cert.Kernel.Hand

end
-- ==== Proof.KB.RunFirst.lean ====
/-
  The body at the first query tile of a batch (and not the last): it projects the batch's keys and values into the
  two scratch buffers, clears the column sum, and then does what every tile does — bumps the column sum by this
  tile's attention weights. The output buffer is not touched.
-/
import proofs.«430896_j86268713107582_3_alg».proof.Proof.KB.Base
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets, however spelt, are the constant zero. -/
private theorem off2_zero : (![0, 0] : Fin 2 → ℕ) = fun _ => 0 := by funext a; fin_cases a <;> rfl
private theorem off3_zero : (![0, 0, 0] : Fin 3 → ℕ) = fun _ => 0 := by funext a; fin_cases a <;> rfl

/-- A load of a whole buffer through the full rectangle at offset zero reads its contents. -/
private theorem load_whole {S : Shape} {e : EltTy} (m : Memref sig .tc .vmem S e) (h : m.IsWhole)
    {off : Fin S.rank → ℕ} (hz : off = fun _ => 0) (inb : ∀ a, off a + S.size a ≤ S.size a) (X : Vec F S e) :
    m.view.readAt (Elt F) (Rect.unit off S.size inb).toLoadRect (h.unread X) = X := by
  rw [View.readAt_eq_ld, h.read_unread, View.ld_unit_zero hz]

/-- After a store through the full rectangle at offset zero, made last, the buffer reads the stored payload. -/
private theorem read_after_store {S : Shape} {e : EltTy} (v : View sig .tc .vmem S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-- A load through the full rectangle of what one store through it left reads the payload. -/
private theorem load_after_store {S : Shape} {e : EltTy} (v : View sig .tc .vmem S e)
    {off : Fin S.rank → ℕ} (hz : off = fun _ => 0) (inb : ∀ a, off a + S.size a ≤ S.size a) (w : S.Idx → Elt F e) :
    v.readCov [(⟨Rect.unit off S.size inb, w⟩ : View.Piece (Elt F) S e)] (Rect.unit off S.size inb).toLoadRect = w :=
  View.readCov_unit_zero v hz inb w

set_option maxHeartbeats 4000000 in
/-- From the eight input buffers at any contents and the three scratch buffers at anything, the body runs to the
    inputs unchanged, the keys and values of the batch in their scratch buffers, and the column sum at one bump
    from zero. -/
theorem run_first (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x1x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1x4096 .f32) (harg13 : arg13.IsWhole)
    (h1 : isFirst i) (h2 : ¬isLast i)
    (xq : Vec F S1x256x256 .f32) (xb : Vec F S1x4096x256 .f32) (wq : Vec F S256x256 .f32) (bq : Vec F S1x256 .f32)
    (wk : Vec F S256x256 .f32) (bk : Vec F S1x256 .f32) (wv : Vec F S256x256 .f32) (bv : Vec F S1x256 .f32)
    (E : Set ℕ) (K : PUnit → sProp 𝕄) :
    iprop(owns (c : Thread nD τ) arg2 fullShare xq ∗ owns (c : Thread nD τ) arg3 fullShare xb ∗ owns (c : Thread nD τ) arg4 fullShare wq ∗ owns (c : Thread nD τ) arg5 fullShare bq ∗ owns (c : Thread nD τ) arg6 fullShare wk ∗ owns (c : Thread nD τ) arg7 fullShare bk ∗ owns (c : Thread nD τ) arg8 fullShare wv ∗ owns (c : Thread nD τ) arg9 fullShare bv
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare xq ∗ owns (c : Thread nD τ) arg3 fullShare xb ∗ owns (c : Thread nD τ) arg4 fullShare wq ∗ owns (c : Thread nD τ) arg5 fullShare bq ∗ owns (c : Thread nD τ) arg6 fullShare wk ∗ owns (c : Thread nD τ) arg7 fullShare bk ∗ owns (c : Thread nD τ) arg8 fullShare wv ∗ owns (c : Thread nD τ) arg9 fullShare bv
            ∗ owns (c : Thread nD τ) arg11 fullShare (keys xb wk bk) ∗ owns (c : Thread nD τ) arg12 fullShare (vals xb wv bv) ∗ owns (c : Thread nD τ) arg13 fullShare (bump xq wq bq (keys xb wk bk) clear)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d11, %f11, %hf11, H11⟩, ⟨%d12, %f12, %hf12, H12⟩, ⟨%d13, %f13, %hf13, H13⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact h1 | exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H11]
  · iexists _; isplitr
    rotate_left
    · iexact H11
    · ipureintro
      sl_unfold_run_names
      refine (read_after_store (S := S4096x256) _ _ off2_zero _ _ _).trans ?_
      rw [load_whole arg3 harg3 off3_zero, load_whole arg6 harg6 off2_zero, load_whole arg7 harg7 off2_zero]
  isplitl [H12]
  · iexists _; isplitr
    rotate_left
    · iexact H12
    · ipureintro
      refine (read_after_store (S := S4096x256) _ _ off2_zero _ _ _).trans ?_
      rw [load_whole arg3 harg3 off3_zero, load_whole arg8 harg8 off2_zero, load_whole arg9 harg9 off2_zero]
  iexists _; isplitr
  rotate_left
  · iexact H13
  · ipureintro
    sl_unfold_run_names
    refine (read_after_store (S := S1x4096) _ _ off2_zero _ _ _).trans ?_
    dsimp only
    rw [load_after_store arg11.view off2_zero, load_after_store arg13.view off2_zero,
      load_whole arg2 harg2 off3_zero, load_whole arg4 harg4 off2_zero, load_whole arg5 harg5 off2_zero,
      load_whole arg3 harg3 off3_zero, load_whole arg6 harg6 off2_zero, load_whole arg7 harg7 off2_zero]

end Cert.Kernel.Hand

end
-- ==== Proof.KB.RunMid.lean ====
/-
  The body at a query tile that is neither the first nor the last of its batch: it reads the keys from their scratch
  buffer and bumps the column sum by this tile's attention weights. Nothing else is touched.
-/
import proofs.«430896_j86268713107582_3_alg».proof.Proof.KB.Base
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two zero offsets of a rank-2 whole-buffer rectangle, as the constant zero function. -/
private theorem hz2 : (![0, 0] : Fin 2 → Nat) = fun _ => 0 := funext fun a => by fin_cases a <;> rfl
/-- The three zero offsets of a rank-3 whole-buffer rectangle. -/
private theorem hz3 : (![0, 0, 0] : Fin 3 → Nat) = fun _ => 0 := funext fun a => by fin_cases a <;> rfl

/-- One store through the whole rectangle of a buffer (zero offsets, the buffer's own extents) leaves its payload: the
    single piece covers every index, so the buffer reads back as what was stored, whatever it held before. Stated at
    any shape. -/
private theorem read_store_whole {S : Shape} {e : EltTy} {sp : Space} (a : Memref sig .tc sp S e) (f : a.view.ty.Contents (Elt F))
    {off : Fin S.rank → Nat} (h : off = fun _ => 0) (inb : ∀ x, off x + S.size x ≤ S.size x) (w : S.Idx → Elt F e) :
    a.view.read (Elt F) (a.view.writes (Elt F) f [(⟨Rect.unit off S.size inb, w⟩ : View.Piece (Elt F) S e)]) = w := by
  rw [View.read_writes_eq_canon a.view f _
    (fun y => ⟨_, List.mem_singleton_self _, View.mem_set_unit_zero h inb y⟩), View.canon_unit_zero h inb w]

set_option maxHeartbeats 1000000 in
theorem run_mid (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x1x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1x4096 .f32) (harg13 : arg13.IsWhole)
    (h1 : ¬isFirst i) (h2 : ¬isLast i)
    (xq : Vec F S1x256x256 .f32) (wq : Vec F S256x256 .f32) (bq : Vec F S1x256 .f32)
    (Ks : Vec F S4096x256 .bf16) (Cs : Vec F S1x4096 .f32)
    (E : Set ℕ) (K : PUnit → sProp 𝕄) :
    iprop(owns (c : Thread nD τ) arg2 fullShare xq ∗ owns (c : Thread nD τ) arg4 fullShare wq ∗ owns (c : Thread nD τ) arg5 fullShare bq ∗ owns (c : Thread nD τ) arg11 fullShare Ks ∗ owns (c : Thread nD τ) arg13 fullShare Cs
        ∗ (iprop(owns (c : Thread nD τ) arg2 fullShare xq ∗ owns (c : Thread nD τ) arg4 fullShare wq ∗ owns (c : Thread nD τ) arg5 fullShare bq ∗ owns (c : Thread nD τ) arg11 fullShare Ks ∗ owns (c : Thread nD τ) arg13 fullShare (bump xq wq bq Ks Cs)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%f2, %hf2, H2⟩, ⟨%f4, %hf4, H4⟩, ⟨%f5, %hf5, H5⟩, ⟨%f11, %hf11, H11⟩, ⟨%f13, %hf13, H13⟩, Hk⟩
  obtain rfl := harg2.eq_unread hf2; obtain rfl := harg4.eq_unread hf4; obtain rfl := harg5.eq_unread hf5
  obtain rfl := harg11.eq_unread hf11; obtain rfl := harg13.eq_unread hf13
  -- neither conditional is taken: the body is five whole-buffer loads and one whole-buffer store of the column sum
  sl_exec (disch := first | exact h1 | exact h2)
  sl_step
  iapply Hk
  -- the four buffers only read are handed back at the contents they came with
  isplitl [H2]
  · iexists _; isplitr; · ipureintro; exact harg2.read_unread _
    iexact H2
  isplitl [H4]
  · iexists _; isplitr; · ipureintro; exact harg4.read_unread _
    iexact H4
  isplitl [H5]
  · iexists _; isplitr; · ipureintro; exact harg5.read_unread _
    iexact H5
  isplitl [H11]
  · iexists _; isplitr; · ipureintro; exact harg11.read_unread _
    iexact H11
  -- the column sum: its one store covers the buffer, so it reads back as the stored payload, whose five loads read
  -- the whole contents of the tile's queries, the query weights, the query bias, the keys and the old column sum
  iexists _; isplitr
  swap
  · iexact H13
  · ipureintro
    rw [read_store_whole (S := S1x4096) arg13 _ hz2 inb_S1x4096_S1x4096_0_0 _]
    sl_unfold_run_names
    simp only [View.readAt_eq_ld, harg2.read_unread, harg4.read_unread, harg5.read_unread, harg11.read_unread,
      harg13.read_unread, View.ld_unit_zero (S := S1x256x256) hz3, View.ld_unit_zero (S := S256x256) hz2,
      View.ld_unit_zero (S := S1x256) hz2, View.ld_unit_zero (S := S4096x256) hz2, View.ld_unit_zero (S := S1x4096) hz2]

end Cert.Kernel.Hand

end
-- ==== Proof.KB.RunLast.lean ====
/-
  The body at the last query tile of a batch: it bumps the column sum as every tile does, then scales it by 1/4096,
  multiplies it into the values and stores the pooled row into the output buffer.
-/
import proofs.«430896_j86268713107582_3_alg».proof.Proof.KB.Base
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 and of a rank-3 whole-shape rectangle, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-- What a whole-shape store at zero offsets, made last, leaves to be read through the view: its payload, whatever
    the buffer held and whatever was stored before. -/
private theorem read_writes_unit_zero {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f ((⟨Rect.unit off S.size inb, w⟩ : View.Piece Val S e) :: L)
      (fun y => ⟨_, List.mem_cons_self, View.mem_set_unit_zero h inb y⟩),
    View.canon_cons_unit_zero h inb w L]

set_option maxHeartbeats 4000000 in
theorem run_last (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x1x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1x4096 .f32) (harg13 : arg13.IsWhole)
    (h1 : ¬isFirst i) (h2 : isLast i)
    (xq : Vec F S1x256x256 .f32) (wq : Vec F S256x256 .f32) (bq : Vec F S1x256 .f32)
    (Ks : Vec F S4096x256 .bf16) (Vs : Vec F S4096x256 .bf16) (Cs : Vec F S1x4096 .f32)
    (E : Set ℕ) (K : PUnit → sProp 𝕄) :
    iprop(owns (c : Thread nD τ) arg2 fullShare xq ∗ owns (c : Thread nD τ) arg4 fullShare wq ∗ owns (c : Thread nD τ) arg5 fullShare bq ∗ (∃ d, owns (c : Thread nD τ) arg10 fullShare d) ∗ owns (c : Thread nD τ) arg11 fullShare Ks ∗ owns (c : Thread nD τ) arg12 fullShare Vs ∗ owns (c : Thread nD τ) arg13 fullShare Cs
        ∗ (iprop(owns (c : Thread nD τ) arg2 fullShare xq ∗ owns (c : Thread nD τ) arg4 fullShare wq ∗ owns (c : Thread nD τ) arg5 fullShare bq ∗ owns (c : Thread nD τ) arg10 fullShare (pooled (bump xq wq bq Ks Cs) Vs)
            ∗ owns (c : Thread nD τ) arg11 fullShare Ks ∗ owns (c : Thread nD τ) arg12 fullShare Vs ∗ owns (c : Thread nD τ) arg13 fullShare (bump xq wq bq Ks Cs)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K := by
  -- the printed body and its first part are their skeletons over the payload names
  simp only [cc0__fused_kernel_eq_skeleton]; unfold cc0__fused_kernel_skel
  simp only [k0_part1_eq_skeleton]; unfold k0_part1_skel
  unfold owns
  iintro ⟨⟨%f2, %hf2, H2⟩, ⟨%f4, %hf4, H4⟩, ⟨%f5, %hf5, H5⟩, ⟨%d10, %f10, -, H10⟩, ⟨%f11, %hf11, H11⟩, ⟨%f12, %hf12, H12⟩, ⟨%f13, %hf13, H13⟩, Hk⟩
  -- a whole memref's contents are determined by what is read through it
  obtain rfl := harg2.eq_unread hf2; obtain rfl := harg4.eq_unread hf4; obtain rfl := harg5.eq_unread hf5
  obtain rfl := harg11.eq_unread hf11; obtain rfl := harg12.eq_unread hf12; obtain rfl := harg13.eq_unread hf13
  -- the first conditional is skipped (not the first tile), the second is taken (the last tile)
  sl_exec (disch := first | exact h1 | exact h2)
  sl_step
  iapply Hk
  isplitl [H2]
  · iexists _; isplitr; · ipureintro; exact harg2.read_unread _
    iexact H2
  isplitl [H4]
  · iexists _; isplitr; · ipureintro; exact harg4.read_unread _
    iexact H4
  isplitl [H5]
  · iexists _; isplitr; · ipureintro; exact harg5.read_unread _
    iexact H5
  isplitl [H10]
  · -- the output buffer: one whole store of the pooled row, computed from the column sum read back after its
    -- own whole store (so the bumped sum) and from the values as they were
    iexists _; isplitr
    swap
    · iexact H10
    · ipureintro
      rw [read_writes_unit_zero (S := S1x1x256) arg10.view _ hz3]
      sl_unfold_run_names
      dsimp only
      simp only [View.readCov_unit_zero (S := S1x4096) arg13.view hz2, View.readAt_eq_ld,
        harg2.read_unread, harg4.read_unread, harg5.read_unread, harg11.read_unread, harg12.read_unread, harg13.read_unread,
        View.ld_unit_zero (S := S1x256x256) hz3, View.ld_unit_zero (S := S256x256) hz2, View.ld_unit_zero (S := S1x256) hz2,
        View.ld_unit_zero (S := S4096x256) hz2, View.ld_unit_zero (S := S1x4096) hz2]
  isplitl [H11]
  · iexists _; isplitr; · ipureintro; exact harg11.read_unread _
    iexact H11
  isplitl [H12]
  · iexists _; isplitr; · ipureintro; exact harg12.read_unread _
    iexact H12
  -- the column sum: one whole store of the bumped sum, each of whose operands is a whole load of an unchanged buffer
  iexists _; isplitr
  swap
  · iexact H13
  · ipureintro
    sl_unfold_run_names
    rw [read_writes_unit_zero (S := S1x4096) arg13.view _ hz2]
    dsimp only
    simp only [View.readAt_eq_ld,
      harg2.read_unread, harg4.read_unread, harg5.read_unread, harg11.read_unread, harg13.read_unread,
      View.ld_unit_zero (S := S1x256x256) hz3, View.ld_unit_zero (S := S256x256) hz2, View.ld_unit_zero (S := S1x256) hz2,
      View.ld_unit_zero (S := S4096x256) hz2, View.ld_unit_zero (S := S1x4096) hz2]

end Cert.Kernel.Hand

end
-- ==== Proof.KB.Frame.lean ====

/-
  The body obligation of the fused kernel's pipeline: at every grid point, from the region invariant and the nine
  windows' current staging buffers as the pipeline hands them over, the body runs to the invariant of the next point
  and the buffers as the proof data says it leaves them. A case split on the tile coordinate (first tile of a batch,
  last tile, or neither) selects the control case's run.
-/
import proofs.«430896_j86268713107582_3_alg».proof.Proof.KB.State
import proofs.«430896_j86268713107582_3_alg».proof.Proof.KB.RunFirst
import proofs.«430896_j86268713107582_3_alg».proof.Proof.KB.RunMid
import proofs.«430896_j86268713107582_3_alg».proof.Proof.KB.RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input windows' current buffers -/

/-- Each input window's current staging buffer holds its block at every point, fetched there or not: an input is
    never idle and the body leaves it as found, so where it is not fetched the block index has not moved and the
    block of the point before is this point's. The query tile is fetched at every point, the batch's rows at each
    batch's first tile, the weights and bias rows at the first point only. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

/-! ## The body obligation, at a generic point -/

/-- What the body is called with at point t: the invariant, what the core owes, and the nine windows' current
    staging buffers one by one. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
/-- The body at any point. The eight inputs' buffers hold their blocks; the tile coordinate says which control case
    the point is in. At a batch's first tile the scratch buffers are handed over at anything (what the launch gave, or
    what the batch before left) and come back at the keys, the values and one bump from zero. At a later tile they are
    handed over at what the point before left and the column sum comes back bumped once more; at the last tile the
    output buffer comes back at the pooled row of that column sum and the values. Where the output is not stored its
    buffer is handed back as it was found. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0 t) fullShare ((dats m 0 c).after 0 t) from by
    unfold Dat.leavesExact; rw [live_in 0 (by decide) t], after_0]
  rw [show (dats m 0 c).leavesExact 1 t = owns (c : Thread nD τ) (ms1 t) fullShare ((dats m 0 c).after 1 t) from by
    unfold Dat.leavesExact; rw [live_in 1 (by decide) t], after_1]
  rw [show (dats m 0 c).leavesExact 2 t = owns (c : Thread nD τ) (ms2 t) fullShare ((dats m 0 c).after 2 t) from by
    unfold Dat.leavesExact; rw [live_in 2 (by decide) t], after_2]
  rw [show (dats m 0 c).leavesExact 3 t = owns (c : Thread nD τ) (ms3 t) fullShare ((dats m 0 c).after 3 t) from by
    unfold Dat.leavesExact; rw [live_in 3 (by decide) t], after_3]
  rw [show (dats m 0 c).leavesExact 4 t = owns (c : Thread nD τ) (ms4 t) fullShare ((dats m 0 c).after 4 t) from by
    unfold Dat.leavesExact; rw [live_in 4 (by decide) t], after_4]
  rw [show (dats m 0 c).leavesExact 5 t = owns (c : Thread nD τ) (ms5 t) fullShare ((dats m 0 c).after 5 t) from by
    unfold Dat.leavesExact; rw [live_in 5 (by decide) t], after_5]
  rw [show (dats m 0 c).leavesExact 6 t = owns (c : Thread nD τ) (ms6 t) fullShare ((dats m 0 c).after 6 t) from by
    unfold Dat.leavesExact; rw [live_in 6 (by decide) t], after_6]
  rw [show (dats m 0 c).leavesExact 7 t = owns (c : Thread nD τ) (ms7 t) fullShare ((dats m 0 c).after 7 t) from by
    unfold Dat.leavesExact; rw [live_in 7 (by decide) t], after_7]
  by_cases h0 : t.val % 16 = 0
  · have h1 : ¬t.val % 16 = 15 := by omega
    rw [Dat.leavesExact_idle (dats m 0 c) 8 t (idle_out t (fun h => h1 ((isLast_iff t).mp h))) (noflush_out t (fun h => h1 ((isLast_iff t).mp h)))]
    rw [scAt_first m c t h0]
    dsimp only
    by_cases hz : t.val = 0
    · rw [PhiS_castSucc m c t, PhiS_zero m c _ _ hz, PhiA_eq]
      iintro ⟨⟨⟨HK, HV, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) scC (Memref.isWhole_whole _) ((isFirst_iff t).mpr h0) (fun h => h1 ((isLast_iff t).mp h)) (xq m c t) (xb m c t) (wq m c t) (bq m c t) (wk m c t) (bk m c t) (wv m c t) (bv m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HK]; · iexact HK
      isplitl [HV]; · iexact HV
      isplitl [HC]; · iexact HC
      iintro ⟨H0, H1, H2, H3, H4, H5, H6, H7, HK, HV, HC⟩
      isplitl [HK HV HC Hg]
      · isplitl [HK HV HC]
        · isplitl [HK]; · iexact HK
          isplitl [HV]; · iexact HV
          iexact HC
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS_castSucc m c t, PhiS_pos m c _ _ hz]
      iintro ⟨⟨⟨HK, HV, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) scC (Memref.isWhole_whole _) ((isFirst_iff t).mpr h0) (fun h => h1 ((isLast_iff t).mp h)) (xq m c t) (xb m c t) (wq m c t) (bq m c t) (wk m c t) (bk m c t) (wv m c t) (bv m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HK]; · iexists _; iexact HK
      isplitl [HV]; · iexists _; iexact HV
      isplitl [HC]; · iexists _; iexact HC
      iintro ⟨H0, H1, H2, H3, H4, H5, H6, H7, HK, HV, HC⟩
      isplitl [HK HV HC Hg]
      · isplitl [HK HV HC]
        · isplitl [HK]; · iexact HK
          isplitl [HV]; · iexact HV
          iexact HC
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz : t.val ≠ 0 := fun e => h0 (by rw [e])
    by_cases h1 : t.val % 16 = 15
    · rw [show (dats m 0 c).leavesExact 8 t = owns (c : Thread nD τ) (ms8 t) fullShare ((dats m 0 c).after 8 t) from by
        unfold Dat.leavesExact; rw [live_out t ((isLast_iff t).mpr h1)], after_8]
      unfold outAt
      rw [scAt_later m c t h0]
      dsimp only
      rw [PhiS_castSucc m c t, PhiS_pos m c _ _ hz]
      iintro ⟨⟨⟨HK, HV, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_last c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) scC (Memref.isWhole_whole _) (fun h => h0 ((isFirst_iff t).mp h)) ((isLast_iff t).mpr h1) (xq m c t) (wq m c t) (bq m c t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2 Set.univ _)
      isplitl [H0]; · iexact H0
      isplitl [H2]; · iexact H2
      isplitl [H3]; · iexact H3
      isplitl [H8]; · iexists _; iexact H8
      isplitl [HK]; · iexact HK
      isplitl [HV]; · iexact HV
      isplitl [HC]; · iexact HC
      iintro ⟨H0, H2, H3, H8, HK, HV, HC⟩
      isplitl [HK HV HC Hg]
      · isplitl [HK HV HC]
        · isplitl [HK]; · iexact HK
          isplitl [HV]; · iexact HV
          iexact HC
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Dat.leavesExact_idle (dats m 0 c) 8 t (idle_out t (fun h => h1 ((isLast_iff t).mp h))) (noflush_out t (fun h => h1 ((isLast_iff t).mp h)))]
      rw [scAt_later m c t h0]
      dsimp only
      rw [PhiS_castSucc m c t, PhiS_pos m c _ _ hz]
      iintro ⟨⟨⟨HK, HV, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_mid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) scC (Memref.isWhole_whole _) (fun h => h0 ((isFirst_iff t).mp h)) (fun h => h1 ((isLast_iff t).mp h)) (xq m c t) (wq m c t) (bq m c t) (scAt m c (t.val - 1) (Nat.lt_of_le_of_lt (Nat.sub_le _ _) t.isLt)).1 (scAt m c (t.val - 1) (Nat.lt_of_le_of_lt (Nat.sub_le _ _) t.isLt)).2.2 Set.univ _)
      isplitl [H0]; · iexact H0
      isplitl [H2]; · iexact H2
      isplitl [H3]; · iexact H3
      isplitl [HK]; · iexact HK
      isplitl [HC]; · iexact HC
      iintro ⟨H0, H2, H3, HK, HC⟩
      isplitl [HK HV HC Hg]
      · isplitl [HK HV HC]
        · isplitl [HK]; · iexact HK
          isplitl [HV]; · iexact HV
          iexact HC
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's holdings back: the scratch buffers' contents are
    forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HK, HV, HC⟩, Hg⟩
  isplitl [HK HV HC]
  · isplitl [HK]; · iexists _; iexact HK
    isplitl [HV]; · iexists _; iexact HV
    iexists _; iexact HC
  iexact Hg

/-- After the last point the invariant gives the launch's holdings back: the scratch buffers' contents are forgotten. -/
theorem hout (c : Dev nD) : (dats m 0 c).Φ (Fin.last cfg0.N) ⊢ Pipeline.ΦA spec0 c :=
  Phi_out m c _ (by rw [Fin.val_last]; have : cfg0.N = 128 := N_0; omega)

end Cert.Kernel.Hand

end
-- ==== Proof.KB.Launch.lean ====
/-
  The launch of the fused attention-pool kernel's one region, for any proof data of its pipeline.

  Two of the nine windows stage blocks of the same array — the rows x, once a query tile at a time and once a whole
  batch at a time — so the pipeline's hold on x is not one full share but two halves, one per window: at the region's
  entry the core's full share of x is split in two, and both windows being inputs, neither half is ever written
  through. After the region @main's last line reshapes the result array into a fresh buffer; it runs holding just
  those two buffers. The run concludes what every array of the pipeline and every buffer that bypasses the region
  holds at the end.
-/
import proofs.«430896_j86268713107582_3_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (dats : (p : Fin 1) → (c : Dev nD) → Dat τ (Elt F) Unit ℕ (UR sig nD τ) ℕ (cfgs p) c)

/-- The buffers behind the nine windows' arrays, one by one: eight distinct ones, x counted once. -/
theorem arrBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_arg3) ↦{fullShare} W main_arg3)
          ∗ (((c : Thread nD τ).loc main_v1) ↦{fullShare} W main_v1) ∗ (((c : Thread nD τ).loc main_arg5) ↦{fullShare} W main_arg5)
          ∗ (((c : Thread nD τ).loc main_v2) ↦{fullShare} W main_v2) ∗ (((c : Thread nD τ).loc main_v3) ↦{fullShare} W main_v3)) := by
  unfold Pipeline.arrBufs
  exact bigSep_eq_bigSepL_of_eq [main_arg0, main_arg1, main_v0, main_arg3, main_v1, main_arg5, main_v2, main_v3] (by decide) (by decide) _

/-- The core's buffer contents at the region's exit: the result array at what the write-backs left, everything else
    as the region found it. -/
def exitVal (c : Dev nD) : Valuation τ sig (Elt F) :=
  Function.update (V0 m c) (Proc.devRef .tc main_v3) ((dats 0 c).arrAt 8 cfg0.N)

/-- The two buffers @main's last line touches. -/
abbrev tailSet : Finset (DevRef τ sig) := {Proc.devRef .tc main_v3, Proc.devRef .tc main_v4}

theorem hostOps1_in_tailSet : ∀ ops ∈ ([hostOps1] : List (List (HloOp τ sig (Elt F)))), ∀ op ∈ ops, op.bufs ⊆ (tailSet : Finset (DevRef τ sig)) := by
  intro ops hops op hop
  simp only [List.mem_cons, List.mem_nil_iff, or_false] at hops
  subst hops
  simp only [hostOps1, List.mem_cons, List.mem_nil_iff, or_false] at hop
  subst hop
  exact Finset.Subset.refl _

theorem hostOps1_no_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- Before any write-back an array holds its entry contents. -/
theorem arrAt_zero {cfg : Pipeline.Cfg sig Λ₀} {c : Dev nD} (dat : Dat τ (Elt F) Unit ℕ (UR sig nD τ) ℕ cfg c) (w : Fin cfg.W) :
    dat.arrAt w 0 = dat.A w := rfl

/-- At the region's entry the eight buffers behind the arrays, each whole at the full share, make the pipeline's
    arrays: x's share halved between its two windows, every other array whole. -/
theorem entry_split (hs0 : ∀ c, (dats 0 c).share 0 = fullShare.left) (hs1 : ∀ c, (dats 0 c).share 1 = fullShare.right)
    (hsr : ∀ c (w : Fin cfg0.W), 2 ≤ w.val → (dats 0 c).share w = fullShare)
    (hA : ∀ c w, (dats 0 c).A w = V m c (Pipeline.arrRef spec0 w)) (c : Dev nD) :
    (Pipeline.arrBufs spec0 c (V m c) : sProp 𝕄) ⊢ (dats 0 c).arrays ((dats 0 c).arrAt · 0) := by
  classical
  rw [arrBufs_eq]
  unfold Dat.arrays
  rw [bigSep_W0]
  rw [hs0 c, hs1 c, hsr c 2 (by decide), hsr c 3 (by decide), hsr c 4 (by decide), hsr c 5 (by decide), hsr c 6 (by decide),
    hsr c 7 (by decide), hsr c 8 (by decide)]
  rw [(arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ,
    (arr_whole0 8).set_eq_univ]
  have e : ∀ w, (dats 0 c).arrAt w 0 = V m c (Pipeline.arrRef spec0 w) := fun w => (arrAt_zero (dats 0 c) w).trans (hA c w)
  simp only [e]
  iintro ⟨Hx, Hwq, Hbq, Hwk, Hbk, Hwv, Hbv, Ho⟩
  ihave Hx' := (pointsTo_share (PosShare.mem_left_op_right fullShare)).1 $$ Hx
  icases Hx' with ⟨Hx1, Hx2⟩
  isplitl [Hx1]; · iexact Hx1
  isplitl [Hx2]; · iexact Hx2
  isplitl [Hwq]; · iexact Hwq
  isplitl [Hbq]; · iexact Hbq
  isplitl [Hwk]; · iexact Hwk
  isplitl [Hbk]; · iexact Hbk
  isplitl [Hwv]; · iexact Hwv
  isplitl [Hbv]; · iexact Hbv
  iexact Ho

/-- The exit contents at the result array are what the write-backs left. -/
theorem exitVal_out (c : Dev nD) : exitVal m dats c (Proc.devRef .tc main_v3) = (dats 0 c).arrAt 8 cfg0.N := by
  unfold exitVal; exact Function.update_self _ _ _

/-- and elsewhere what the region found. -/
theorem exitVal_other (c : Dev nD) (b : Ref sig .tc) (hb : b ≠ main_v3) : exitVal m dats c (Proc.devRef .tc b) = V m c b := by
  unfold exitVal
  exact Function.update_of_ne (fun e => hb (Proc.devRef_injective _ e)) _ _

/-- @main's last line writes only its own result buffer. -/
theorem after_tail_of_ne (W : Valuation τ sig (Elt F)) (b : Ref sig .tc) (hb : b ≠ main_v4) :
    StableHlo.after hostOps1 W (Proc.devRef .tc b) = W (Proc.devRef .tc b) :=
  StableHlo.after_of_forall_not_mem _ _ fun op hop hw => by
    simp only [hostOps1, List.mem_cons, List.mem_nil_iff, or_false] at hop
    subst hop
    rw [StableHlo.reshape_writes, Finset.mem_singleton] at hw
    exact hb (Proc.devRef_injective _ hw)

/-- @main's last line, run from the region's exit: it reads the result array (an output: held whole) and writes the
    reshaped result into its own buffer, which bypassed the region; everything else is only carried along. -/
theorem tail_line (hsr : ∀ c (w : Fin cfg0.W), 2 ≤ w.val → (dats 0 c).share w = fullShare) (c : Dev nD) (Q' : PUnit → sProp 𝕄) :
    iprop((iprop((dats 0 c).arrays ((dats 0 c).arrAt · cfg0.N)
            ∗ Pipeline.unscopedRestP Pipeline.Prefetch.none spec0 c (fun b => StableHlo.after hostOps1 (exitVal m dats c) (Proc.devRef .tc b))) -∗ Q' ⟨⟩)
        ∗ boundary (c.tc : Thread nD τ) ∗ (dats 0 c).arrays ((dats 0 c).arrAt · cfg0.N)
        ∗ Pipeline.unscopedRestP Pipeline.Prefetch.none spec0 c (V m c))
      ⊢ wp frame (wpE (defs (F := F)) (Variants.lift Variants.none) (c.tc : Thread nD τ) none) Set.univ
          (Pipeline.chain ([hostOps1].map StableHlo.seq)) Q' := by
  classical
  rw [Pipeline.unscopedRestP_none, Pipeline.unscopedRestP_none, unscopedRest0_eq, unscopedRest0_eq]
  unfold Dat.arrays
  rw [bigSep_W0, hsr c 8 (by decide), (arr_whole0 8).set_eq_univ]
  rw [after_tail_of_ne _ main_arg2 (by decide), after_tail_of_ne _ main_arg4 (by decide), after_tail_of_ne _ main_arg6 (by decide),
    exitVal_other m dats c main_arg2 (by decide), exitVal_other m dats c main_arg4 (by decide), exitVal_other m dats c main_arg6 (by decide)]
  have hh : ∀ W : Valuation τ sig (Elt F), (StableHlo.held (c.tc : Thread nD τ) tailSet W : sProp 𝕄)
      = iprop((((c.tc : Thread nD τ).loc main_v3) ↦{fullShare} W (Proc.devRef .tc main_v3))
          ∗ (((c.tc : Thread nD τ).loc main_v4) ↦{fullShare} W (Proc.devRef .tc main_v4))) := fun W => by
    unfold StableHlo.held
    exact bigSep_eq_bigSepL_of_eq [Proc.devRef .tc main_v3, Proc.devRef .tc main_v4] (by decide) (by decide) _
  have hfl : ([hostOps1] : List (List (HloOp τ sig (Elt F)))).flatten = hostOps1 := rfl
  iintro ⟨Hk, Hb, ⟨A0, A1, A2, A3, A4, A5, A6, A7, A8⟩, ⟨R2, R4, R6, R8⟩⟩
  ihave Hrun := (Pipeline.wp_seqs_then (fun q => (cfgs q).toPCfg (Val := Elt F)) defs₀ Variants.none c tailSet [] (K := Q') [hostOps1]
      hostOps1_in_tailSet hostOps1_no_fresh (exitVal m dats c)) $$ [Hb A8 R8]
  · isplitl [Hb]; · iexact Hb
    rw [hh]
    isplitl [A8]
    · rw [exitVal_out]; iexact A8
    · rw [exitVal_other m dats c main_v4 (by decide)]; iexact R8
  iapply Hrun
  iintro ⟨Hb, Hh⟩
  rw [hfl]
  have hh' : (StableHlo.held (c.tc : Thread nD τ) tailSet (StableHlo.after hostOps1 (exitVal m dats c)) : sProp 𝕄)
      = iprop((((c.tc : Thread nD τ).loc main_v3) ↦{fullShare} (dats 0 c).arrAt 8 cfg0.N)
          ∗ (((c.tc : Thread nD τ).loc main_v4) ↦{fullShare} StableHlo.after hostOps1 (exitVal m dats c) (Proc.devRef .tc main_v4))) := by
    rw [hh, after_tail_of_ne _ main_v3 (by decide), exitVal_out]
  ihave Hh' := (Entails.of_eq hh') $$ Hh
  icases Hh' with ⟨A8, R8⟩
  rw [Pipeline.chain_nil]
  iapply (le_wp_ret _ _ _ _ Q')
  iapply Hk
  isplitl [A0 A1 A2 A3 A4 A5 A6 A7 A8]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  isplitl [R2]; · iexact R2
  isplitl [R4]; · iexact R4
  isplitl [R6]; · iexact R6
  iexact R8

/-- THE RUN. For proof data whose body obligation holds, that hold x in two halves and every other array whole, owe
    nothing, start from the arrays as the region finds them and keep the launch's invariant at both ends: every weakly
    fair execution of @main terminates without a fault; every array of the pipeline ends at what the write-backs
    left, and every buffer that bypassed the region at what @main's last line leaves from the region's exit. -/
theorem run_shared
    (hbody : ∀ c, Pipeline.BodyObligationLoose (dats 0 c) (defs₀ (F := F)) Variants.none () Set.univ)
    (hs0 : ∀ c, (dats 0 c).share 0 = fullShare.left) (hs1 : ∀ c, (dats 0 c).share 1 = fullShare.right)
    (hsr : ∀ c (w : Fin cfg0.W), 2 ≤ w.val → (dats 0 c).share w = fullShare)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (fun r => ∀ c : Dev nD,
      (∀ w, r.2.mem ((spec0 w).arr.view.loc (c.tc : Thread nD τ)) = (dats 0 c).arrAt w cfg0.N)
      ∧ ∀ b ∈ Pipeline.restRefs sig spec0, r.2.mem ((c.tc : Thread nD τ).loc b) = StableHlo.after hostOps1 (exitVal m dats c) (Proc.devRef .tc b)) := by
  classical
  exact Pipeline.θ_run_region_pf_tail (fun q => (cfgs q).toPCfg (Val := Elt F)) (fun q => (cfgs q).toPCfg_adm) dats () cellOf_inj 0 winFacts₀0
    (Pipeline.OwnSemFacts.none spec0) (Pipeline.PreFacts.none _) emb₁ defs₀ Variants.none m ρ main
    (fun _ => Pipeline.chain ([hostOps1].map StableHlo.seq)) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := entry_split m dats hs0 hs1 hsr hA)
    (hpf := fun _ k => k.elim0)
    (X := fun c => iprop(∃ r, prngReg c r)) (Y := fun c => iprop(∃ r, prngReg c r))
    (Z := fun c => Pipeline.unscopedRestP Pipeline.Prefetch.none spec0 c (V m c))
    (Z' := fun c => Pipeline.unscopedRestP Pipeline.Prefetch.none spec0 c (fun b => StableHlo.after hostOps1 (exitVal m dats c) (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := tail_line m dats hsr)
    (QY := fun c s => ∀ b ∈ Pipeline.restRefsP sig Pipeline.Prefetch.none spec0, s.mem ((c.tc : Thread nD τ).loc b) = StableHlo.after hostOps1 (exitVal m dats c) (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => StableHlo.after hostOps1 (exitVal m dats c) (Proc.devRef .tc b)) s')
      isplitl [HU] <;> iassumption)
    (hQ := fun s h c => ⟨(h c).1, Pipeline.rest_of_restP Pipeline.Prefetch.none spec0 (fun k => k.elim0) c _ s (fun k => k.elim0) (h c).2.1 (h c).2.2⟩)

end Cert.Kernel.Hand

end
-- ==== Proof.KB.Run.lean ====
/-
  The fused kernel's run and its frame.

  The launch, at the proof data of the state module: the body obligation from the three control cases, x held in two
  halves. Every array of the pipeline then ends at what the write-backs left; the inputs are never written back, so
  they end as the region found them, and the region found the seven arguments as @main was launched with them (the
  three bias reshapes write other buffers). The three bias vectors bypass the region and the last line leaves them.
-/
import proofs.«430896_j86268713107582_3_alg».proof.Proof.KB.Frame
import proofs.«430896_j86268713107582_3_alg».proof.Proof.KB.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, at the state module's proof data. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after hostOps1 (exitVal m (dats m) c) (Proc.devRef .tc b)) :=
  run_shared m ρ (dats m) (fun c => (body_obligation m c).loose) (share_0 m) (share_1 m) (share_rest m) (fun _ _ => rfl)
    (A_eq m) (hin m) (hout m)

/-- The region finds each argument as @main was launched with it: the three lines before it write other buffers. -/
theorem V_arg (c : Dev nD) (b : Ref sig .tc) (h0 : b ≠ main_v0) (h1 : b ≠ main_v1) (h2 : b ≠ main_v2) :
    V m c b = m ((c.tc : Thread nD τ).loc b) := by
  show StableHlo.after (List.flatten [hostOps0]) (fun b => m (c, b)) (Proc.devRef .tc b) = _
  refine (StableHlo.after_of_forall_not_mem _ _ fun op hop hw => ?_).trans rfl
  simp only [List.flatten_cons, List.flatten_nil, List.append_nil, hostOps0, List.mem_cons, List.mem_nil_iff, or_false] at hop
  rcases hop with rfl | rfl | rfl <;>
    (rw [StableHlo.reshape_writes, Finset.mem_singleton] at hw
     first | exact h0 (Proc.devRef_injective _ hw) | exact h1 (Proc.devRef_injective _ hw) | exact h2 (Proc.devRef_injective _ hw))

/-- The run read at @main's own buffers: the result buffer at what the last line makes of the region's exit, and the
    seven argument arrays unchanged. -/
theorem run_result : θ_run defs (onTc (τ := τ) (main (F := F))) ⟨m, fun _ => 0, ρ⟩ (fun r => ∀ c : Dev nD,
      r.2.mem ((c.tc : Thread nD τ).loc main_v4) = StableHlo.after hostOps1 (exitVal m (dats m) c) (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_main m ρ)
  have hin : ∀ w : Fin cfg0.W, (cfg0.win w).isOut = false → r.2.mem ((spec0 w).arr.view.loc (c.tc : Thread nD τ)) = V m c (Pipeline.arrRef spec0 w) :=
    fun w hw => ((h c).1 w).trans (((dats m 0 c).arrAt_in w hw _).trans (A_eq m c w))
  have hby : ∀ b ∈ Pipeline.restRefs sig spec0, b ≠ main_v4 → b ≠ main_v3 → r.2.mem ((c.tc : Thread nD τ).loc b) = V m c b :=
    fun b hb h4 h3 => ((h c).2 b hb).trans ((after_tail_of_ne _ b h4).trans (exitVal_other m (dats m) c b h3))
  refine ⟨(h c).2 main_v4 (by decide),
    (hin 0 rfl).trans (V_arg m c main_arg0 (by decide) (by decide) (by decide)),
    (hin 2 rfl).trans (V_arg m c main_arg1 (by decide) (by decide) (by decide)),
    (hby main_arg2 (by decide) (by decide) (by decide)).trans (V_arg m c main_arg2 (by decide) (by decide) (by decide)),
    (hin 4 rfl).trans (V_arg m c main_arg3 (by decide) (by decide) (by decide)),
    (hby main_arg4 (by decide) (by decide) (by decide)).trans (V_arg m c main_arg4 (by decide) (by decide) (by decide)),
    (hin 6 rfl).trans (V_arg m c main_arg5 (by decide) (by decide) (by decide)),
    (hby main_arg6 (by decide) (by decide) (by decide)).trans (V_arg m c main_arg6 (by decide) (by decide) (by decide))⟩

/-- THE FRAME: every weakly fair execution terminates without a fault and the seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_result m ρ)

end Cert.Kernel.Hand

end
-- ==== Proof.KI.Chain.lean ====
/-
  The fused kernel's arithmetic for one batch, as a chain of the body's own stores: the keys and values projected
  once from the batch's rows, the running column sum of the attention weights bumped once per query tile from
  zero, and the pooled row computed from the last column sum and the values. Stated at any float instance.
-/
import proofs.«430896_j86268713107582_3_alg».proof.Proof.Gen.KernelIdeal.Skeleton

noncomputable section

namespace Cert.KernelIdeal.Hand

open Cert.KernelIdeal Cert.KernelIdeal.Gen
open Idealize.ShloMosaic

variable {F : FTy → Type} [FloatOps F]

/-- The keys of a batch, from the batch's rows of x, the key weights and the key bias row. -/
abbrev keys (xb : Vec F S1x4096x256 .f32) (wk : Vec F S256x256 .f32) (bk : Vec F S1x256 .f32) : FVec F S4096x256 .bf16 := k0_pay4 xb wk bk
/-- The values of a batch. -/
abbrev vals (xb : Vec F S1x4096x256 .f32) (wv : Vec F S256x256 .f32) (bv : Vec F S1x256 .f32) : FVec F S4096x256 .bf16 := k0_pay5 xb wv bv
/-- The cleared column sum. -/
abbrev clear : FVec F S1x4096 .f32 := k0_pay6
/-- One tile's update of the running column sum: the tile's queries against all the keys, softmax row by row,
    the 256 rows summed, added to what was there. -/
abbrev bump (xq : Vec F S1x256x256 .f32) (wq : Vec F S256x256 .f32) (bq : Vec F S1x256 .f32) (K : Vec F S4096x256 .bf16) (C : Vec F S1x4096 .f32) : FVec F S1x4096 .f32 :=
  k0_pay1 (k0_pay7 xq wq bq K C)
/-- The pooled output row of a batch: the column sum over 4096, times the values. -/
abbrev pooled (C : Vec F S1x4096 .f32) (Vs : Vec F S4096x256 .bf16) : FVec F S1x1x256 .f32 := k0_pay2 C Vs

/-- The column sum after the first n tiles of a batch. -/
def colAcc (tile : Fin 16 → Vec F S1x256x256 .f32) (wq : Vec F S256x256 .f32) (bq : Vec F S1x256 .f32) (K : Vec F S4096x256 .bf16) :
    (n : ℕ) → n ≤ 16 → Vec F S1x4096 .f32
  | 0, _ => clear
  | n + 1, hn => bump (tile ⟨n, hn⟩) wq bq K (colAcc tile wq bq K n (Nat.le_of_succ_le hn))

/-- A batch's pooled row from its sixteen query tiles, its rows, the three weight matrices and bias rows. -/
def batchOut (tile : Fin 16 → Vec F S1x256x256 .f32) (xb : Vec F S1x4096x256 .f32)
    (wq : Vec F S256x256 .f32) (bq : Vec F S1x256 .f32) (wk : Vec F S256x256 .f32) (bk : Vec F S1x256 .f32)
    (wv : Vec F S256x256 .f32) (bv : Vec F S1x256 .f32) : Vec F S1x1x256 .f32 :=
  pooled (colAcc tile wq bq (keys xb wk bk) 16 le_rfl) (vals xb wv bv)

end Cert.KernelIdeal.Hand

end
-- ==== Proof.KI.Base.lean ====
/-
  What the three control cases of the fused attention-pool kernel, its proof data and its launch are stated over.

  The grid is (batch, query tile) = 8 x 16, walked row-major: point t is batch t / 16, tile t % 16. Before the
  region @main reshapes the three bias vectors to rows; after it, it drops the middle axis of the result. The body
  has two conditionals on the tile coordinate: at tile 0 it projects the batch's keys and values into two scratch
  buffers and clears the running column sum; at tile 15 it scales the column sum and multiplies it into the values.
  Everything here holds at any float instance.
-/
import proofs.«430896_j86268713107582_3_alg».proof.Proof.Gen.KernelIdeal.Launch
import proofs.«430896_j86268713107582_3_alg».proof.Proof.Gen.KernelIdeal.Skeleton
import proofs.«430896_j86268713107582_3_alg».proof.Proof.Gen.KernelIdeal.Points
import proofs.«430896_j86268713107582_3_alg».proof.Proof.KI.Chain
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: the launch contents after the three bias reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the bias reshapes, the region, and the result's reshape: it reduces to the region continued by the
    last line, at the contents after the first three. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two conditions, in closed form over the grid -/

/-- The first conditional's test (tile coordinate = 0), as the body computes it from the coordinates. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 16 = 0 :=
  (by decide +kernel : ∀ t : Fin grid0.N, isFirst (grid0.coords t) ↔ t.val % 16 = 0)

/-- The second conditional's test (tile coordinate = 15). -/
abbrev isLast (i : grid0.Coords) : Prop := k0_cond2 i = 1#1
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live_in : ∀ (w : Fin 9), w.val < 8 → ∀ t : Fin cfg0.N, cfg0.idle w (grid0.coords t) = false := by decide +kernel
/-- The output block is stored only at the last tile of a batch: elsewhere its window is idle and not written back. -/
theorem idle_out : ∀ t : Fin cfg0.N, ¬isLast (grid0.coords t) → cfg0.idle 8 (grid0.coords t) = true := by decide +kernel
theorem noflush_out : ∀ t : Fin cfg0.N, ¬isLast (grid0.coords t) → (cfg0.win 8).flush t = false := by decide +kernel
theorem live_out : ∀ t : Fin cfg0.N, isLast (grid0.coords t) → cfg0.idle 8 (grid0.coords t) = false := by decide +kernel

/-! ## The staging memrefs at a point, and the three scratch buffers -/

abbrev ms0 (t : Fin cfg0.N) : Memref sig .tc .vmem S1x256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1x256 .f32 := win0_8.stage (cfg0.slots t 8)
abbrev hs8 (t : Fin cfg0.N) : (ms8 t).IsWhole := hstage0_8 ((cfg0.slots t 8).cast nbuf0_8)

/-- The keys' scratch, the values' scratch and the running column sum. -/
abbrev scK : Memref sig .tc .vmem S4096x256 .bf16 := Memref.whole cc0_scratch0
abbrev scV : Memref sig .tc .vmem S4096x256 .bf16 := Memref.whole cc0_scratch1
abbrev scC : Memref sig .tc .vmem S1x4096 .f32 := Memref.whole cc0_scratch2

/-- What the launch hands the region beside the windows: the three scratch buffers at some contents and the
    generator register. -/
theorem PhiA_eq (c : Dev nD) :
    (Pipeline.ΦA spec0 c : sProp 𝕄)
      = iprop(iprop((∃ d, owns (c : Thread nD τ) scK fullShare d) ∗ (∃ d, owns (c : Thread nD τ) scV fullShare d) ∗ (∃ d, owns (c : Thread nD τ) scC fullShare d)) ∗ (∃ r, prngReg c r)) := by
  unfold Pipeline.ΦA; rw [scopedRest0_eq]; simp only [scK, scV, scC, owns_whole]; try rfl

end Cert.KernelIdeal.Hand

end
-- ==== Proof.KI.State.lean ====
/-
  What the three scratch buffers and the output buffer hold after each grid point, and the pipeline's proof data.

  After point t of batch b = t / 16: the keys' and values' scratch hold the batch's keys and values (written at the
  batch's first tile and kept since), the column-sum scratch holds the bumps of tiles 0 .. t % 16 of the batch from
  zero, and — were the output stored there — the pooled row of what the column sum and values then hold. The rows of
  x are read through two windows (one query tile; the whole batch): the core's hold on x is split in two halves.
-/
import proofs.«430896_j86268713107582_3_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input blocks at a point, at their literal types -/

abbrev xq (c : Dev nD) (t : Fin cfg0.N) : Vec F S1x256x256 .f32 := iblk m c 0 t
abbrev xb (c : Dev nD) (t : Fin cfg0.N) : Vec F S1x4096x256 .f32 := iblk m c 1 t
abbrev wq (c : Dev nD) (t : Fin cfg0.N) : Vec F S256x256 .f32 := iblk m c 2 t
abbrev bq (c : Dev nD) (t : Fin cfg0.N) : Vec F S1x256 .f32 := iblk m c 3 t
abbrev wk (c : Dev nD) (t : Fin cfg0.N) : Vec F S256x256 .f32 := iblk m c 4 t
abbrev bk (c : Dev nD) (t : Fin cfg0.N) : Vec F S1x256 .f32 := iblk m c 5 t
abbrev wv (c : Dev nD) (t : Fin cfg0.N) : Vec F S256x256 .f32 := iblk m c 6 t
abbrev bv (c : Dev nD) (t : Fin cfg0.N) : Vec F S1x256 .f32 := iblk m c 7 t

/-! ## The scratch buffers after each point -/

/-- The keys' scratch, the values' scratch and the column sum after the body at position n: at a batch's first tile
    freshly projected and one bump from zero; later what the point before left, the column sum bumped once more. -/
def scAt (c : Dev nD) : (n : ℕ) → n < cfg0.N → Vec F S4096x256 .bf16 × Vec F S4096x256 .bf16 × Vec F S1x4096 .f32
  | 0, hn => (keys (xb m c ⟨0, hn⟩) (wk m c ⟨0, hn⟩) (bk m c ⟨0, hn⟩), vals (xb m c ⟨0, hn⟩) (wv m c ⟨0, hn⟩) (bv m c ⟨0, hn⟩),
      bump (xq m c ⟨0, hn⟩) (wq m c ⟨0, hn⟩) (bq m c ⟨0, hn⟩) (keys (xb m c ⟨0, hn⟩) (wk m c ⟨0, hn⟩) (bk m c ⟨0, hn⟩)) clear)
  | n + 1, hn =>
    if (n + 1) % 16 = 0 then
      (keys (xb m c ⟨n + 1, hn⟩) (wk m c ⟨n + 1, hn⟩) (bk m c ⟨n + 1, hn⟩), vals (xb m c ⟨n + 1, hn⟩) (wv m c ⟨n + 1, hn⟩) (bv m c ⟨n + 1, hn⟩),
        bump (xq m c ⟨n + 1, hn⟩) (wq m c ⟨n + 1, hn⟩) (bq m c ⟨n + 1, hn⟩) (keys (xb m c ⟨n + 1, hn⟩) (wk m c ⟨n + 1, hn⟩) (bk m c ⟨n + 1, hn⟩)) clear)
    else
      ((scAt c n (Nat.lt_of_succ_lt hn)).1, (scAt c n (Nat.lt_of_succ_lt hn)).2.1,
        bump (xq m c ⟨n + 1, hn⟩) (wq m c ⟨n + 1, hn⟩) (bq m c ⟨n + 1, hn⟩) (scAt c n (Nat.lt_of_succ_lt hn)).1 (scAt c n (Nat.lt_of_succ_lt hn)).2.2)

/-- At a batch's first tile. -/
theorem scAt_first (c : Dev nD) (t : Fin cfg0.N) (h : t.val % 16 = 0) :
    scAt m c t.val t.isLt = (keys (xb m c t) (wk m c t) (bk m c t), vals (xb m c t) (wv m c t) (bv m c t),
      bump (xq m c t) (wq m c t) (bq m c t) (keys (xb m c t) (wk m c t) (bk m c t)) clear) := by
  obtain ⟨n, hn⟩ := t
  cases n with
  | zero => rfl
  | succ n => exact (if_pos h).trans rfl

/-- At a later tile: over what the point before left. -/
theorem scAt_later (c : Dev nD) (t : Fin cfg0.N) (h : ¬t.val % 16 = 0) :
    scAt m c t.val t.isLt = ((scAt m c (t.val - 1) (Nat.lt_of_le_of_lt (Nat.sub_le _ _) t.isLt)).1, (scAt m c (t.val - 1) (Nat.lt_of_le_of_lt (Nat.sub_le _ _) t.isLt)).2.1,
      bump (xq m c t) (wq m c t) (bq m c t) (scAt m c (t.val - 1) (Nat.lt_of_le_of_lt (Nat.sub_le _ _) t.isLt)).1 (scAt m c (t.val - 1) (Nat.lt_of_le_of_lt (Nat.sub_le _ _) t.isLt)).2.2) := by
  obtain ⟨n, hn⟩ := t
  cases n with
  | zero => exact absurd (Nat.zero_mod _) h
  | succ n => exact (if_neg h).trans rfl

/-- The pooled row of what the column sum and the values hold after point t: what the last tile of a batch stores. -/
def outAt (c : Dev nD) (t : Fin cfg0.N) : Vec F S1x1x256 .f32 :=
  pooled (scAt m c t.val t.isLt).2.2 (scAt m c t.val t.isLt).2.1

/-! ## The region invariant -/

/-- Before position n: at the start what the launch hands over (the scratch buffers at anything); afterwards the three
    scratch buffers at what the point before left, and the generator register at some state. -/
def PhiS (c : Dev nD) : (n : ℕ) → n ≤ cfg0.N → sProp 𝕄
  | 0, _ => Pipeline.ΦA spec0 c
  | n + 1, hn => iprop(iprop(owns (c : Thread nD τ) scK fullShare (scAt m c n hn).1 ∗ owns (c : Thread nD τ) scV fullShare (scAt m c n hn).2.1
      ∗ owns (c : Thread nD τ) scC fullShare (scAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scK fullShare (scAt m c n hn).1 ∗ owns (c : Thread nD τ) scV fullShare (scAt m c n hn).2.1
      ∗ owns (c : Thread nD τ) scC fullShare (scAt m c n hn).2.2) ∗ (∃ r, prngReg c r)) := rfl

theorem PhiS_pos (c : Dev nD) (n : ℕ) (h : n ≤ cfg0.N) (hz : n ≠ 0) :
    PhiS m c n h = iprop(iprop(owns (c : Thread nD τ) scK fullShare (scAt m c (n - 1) (by omega)).1 ∗ owns (c : Thread nD τ) scV fullShare (scAt m c (n - 1) (by omega)).2.1
      ∗ owns (c : Thread nD τ) scC fullShare (scAt m c (n - 1) (by omega)).2.2) ∗ (∃ r, prngReg c r)) := by
  cases n with
  | zero => exact absurd rfl hz
  | succ n => rfl

/-! ## The proof data -/

/-- The arrays as the region finds them; after the body each input's buffer at its block and the output's at the
    pooled row; the invariant above; nothing owed; x held in two halves by its two windows, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outAt m c t := by dsimp only [dats]

theorem share_0 (c : Dev nD) : (dats m 0 c).share 0 = fullShare.left := rfl
theorem share_1 (c : Dev nD) : (dats m 0 c).share 1 = fullShare.right := rfl
theorem share_rest (c : Dev nD) (w : Fin cfg0.W) (h : 2 ≤ w.val) : (dats m 0 c).share w = fullShare := by
  fin_cases w <;> first | (exfalso; revert h; decide) | rfl

end Cert.KernelIdeal.Hand

end
-- ==== Proof.KI.RunFirst.lean ====
/-
  The body at the first query tile of a batch (and not the last): it projects the batch's keys and values into the
  two scratch buffers, clears the column sum, and then does what every tile does — bumps the column sum by this
  tile's attention weights. The output buffer is not touched.
-/
import proofs.«430896_j86268713107582_3_alg».proof.Proof.KI.Base
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets, however spelt, are the constant zero. -/
private theorem off2_zero : (![0, 0] : Fin 2 → ℕ) = fun _ => 0 := by funext a; fin_cases a <;> rfl
private theorem off3_zero : (![0, 0, 0] : Fin 3 → ℕ) = fun _ => 0 := by funext a; fin_cases a <;> rfl

/-- A load of a whole buffer through the full rectangle at offset zero reads its contents. -/
private theorem load_whole {S : Shape} {e : EltTy} (m : Memref sig .tc .vmem S e) (h : m.IsWhole)
    {off : Fin S.rank → ℕ} (hz : off = fun _ => 0) (inb : ∀ a, off a + S.size a ≤ S.size a) (X : Vec F S e) :
    m.view.readAt (Elt F) (Rect.unit off S.size inb).toLoadRect (h.unread X) = X := by
  rw [View.readAt_eq_ld, h.read_unread, View.ld_unit_zero hz]

/-- After a store through the full rectangle at offset zero, made last, the buffer reads the stored payload. -/
private theorem read_after_store {S : Shape} {e : EltTy} (v : View sig .tc .vmem S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-- A load through the full rectangle of what one store through it left reads the payload. -/
private theorem load_after_store {S : Shape} {e : EltTy} (v : View sig .tc .vmem S e)
    {off : Fin S.rank → ℕ} (hz : off = fun _ => 0) (inb : ∀ a, off a + S.size a ≤ S.size a) (w : S.Idx → Elt F e) :
    v.readCov [(⟨Rect.unit off S.size inb, w⟩ : View.Piece (Elt F) S e)] (Rect.unit off S.size inb).toLoadRect = w :=
  View.readCov_unit_zero v hz inb w

set_option maxHeartbeats 4000000 in
/-- From the eight input buffers at any contents and the three scratch buffers at anything, the body runs to the
    inputs unchanged, the keys and values of the batch in their scratch buffers, and the column sum at one bump
    from zero. -/
theorem run_first (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x1x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1x4096 .f32) (harg13 : arg13.IsWhole)
    (h1 : isFirst i) (h2 : ¬isLast i)
    (xq : Vec F S1x256x256 .f32) (xb : Vec F S1x4096x256 .f32) (wq : Vec F S256x256 .f32) (bq : Vec F S1x256 .f32)
    (wk : Vec F S256x256 .f32) (bk : Vec F S1x256 .f32) (wv : Vec F S256x256 .f32) (bv : Vec F S1x256 .f32)
    (E : Set ℕ) (K : PUnit → sProp 𝕄) :
    iprop(owns (c : Thread nD τ) arg2 fullShare xq ∗ owns (c : Thread nD τ) arg3 fullShare xb ∗ owns (c : Thread nD τ) arg4 fullShare wq ∗ owns (c : Thread nD τ) arg5 fullShare bq ∗ owns (c : Thread nD τ) arg6 fullShare wk ∗ owns (c : Thread nD τ) arg7 fullShare bk ∗ owns (c : Thread nD τ) arg8 fullShare wv ∗ owns (c : Thread nD τ) arg9 fullShare bv
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare xq ∗ owns (c : Thread nD τ) arg3 fullShare xb ∗ owns (c : Thread nD τ) arg4 fullShare wq ∗ owns (c : Thread nD τ) arg5 fullShare bq ∗ owns (c : Thread nD τ) arg6 fullShare wk ∗ owns (c : Thread nD τ) arg7 fullShare bk ∗ owns (c : Thread nD τ) arg8 fullShare wv ∗ owns (c : Thread nD τ) arg9 fullShare bv
            ∗ owns (c : Thread nD τ) arg11 fullShare (keys xb wk bk) ∗ owns (c : Thread nD τ) arg12 fullShare (vals xb wv bv) ∗ owns (c : Thread nD τ) arg13 fullShare (bump xq wq bq (keys xb wk bk) clear)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d11, %f11, %hf11, H11⟩, ⟨%d12, %f12, %hf12, H12⟩, ⟨%d13, %f13, %hf13, H13⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact h1 | exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H11]
  · iexists _; isplitr
    rotate_left
    · iexact H11
    · ipureintro
      sl_unfold_run_names
      refine (read_after_store (S := S4096x256) _ _ off2_zero _ _ _).trans ?_
      rw [load_whole arg3 harg3 off3_zero, load_whole arg6 harg6 off2_zero, load_whole arg7 harg7 off2_zero]
  isplitl [H12]
  · iexists _; isplitr
    rotate_left
    · iexact H12
    · ipureintro
      refine (read_after_store (S := S4096x256) _ _ off2_zero _ _ _).trans ?_
      rw [load_whole arg3 harg3 off3_zero, load_whole arg8 harg8 off2_zero, load_whole arg9 harg9 off2_zero]
  iexists _; isplitr
  rotate_left
  · iexact H13
  · ipureintro
    sl_unfold_run_names
    refine (read_after_store (S := S1x4096) _ _ off2_zero _ _ _).trans ?_
    dsimp only
    rw [load_after_store arg11.view off2_zero, load_after_store arg13.view off2_zero,
      load_whole arg2 harg2 off3_zero, load_whole arg4 harg4 off2_zero, load_whole arg5 harg5 off2_zero,
      load_whole arg3 harg3 off3_zero, load_whole arg6 harg6 off2_zero, load_whole arg7 harg7 off2_zero]

end Cert.KernelIdeal.Hand

end
-- ==== Proof.KI.RunMid.lean ====
/-
  The body at a query tile that is neither the first nor the last of its batch: it reads the keys from their scratch
  buffer and bumps the column sum by this tile's attention weights. Nothing else is touched.
-/
import proofs.«430896_j86268713107582_3_alg».proof.Proof.KI.Base
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two zero offsets of a rank-2 whole-buffer rectangle, as the constant zero function. -/
private theorem hz2 : (![0, 0] : Fin 2 → Nat) = fun _ => 0 := funext fun a => by fin_cases a <;> rfl
/-- The three zero offsets of a rank-3 whole-buffer rectangle. -/
private theorem hz3 : (![0, 0, 0] : Fin 3 → Nat) = fun _ => 0 := funext fun a => by fin_cases a <;> rfl

/-- One store through the whole rectangle of a buffer (zero offsets, the buffer's own extents) leaves its payload: the
    single piece covers every index, so the buffer reads back as what was stored, whatever it held before. Stated at
    any shape. -/
private theorem read_store_whole {S : Shape} {e : EltTy} {sp : Space} (a : Memref sig .tc sp S e) (f : a.view.ty.Contents (Elt F))
    {off : Fin S.rank → Nat} (h : off = fun _ => 0) (inb : ∀ x, off x + S.size x ≤ S.size x) (w : S.Idx → Elt F e) :
    a.view.read (Elt F) (a.view.writes (Elt F) f [(⟨Rect.unit off S.size inb, w⟩ : View.Piece (Elt F) S e)]) = w := by
  rw [View.read_writes_eq_canon a.view f _
    (fun y => ⟨_, List.mem_singleton_self _, View.mem_set_unit_zero h inb y⟩), View.canon_unit_zero h inb w]

set_option maxHeartbeats 1000000 in
theorem run_mid (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x1x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1x4096 .f32) (harg13 : arg13.IsWhole)
    (h1 : ¬isFirst i) (h2 : ¬isLast i)
    (xq : Vec F S1x256x256 .f32) (wq : Vec F S256x256 .f32) (bq : Vec F S1x256 .f32)
    (Ks : Vec F S4096x256 .bf16) (Cs : Vec F S1x4096 .f32)
    (E : Set ℕ) (K : PUnit → sProp 𝕄) :
    iprop(owns (c : Thread nD τ) arg2 fullShare xq ∗ owns (c : Thread nD τ) arg4 fullShare wq ∗ owns (c : Thread nD τ) arg5 fullShare bq ∗ owns (c : Thread nD τ) arg11 fullShare Ks ∗ owns (c : Thread nD τ) arg13 fullShare Cs
        ∗ (iprop(owns (c : Thread nD τ) arg2 fullShare xq ∗ owns (c : Thread nD τ) arg4 fullShare wq ∗ owns (c : Thread nD τ) arg5 fullShare bq ∗ owns (c : Thread nD τ) arg11 fullShare Ks ∗ owns (c : Thread nD τ) arg13 fullShare (bump xq wq bq Ks Cs)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%f2, %hf2, H2⟩, ⟨%f4, %hf4, H4⟩, ⟨%f5, %hf5, H5⟩, ⟨%f11, %hf11, H11⟩, ⟨%f13, %hf13, H13⟩, Hk⟩
  obtain rfl := harg2.eq_unread hf2; obtain rfl := harg4.eq_unread hf4; obtain rfl := harg5.eq_unread hf5
  obtain rfl := harg11.eq_unread hf11; obtain rfl := harg13.eq_unread hf13
  -- neither conditional is taken: the body is five whole-buffer loads and one whole-buffer store of the column sum
  sl_exec (disch := first | exact h1 | exact h2)
  sl_step
  iapply Hk
  -- the four buffers only read are handed back at the contents they came with
  isplitl [H2]
  · iexists _; isplitr; · ipureintro; exact harg2.read_unread _
    iexact H2
  isplitl [H4]
  · iexists _; isplitr; · ipureintro; exact harg4.read_unread _
    iexact H4
  isplitl [H5]
  · iexists _; isplitr; · ipureintro; exact harg5.read_unread _
    iexact H5
  isplitl [H11]
  · iexists _; isplitr; · ipureintro; exact harg11.read_unread _
    iexact H11
  -- the column sum: its one store covers the buffer, so it reads back as the stored payload, whose five loads read
  -- the whole contents of the tile's queries, the query weights, the query bias, the keys and the old column sum
  iexists _; isplitr
  swap
  · iexact H13
  · ipureintro
    rw [read_store_whole (S := S1x4096) arg13 _ hz2 inb_S1x4096_S1x4096_0_0 _]
    sl_unfold_run_names
    simp only [View.readAt_eq_ld, harg2.read_unread, harg4.read_unread, harg5.read_unread, harg11.read_unread,
      harg13.read_unread, View.ld_unit_zero (S := S1x256x256) hz3, View.ld_unit_zero (S := S256x256) hz2,
      View.ld_unit_zero (S := S1x256) hz2, View.ld_unit_zero (S := S4096x256) hz2, View.ld_unit_zero (S := S1x4096) hz2]

end Cert.KernelIdeal.Hand

end
-- ==== Proof.KI.RunLast.lean ====
/-
  The body at the last query tile of a batch: it bumps the column sum as every tile does, then scales it by 1/4096,
  multiplies it into the values and stores the pooled row into the output buffer.
-/
import proofs.«430896_j86268713107582_3_alg».proof.Proof.KI.Base
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 and of a rank-3 whole-shape rectangle, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-- What a whole-shape store at zero offsets, made last, leaves to be read through the view: its payload, whatever
    the buffer held and whatever was stored before. -/
private theorem read_writes_unit_zero {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f ((⟨Rect.unit off S.size inb, w⟩ : View.Piece Val S e) :: L)
      (fun y => ⟨_, List.mem_cons_self, View.mem_set_unit_zero h inb y⟩),
    View.canon_cons_unit_zero h inb w L]

set_option maxHeartbeats 4000000 in
theorem run_last (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x1x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S1x4096 .f32) (harg13 : arg13.IsWhole)
    (h1 : ¬isFirst i) (h2 : isLast i)
    (xq : Vec F S1x256x256 .f32) (wq : Vec F S256x256 .f32) (bq : Vec F S1x256 .f32)
    (Ks : Vec F S4096x256 .bf16) (Vs : Vec F S4096x256 .bf16) (Cs : Vec F S1x4096 .f32)
    (E : Set ℕ) (K : PUnit → sProp 𝕄) :
    iprop(owns (c : Thread nD τ) arg2 fullShare xq ∗ owns (c : Thread nD τ) arg4 fullShare wq ∗ owns (c : Thread nD τ) arg5 fullShare bq ∗ (∃ d, owns (c : Thread nD τ) arg10 fullShare d) ∗ owns (c : Thread nD τ) arg11 fullShare Ks ∗ owns (c : Thread nD τ) arg12 fullShare Vs ∗ owns (c : Thread nD τ) arg13 fullShare Cs
        ∗ (iprop(owns (c : Thread nD τ) arg2 fullShare xq ∗ owns (c : Thread nD τ) arg4 fullShare wq ∗ owns (c : Thread nD τ) arg5 fullShare bq ∗ owns (c : Thread nD τ) arg10 fullShare (pooled (bump xq wq bq Ks Cs) Vs)
            ∗ owns (c : Thread nD τ) arg11 fullShare Ks ∗ owns (c : Thread nD τ) arg12 fullShare Vs ∗ owns (c : Thread nD τ) arg13 fullShare (bump xq wq bq Ks Cs)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K := by
  -- the printed body and its first part are their skeletons over the payload names
  simp only [cc0__fused_kernel_eq_skeleton]; unfold cc0__fused_kernel_skel
  simp only [k0_part1_eq_skeleton]; unfold k0_part1_skel
  unfold owns
  iintro ⟨⟨%f2, %hf2, H2⟩, ⟨%f4, %hf4, H4⟩, ⟨%f5, %hf5, H5⟩, ⟨%d10, %f10, -, H10⟩, ⟨%f11, %hf11, H11⟩, ⟨%f12, %hf12, H12⟩, ⟨%f13, %hf13, H13⟩, Hk⟩
  -- a whole memref's contents are determined by what is read through it
  obtain rfl := harg2.eq_unread hf2; obtain rfl := harg4.eq_unread hf4; obtain rfl := harg5.eq_unread hf5
  obtain rfl := harg11.eq_unread hf11; obtain rfl := harg12.eq_unread hf12; obtain rfl := harg13.eq_unread hf13
  -- the first conditional is skipped (not the first tile), the second is taken (the last tile)
  sl_exec (disch := first | exact h1 | exact h2)
  sl_step
  iapply Hk
  isplitl [H2]
  · iexists _; isplitr; · ipureintro; exact harg2.read_unread _
    iexact H2
  isplitl [H4]
  · iexists _; isplitr; · ipureintro; exact harg4.read_unread _
    iexact H4
  isplitl [H5]
  · iexists _; isplitr; · ipureintro; exact harg5.read_unread _
    iexact H5
  isplitl [H10]
  · -- the output buffer: one whole store of the pooled row, computed from the column sum read back after its
    -- own whole store (so the bumped sum) and from the values as they were
    iexists _; isplitr
    swap
    · iexact H10
    · ipureintro
      rw [read_writes_unit_zero (S := S1x1x256) arg10.view _ hz3]
      sl_unfold_run_names
      dsimp only
      simp only [View.readCov_unit_zero (S := S1x4096) arg13.view hz2, View.readAt_eq_ld,
        harg2.read_unread, harg4.read_unread, harg5.read_unread, harg11.read_unread, harg12.read_unread, harg13.read_unread,
        View.ld_unit_zero (S := S1x256x256) hz3, View.ld_unit_zero (S := S256x256) hz2, View.ld_unit_zero (S := S1x256) hz2,
        View.ld_unit_zero (S := S4096x256) hz2, View.ld_unit_zero (S := S1x4096) hz2]
  isplitl [H11]
  · iexists _; isplitr; · ipureintro; exact harg11.read_unread _
    iexact H11
  isplitl [H12]
  · iexists _; isplitr; · ipureintro; exact harg12.read_unread _
    iexact H12
  -- the column sum: one whole store of the bumped sum, each of whose operands is a whole load of an unchanged buffer
  iexists _; isplitr
  swap
  · iexact H13
  · ipureintro
    sl_unfold_run_names
    rw [read_writes_unit_zero (S := S1x4096) arg13.view _ hz2]
    dsimp only
    simp only [View.readAt_eq_ld,
      harg2.read_unread, harg4.read_unread, harg5.read_unread, harg11.read_unread, harg13.read_unread,
      View.ld_unit_zero (S := S1x256x256) hz3, View.ld_unit_zero (S := S256x256) hz2, View.ld_unit_zero (S := S1x256) hz2,
      View.ld_unit_zero (S := S4096x256) hz2, View.ld_unit_zero (S := S1x4096) hz2]

end Cert.KernelIdeal.Hand

end
-- ==== Proof.KI.Frame.lean ====
/-
  The body obligation of the fused kernel's pipeline: at every grid point, from the region invariant and the nine
  windows' current staging buffers as the pipeline hands them over, the body runs to the invariant of the next point
  and the buffers as the proof data says it leaves them. A case split on the tile coordinate (first tile of a batch,
  last tile, or neither) selects the control case's run.
-/
import proofs.«430896_j86268713107582_3_alg».proof.Proof.KI.State
import proofs.«430896_j86268713107582_3_alg».proof.Proof.KI.RunFirst
import proofs.«430896_j86268713107582_3_alg».proof.Proof.KI.RunMid
import proofs.«430896_j86268713107582_3_alg».proof.Proof.KI.RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input windows' current buffers -/

/-- Each input window's current staging buffer holds its block at every point, fetched there or not: an input is
    never idle and the body leaves it as found, so where it is not fetched the block index has not moved and the
    block of the point before is this point's. The query tile is fetched at every point, the batch's rows at each
    batch's first tile, the weights and bias rows at the first point only. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

/-! ## The body obligation, at a generic point -/

/-- What the body is called with at point t: the invariant, what the core owes, and the nine windows' current
    staging buffers one by one. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
/-- The body at any point. The eight inputs' buffers hold their blocks; the tile coordinate says which control case
    the point is in. At a batch's first tile the scratch buffers are handed over at anything (what the launch gave, or
    what the batch before left) and come back at the keys, the values and one bump from zero. At a later tile they are
    handed over at what the point before left and the column sum comes back bumped once more; at the last tile the
    output buffer comes back at the pooled row of that column sum and the values. Where the output is not stored its
    buffer is handed back as it was found. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0 t) fullShare ((dats m 0 c).after 0 t) from by
    unfold Dat.leavesExact; rw [live_in 0 (by decide) t], after_0]
  rw [show (dats m 0 c).leavesExact 1 t = owns (c : Thread nD τ) (ms1 t) fullShare ((dats m 0 c).after 1 t) from by
    unfold Dat.leavesExact; rw [live_in 1 (by decide) t], after_1]
  rw [show (dats m 0 c).leavesExact 2 t = owns (c : Thread nD τ) (ms2 t) fullShare ((dats m 0 c).after 2 t) from by
    unfold Dat.leavesExact; rw [live_in 2 (by decide) t], after_2]
  rw [show (dats m 0 c).leavesExact 3 t = owns (c : Thread nD τ) (ms3 t) fullShare ((dats m 0 c).after 3 t) from by
    unfold Dat.leavesExact; rw [live_in 3 (by decide) t], after_3]
  rw [show (dats m 0 c).leavesExact 4 t = owns (c : Thread nD τ) (ms4 t) fullShare ((dats m 0 c).after 4 t) from by
    unfold Dat.leavesExact; rw [live_in 4 (by decide) t], after_4]
  rw [show (dats m 0 c).leavesExact 5 t = owns (c : Thread nD τ) (ms5 t) fullShare ((dats m 0 c).after 5 t) from by
    unfold Dat.leavesExact; rw [live_in 5 (by decide) t], after_5]
  rw [show (dats m 0 c).leavesExact 6 t = owns (c : Thread nD τ) (ms6 t) fullShare ((dats m 0 c).after 6 t) from by
    unfold Dat.leavesExact; rw [live_in 6 (by decide) t], after_6]
  rw [show (dats m 0 c).leavesExact 7 t = owns (c : Thread nD τ) (ms7 t) fullShare ((dats m 0 c).after 7 t) from by
    unfold Dat.leavesExact; rw [live_in 7 (by decide) t], after_7]
  by_cases h0 : t.val % 16 = 0
  · have h1 : ¬t.val % 16 = 15 := by omega
    rw [Dat.leavesExact_idle (dats m 0 c) 8 t (idle_out t (fun h => h1 ((isLast_iff t).mp h))) (noflush_out t (fun h => h1 ((isLast_iff t).mp h)))]
    rw [scAt_first m c t h0]
    dsimp only
    by_cases hz : t.val = 0
    · rw [PhiS_castSucc m c t, PhiS_zero m c _ _ hz, PhiA_eq]
      iintro ⟨⟨⟨HK, HV, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) scC (Memref.isWhole_whole _) ((isFirst_iff t).mpr h0) (fun h => h1 ((isLast_iff t).mp h)) (xq m c t) (xb m c t) (wq m c t) (bq m c t) (wk m c t) (bk m c t) (wv m c t) (bv m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HK]; · iexact HK
      isplitl [HV]; · iexact HV
      isplitl [HC]; · iexact HC
      iintro ⟨H0, H1, H2, H3, H4, H5, H6, H7, HK, HV, HC⟩
      isplitl [HK HV HC Hg]
      · isplitl [HK HV HC]
        · isplitl [HK]; · iexact HK
          isplitl [HV]; · iexact HV
          iexact HC
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS_castSucc m c t, PhiS_pos m c _ _ hz]
      iintro ⟨⟨⟨HK, HV, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) scC (Memref.isWhole_whole _) ((isFirst_iff t).mpr h0) (fun h => h1 ((isLast_iff t).mp h)) (xq m c t) (xb m c t) (wq m c t) (bq m c t) (wk m c t) (bk m c t) (wv m c t) (bv m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HK]; · iexists _; iexact HK
      isplitl [HV]; · iexists _; iexact HV
      isplitl [HC]; · iexists _; iexact HC
      iintro ⟨H0, H1, H2, H3, H4, H5, H6, H7, HK, HV, HC⟩
      isplitl [HK HV HC Hg]
      · isplitl [HK HV HC]
        · isplitl [HK]; · iexact HK
          isplitl [HV]; · iexact HV
          iexact HC
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz : t.val ≠ 0 := fun e => h0 (by rw [e])
    by_cases h1 : t.val % 16 = 15
    · rw [show (dats m 0 c).leavesExact 8 t = owns (c : Thread nD τ) (ms8 t) fullShare ((dats m 0 c).after 8 t) from by
        unfold Dat.leavesExact; rw [live_out t ((isLast_iff t).mpr h1)], after_8]
      unfold outAt
      rw [scAt_later m c t h0]
      dsimp only
      rw [PhiS_castSucc m c t, PhiS_pos m c _ _ hz]
      iintro ⟨⟨⟨HK, HV, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_last c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) scC (Memref.isWhole_whole _) (fun h => h0 ((isFirst_iff t).mp h)) ((isLast_iff t).mpr h1) (xq m c t) (wq m c t) (bq m c t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2 Set.univ _)
      isplitl [H0]; · iexact H0
      isplitl [H2]; · iexact H2
      isplitl [H3]; · iexact H3
      isplitl [H8]; · iexists _; iexact H8
      isplitl [HK]; · iexact HK
      isplitl [HV]; · iexact HV
      isplitl [HC]; · iexact HC
      iintro ⟨H0, H2, H3, H8, HK, HV, HC⟩
      isplitl [HK HV HC Hg]
      · isplitl [HK HV HC]
        · isplitl [HK]; · iexact HK
          isplitl [HV]; · iexact HV
          iexact HC
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Dat.leavesExact_idle (dats m 0 c) 8 t (idle_out t (fun h => h1 ((isLast_iff t).mp h))) (noflush_out t (fun h => h1 ((isLast_iff t).mp h)))]
      rw [scAt_later m c t h0]
      dsimp only
      rw [PhiS_castSucc m c t, PhiS_pos m c _ _ hz]
      iintro ⟨⟨⟨HK, HV, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_mid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) scC (Memref.isWhole_whole _) (fun h => h0 ((isFirst_iff t).mp h)) (fun h => h1 ((isLast_iff t).mp h)) (xq m c t) (wq m c t) (bq m c t) (scAt m c (t.val - 1) (Nat.lt_of_le_of_lt (Nat.sub_le _ _) t.isLt)).1 (scAt m c (t.val - 1) (Nat.lt_of_le_of_lt (Nat.sub_le _ _) t.isLt)).2.2 Set.univ _)
      isplitl [H0]; · iexact H0
      isplitl [H2]; · iexact H2
      isplitl [H3]; · iexact H3
      isplitl [HK]; · iexact HK
      isplitl [HC]; · iexact HC
      iintro ⟨H0, H2, H3, HK, HC⟩
      isplitl [HK HV HC Hg]
      · isplitl [HK HV HC]
        · isplitl [HK]; · iexact HK
          isplitl [HV]; · iexact HV
          iexact HC
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's holdings back: the scratch buffers' contents are
    forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HK, HV, HC⟩, Hg⟩
  isplitl [HK HV HC]
  · isplitl [HK]; · iexists _; iexact HK
    isplitl [HV]; · iexists _; iexact HV
    iexists _; iexact HC
  iexact Hg

/-- After the last point the invariant gives the launch's holdings back: the scratch buffers' contents are forgotten. -/
theorem hout (c : Dev nD) : (dats m 0 c).Φ (Fin.last cfg0.N) ⊢ Pipeline.ΦA spec0 c :=
  Phi_out m c _ (by rw [Fin.val_last]; have : cfg0.N = 128 := N_0; omega)

end Cert.KernelIdeal.Hand

end
-- ==== Proof.KI.Launch.lean ====
/-
  The launch of the fused attention-pool kernel's one region, for any proof data of its pipeline.

  Two of the nine windows stage blocks of the same array — the rows x, once a query tile at a time and once a whole
  batch at a time — so the pipeline's hold on x is not one full share but two halves, one per window: at the region's
  entry the core's full share of x is split in two, and both windows being inputs, neither half is ever written
  through. After the region @main's last line reshapes the result array into a fresh buffer; it runs holding just
  those two buffers. The run concludes what every array of the pipeline and every buffer that bypasses the region
  holds at the end.
-/
import proofs.«430896_j86268713107582_3_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (dats : (p : Fin 1) → (c : Dev nD) → Dat τ (Elt F) Unit ℕ (UR sig nD τ) ℕ (cfgs p) c)

/-- The buffers behind the nine windows' arrays, one by one: eight distinct ones, x counted once. -/
theorem arrBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_arg3) ↦{fullShare} W main_arg3)
          ∗ (((c : Thread nD τ).loc main_v1) ↦{fullShare} W main_v1) ∗ (((c : Thread nD τ).loc main_arg5) ↦{fullShare} W main_arg5)
          ∗ (((c : Thread nD τ).loc main_v2) ↦{fullShare} W main_v2) ∗ (((c : Thread nD τ).loc main_v3) ↦{fullShare} W main_v3)) := by
  unfold Pipeline.arrBufs
  exact bigSep_eq_bigSepL_of_eq [main_arg0, main_arg1, main_v0, main_arg3, main_v1, main_arg5, main_v2, main_v3] (by decide) (by decide) _

/-- The core's buffer contents at the region's exit: the result array at what the write-backs left, everything else
    as the region found it. -/
def exitVal (c : Dev nD) : Valuation τ sig (Elt F) :=
  Function.update (V0 m c) (Proc.devRef .tc main_v3) ((dats 0 c).arrAt 8 cfg0.N)

/-- The two buffers @main's last line touches. -/
abbrev tailSet : Finset (DevRef τ sig) := {Proc.devRef .tc main_v3, Proc.devRef .tc main_v4}

theorem hostOps1_in_tailSet : ∀ ops ∈ ([hostOps1] : List (List (HloOp τ sig (Elt F)))), ∀ op ∈ ops, op.bufs ⊆ (tailSet : Finset (DevRef τ sig)) := by
  intro ops hops op hop
  simp only [List.mem_cons, List.mem_nil_iff, or_false] at hops
  subst hops
  simp only [hostOps1, List.mem_cons, List.mem_nil_iff, or_false] at hop
  subst hop
  exact Finset.Subset.refl _

theorem hostOps1_no_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- Before any write-back an array holds its entry contents. -/
theorem arrAt_zero {cfg : Pipeline.Cfg sig Λ₀} {c : Dev nD} (dat : Dat τ (Elt F) Unit ℕ (UR sig nD τ) ℕ cfg c) (w : Fin cfg.W) :
    dat.arrAt w 0 = dat.A w := rfl

/-- At the region's entry the eight buffers behind the arrays, each whole at the full share, make the pipeline's
    arrays: x's share halved between its two windows, every other array whole. -/
theorem entry_split (hs0 : ∀ c, (dats 0 c).share 0 = fullShare.left) (hs1 : ∀ c, (dats 0 c).share 1 = fullShare.right)
    (hsr : ∀ c (w : Fin cfg0.W), 2 ≤ w.val → (dats 0 c).share w = fullShare)
    (hA : ∀ c w, (dats 0 c).A w = V m c (Pipeline.arrRef spec0 w)) (c : Dev nD) :
    (Pipeline.arrBufs spec0 c (V m c) : sProp 𝕄) ⊢ (dats 0 c).arrays ((dats 0 c).arrAt · 0) := by
  classical
  rw [arrBufs_eq]
  unfold Dat.arrays
  rw [bigSep_W0]
  rw [hs0 c, hs1 c, hsr c 2 (by decide), hsr c 3 (by decide), hsr c 4 (by decide), hsr c 5 (by decide), hsr c 6 (by decide),
    hsr c 7 (by decide), hsr c 8 (by decide)]
  rw [(arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ,
    (arr_whole0 8).set_eq_univ]
  have e : ∀ w, (dats 0 c).arrAt w 0 = V m c (Pipeline.arrRef spec0 w) := fun w => (arrAt_zero (dats 0 c) w).trans (hA c w)
  simp only [e]
  iintro ⟨Hx, Hwq, Hbq, Hwk, Hbk, Hwv, Hbv, Ho⟩
  ihave Hx' := (pointsTo_share (PosShare.mem_left_op_right fullShare)).1 $$ Hx
  icases Hx' with ⟨Hx1, Hx2⟩
  isplitl [Hx1]; · iexact Hx1
  isplitl [Hx2]; · iexact Hx2
  isplitl [Hwq]; · iexact Hwq
  isplitl [Hbq]; · iexact Hbq
  isplitl [Hwk]; · iexact Hwk
  isplitl [Hbk]; · iexact Hbk
  isplitl [Hwv]; · iexact Hwv
  isplitl [Hbv]; · iexact Hbv
  iexact Ho

/-- The exit contents at the result array are what the write-backs left. -/
theorem exitVal_out (c : Dev nD) : exitVal m dats c (Proc.devRef .tc main_v3) = (dats 0 c).arrAt 8 cfg0.N := by
  unfold exitVal; exact Function.update_self _ _ _

/-- and elsewhere what the region found. -/
theorem exitVal_other (c : Dev nD) (b : Ref sig .tc) (hb : b ≠ main_v3) : exitVal m dats c (Proc.devRef .tc b) = V m c b := by
  unfold exitVal
  exact Function.update_of_ne (fun e => hb (Proc.devRef_injective _ e)) _ _

/-- @main's last line writes only its own result buffer. -/
theorem after_tail_of_ne (W : Valuation τ sig (Elt F)) (b : Ref sig .tc) (hb : b ≠ main_v4) :
    StableHlo.after hostOps1 W (Proc.devRef .tc b) = W (Proc.devRef .tc b) :=
  StableHlo.after_of_forall_not_mem _ _ fun op hop hw => by
    simp only [hostOps1, List.mem_cons, List.mem_nil_iff, or_false] at hop
    subst hop
    rw [StableHlo.reshape_writes, Finset.mem_singleton] at hw
    exact hb (Proc.devRef_injective _ hw)

/-- @main's last line, run from the region's exit: it reads the result array (an output: held whole) and writes the
    reshaped result into its own buffer, which bypassed the region; everything else is only carried along. -/
theorem tail_line (hsr : ∀ c (w : Fin cfg0.W), 2 ≤ w.val → (dats 0 c).share w = fullShare) (c : Dev nD) (Q' : PUnit → sProp 𝕄) :
    iprop((iprop((dats 0 c).arrays ((dats 0 c).arrAt · cfg0.N)
            ∗ Pipeline.unscopedRestP Pipeline.Prefetch.none spec0 c (fun b => StableHlo.after hostOps1 (exitVal m dats c) (Proc.devRef .tc b))) -∗ Q' ⟨⟩)
        ∗ boundary (c.tc : Thread nD τ) ∗ (dats 0 c).arrays ((dats 0 c).arrAt · cfg0.N)
        ∗ Pipeline.unscopedRestP Pipeline.Prefetch.none spec0 c (V m c))
      ⊢ wp frame (wpE (defs (F := F)) (Variants.lift Variants.none) (c.tc : Thread nD τ) none) Set.univ
          (Pipeline.chain ([hostOps1].map StableHlo.seq)) Q' := by
  classical
  rw [Pipeline.unscopedRestP_none, Pipeline.unscopedRestP_none, unscopedRest0_eq, unscopedRest0_eq]
  unfold Dat.arrays
  rw [bigSep_W0, hsr c 8 (by decide), (arr_whole0 8).set_eq_univ]
  rw [after_tail_of_ne _ main_arg2 (by decide), after_tail_of_ne _ main_arg4 (by decide), after_tail_of_ne _ main_arg6 (by decide),
    exitVal_other m dats c main_arg2 (by decide), exitVal_other m dats c main_arg4 (by decide), exitVal_other m dats c main_arg6 (by decide)]
  have hh : ∀ W : Valuation τ sig (Elt F), (StableHlo.held (c.tc : Thread nD τ) tailSet W : sProp 𝕄)
      = iprop((((c.tc : Thread nD τ).loc main_v3) ↦{fullShare} W (Proc.devRef .tc main_v3))
          ∗ (((c.tc : Thread nD τ).loc main_v4) ↦{fullShare} W (Proc.devRef .tc main_v4))) := fun W => by
    unfold StableHlo.held
    exact bigSep_eq_bigSepL_of_eq [Proc.devRef .tc main_v3, Proc.devRef .tc main_v4] (by decide) (by decide) _
  have hfl : ([hostOps1] : List (List (HloOp τ sig (Elt F)))).flatten = hostOps1 := rfl
  iintro ⟨Hk, Hb, ⟨A0, A1, A2, A3, A4, A5, A6, A7, A8⟩, ⟨R2, R4, R6, R8⟩⟩
  ihave Hrun := (Pipeline.wp_seqs_then (fun q => (cfgs q).toPCfg (Val := Elt F)) defs₀ Variants.none c tailSet [] (K := Q') [hostOps1]
      hostOps1_in_tailSet hostOps1_no_fresh (exitVal m dats c)) $$ [Hb A8 R8]
  · isplitl [Hb]; · iexact Hb
    rw [hh]
    isplitl [A8]
    · rw [exitVal_out]; iexact A8
    · rw [exitVal_other m dats c main_v4 (by decide)]; iexact R8
  iapply Hrun
  iintro ⟨Hb, Hh⟩
  rw [hfl]
  have hh' : (StableHlo.held (c.tc : Thread nD τ) tailSet (StableHlo.after hostOps1 (exitVal m dats c)) : sProp 𝕄)
      = iprop((((c.tc : Thread nD τ).loc main_v3) ↦{fullShare} (dats 0 c).arrAt 8 cfg0.N)
          ∗ (((c.tc : Thread nD τ).loc main_v4) ↦{fullShare} StableHlo.after hostOps1 (exitVal m dats c) (Proc.devRef .tc main_v4))) := by
    rw [hh, after_tail_of_ne _ main_v3 (by decide), exitVal_out]
  ihave Hh' := (Entails.of_eq hh') $$ Hh
  icases Hh' with ⟨A8, R8⟩
  rw [Pipeline.chain_nil]
  iapply (le_wp_ret _ _ _ _ Q')
  iapply Hk
  isplitl [A0 A1 A2 A3 A4 A5 A6 A7 A8]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  isplitl [R2]; · iexact R2
  isplitl [R4]; · iexact R4
  isplitl [R6]; · iexact R6
  iexact R8

/-- THE RUN. For proof data whose body obligation holds, that hold x in two halves and every other array whole, owe
    nothing, start from the arrays as the region finds them and keep the launch's invariant at both ends: every weakly
    fair execution of @main terminates without a fault; every array of the pipeline ends at what the write-backs
    left, and every buffer that bypassed the region at what @main's last line leaves from the region's exit. -/
theorem run_shared
    (hbody : ∀ c, Pipeline.BodyObligationLoose (dats 0 c) (defs₀ (F := F)) Variants.none () Set.univ)
    (hs0 : ∀ c, (dats 0 c).share 0 = fullShare.left) (hs1 : ∀ c, (dats 0 c).share 1 = fullShare.right)
    (hsr : ∀ c (w : Fin cfg0.W), 2 ≤ w.val → (dats 0 c).share w = fullShare)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (fun r => ∀ c : Dev nD,
      (∀ w, r.2.mem ((spec0 w).arr.view.loc (c.tc : Thread nD τ)) = (dats 0 c).arrAt w cfg0.N)
      ∧ ∀ b ∈ Pipeline.restRefs sig spec0, r.2.mem ((c.tc : Thread nD τ).loc b) = StableHlo.after hostOps1 (exitVal m dats c) (Proc.devRef .tc b)) := by
  classical
  exact Pipeline.θ_run_region_pf_tail (fun q => (cfgs q).toPCfg (Val := Elt F)) (fun q => (cfgs q).toPCfg_adm) dats () cellOf_inj 0 winFacts₀0
    (Pipeline.OwnSemFacts.none spec0) (Pipeline.PreFacts.none _) emb₁ defs₀ Variants.none m ρ main
    (fun _ => Pipeline.chain ([hostOps1].map StableHlo.seq)) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := entry_split m dats hs0 hs1 hsr hA)
    (hpf := fun _ k => k.elim0)
    (X := fun c => iprop(∃ r, prngReg c r)) (Y := fun c => iprop(∃ r, prngReg c r))
    (Z := fun c => Pipeline.unscopedRestP Pipeline.Prefetch.none spec0 c (V m c))
    (Z' := fun c => Pipeline.unscopedRestP Pipeline.Prefetch.none spec0 c (fun b => StableHlo.after hostOps1 (exitVal m dats c) (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := tail_line m dats hsr)
    (QY := fun c s => ∀ b ∈ Pipeline.restRefsP sig Pipeline.Prefetch.none spec0, s.mem ((c.tc : Thread nD τ).loc b) = StableHlo.after hostOps1 (exitVal m dats c) (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => StableHlo.after hostOps1 (exitVal m dats c) (Proc.devRef .tc b)) s')
      isplitl [HU] <;> iassumption)
    (hQ := fun s h c => ⟨(h c).1, Pipeline.rest_of_restP Pipeline.Prefetch.none spec0 (fun k => k.elim0) c _ s (fun k => k.elim0) (h c).2.1 (h c).2.2⟩)

end Cert.KernelIdeal.Hand

end
-- ==== Proof.KI.Run.lean ====
/-
  The fused kernel's run and its frame.

  The launch, at the proof data of the state module: the body obligation from the three control cases, x held in two
  halves. Every array of the pipeline then ends at what the write-backs left; the inputs are never written back, so
  they end as the region found them, and the region found the seven arguments as @main was launched with them (the
  three bias reshapes write other buffers). The three bias vectors bypass the region and the last line leaves them.
-/
import proofs.«430896_j86268713107582_3_alg».proof.Proof.KI.Frame
import proofs.«430896_j86268713107582_3_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, at the state module's proof data. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after hostOps1 (exitVal m (dats m) c) (Proc.devRef .tc b)) :=
  run_shared m ρ (dats m) (fun c => (body_obligation m c).loose) (share_0 m) (share_1 m) (share_rest m) (fun _ _ => rfl)
    (A_eq m) (hin m) (hout m)

/-- The region finds each argument as @main was launched with it: the three lines before it write other buffers. -/
theorem V_arg (c : Dev nD) (b : Ref sig .tc) (h0 : b ≠ main_v0) (h1 : b ≠ main_v1) (h2 : b ≠ main_v2) :
    V m c b = m ((c.tc : Thread nD τ).loc b) := by
  show StableHlo.after (List.flatten [hostOps0]) (fun b => m (c, b)) (Proc.devRef .tc b) = _
  refine (StableHlo.after_of_forall_not_mem _ _ fun op hop hw => ?_).trans rfl
  simp only [List.flatten_cons, List.flatten_nil, List.append_nil, hostOps0, List.mem_cons, List.mem_nil_iff, or_false] at hop
  rcases hop with rfl | rfl | rfl <;>
    (rw [StableHlo.reshape_writes, Finset.mem_singleton] at hw
     first | exact h0 (Proc.devRef_injective _ hw) | exact h1 (Proc.devRef_injective _ hw) | exact h2 (Proc.devRef_injective _ hw))

/-- The run read at @main's own buffers: the result buffer at what the last line makes of the region's exit, and the
    seven argument arrays unchanged. -/
theorem run_result : θ_run defs (onTc (τ := τ) (main (F := F))) ⟨m, fun _ => 0, ρ⟩ (fun r => ∀ c : Dev nD,
      r.2.mem ((c.tc : Thread nD τ).loc main_v4) = StableHlo.after hostOps1 (exitVal m (dats m) c) (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_main m ρ)
  have hin : ∀ w : Fin cfg0.W, (cfg0.win w).isOut = false → r.2.mem ((spec0 w).arr.view.loc (c.tc : Thread nD τ)) = V m c (Pipeline.arrRef spec0 w) :=
    fun w hw => ((h c).1 w).trans (((dats m 0 c).arrAt_in w hw _).trans (A_eq m c w))
  have hby : ∀ b ∈ Pipeline.restRefs sig spec0, b ≠ main_v4 → b ≠ main_v3 → r.2.mem ((c.tc : Thread nD τ).loc b) = V m c b :=
    fun b hb h4 h3 => ((h c).2 b hb).trans ((after_tail_of_ne _ b h4).trans (exitVal_other m (dats m) c b h3))
  refine ⟨(h c).2 main_v4 (by decide),
    (hin 0 rfl).trans (V_arg m c main_arg0 (by decide) (by decide) (by decide)),
    (hin 2 rfl).trans (V_arg m c main_arg1 (by decide) (by decide) (by decide)),
    (hby main_arg2 (by decide) (by decide) (by decide)).trans (V_arg m c main_arg2 (by decide) (by decide) (by decide)),
    (hin 4 rfl).trans (V_arg m c main_arg3 (by decide) (by decide) (by decide)),
    (hby main_arg4 (by decide) (by decide) (by decide)).trans (V_arg m c main_arg4 (by decide) (by decide) (by decide)),
    (hin 6 rfl).trans (V_arg m c main_arg5 (by decide) (by decide) (by decide)),
    (hby main_arg6 (by decide) (by decide) (by decide)).trans (V_arg m c main_arg6 (by decide) (by decide) (by decide))⟩

/-- THE FRAME: every weakly fair execution terminates without a fault and the seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_result m ρ)

end Cert.KernelIdeal.Hand

end
-- ==== Proof.RefFrame.lean ====
/-
  The reference program's frame. The reference is a straight-line host program: its run, read back one
  operation after another, ends with every argument array as it was found; dropping the statement about
  the result array leaves exactly the frame.
-/
import proofs.«430896_j86268713107582_3_alg».proof.Defs
import proofs.«430896_j86268713107582_3_alg».proof.Proof.Gen.ReferenceIdeal
import proofs.«430896_j86268713107582_3_alg».proof.Proof.Gen.Pre_finite_inputs
import proofs.«430896_j86268713107582_3_alg».proof.Proof.Gen.ReferenceIdeal.Run
import proofs.«430896_j86268713107582_3_alg».proof.Proof.Gen.ReferenceIdeal.Read

noncomputable section

namespace Cert.Proof.RefFrame

open Idealize.ShloMosaic Idealize.ShloMosaic.TcCoe Idealize.SL.Sem

/-- Every weakly fair execution of the reference terminates without a fault and leaves its seven
    argument arrays unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.Spec.lean ====
/-
  The mathematics of attention pooling over the reals, in the two arrangements the two programs compute.

  For a batch b: queries, keys and values are affine maps of the rows of x; a score is a scaled inner product of a
  query and a key; each row of scores goes through a softmax; the output is the mean over the queries of the
  attention-weighted values.

  The reference scales the whole inner product by 1/16, divides each exponential by its row sum, multiplies by the
  values for every query and only then sums over the queries and divides by 4096. The kernel scales the query
  before the inner product, multiplies each exponential by the reciprocal of its row sum, sums the attention
  weights over the queries FIRST (sixteen tiles of 256 queries, accumulated from zero), scales that column sum by
  1/4096 and multiplies it into the values once. Over the reals these agree: the sum over queries commutes with
  the sum over keys, and both scalings distribute over sums.
-/
import Idealize.ShloMosaic.PureOps.Ideal

noncomputable section

namespace Cert.Attn

open scoped BigOperators

/-- The rows: batch, position, feature. -/
abbrev X3 := Fin 8 → Fin 4096 → Fin 256 → ℝ
/-- A weight matrix: input feature, output feature. -/
abbrev W2 := Fin 256 → Fin 256 → ℝ
/-- A bias vector. -/
abbrev B1 := Fin 256 → ℝ

/-- An affine projection of the rows of one batch. -/
def proj (x : X3) (W : W2) (b : B1) (bt : Fin 8) (n : Fin 4096) (h : Fin 256) : ℝ :=
  (∑ d : Fin 256, x bt n d * W d h) + b h

/-- The largest entry of a row of scores. -/
def rowMax (s : Fin 4096 → ℝ) : ℝ := Finset.univ.sup' Finset.univ_nonempty s

/-- The exponentials of a row of scores, shifted by the row's maximum. -/
def expRow (s : Fin 4096 → ℝ) (k : Fin 4096) : ℝ := Real.exp (s k - rowMax s)

/-- The shifted exponentials' sum over a row: at least one term is exp 0, so it is positive. -/
def rowSum (s : Fin 4096 → ℝ) : ℝ := ∑ k : Fin 4096, expRow s k

/-! ## As the reference arranges it -/

/-- A score: the inner product of a query and a key, then the scale. -/
def scoreR (x : X3) (Wq : W2) (bq : B1) (Wk : W2) (bk : B1) (bt : Fin 8) (q k : Fin 4096) : ℝ :=
  (∑ h : Fin 256, proj x Wq bq bt q h * proj x Wk bk bt k h) * (1 / 16)

/-- An attention weight: the shifted exponential over the row's sum. -/
def attnR (s : Fin 4096 → Fin 4096 → ℝ) (q k : Fin 4096) : ℝ := expRow (s q) k / rowSum (s q)

/-- The pooled output: attention times values for every query, summed over the queries, over 4096. -/
def refOut (x : X3) (Wq : W2) (bq : B1) (Wk : W2) (bk : B1) (Wv : W2) (bv : B1) (bt : Fin 8) (h : Fin 256) : ℝ :=
  (∑ q : Fin 4096, ∑ k : Fin 4096, attnR (scoreR x Wq bq Wk bk bt) q k * proj x Wv bv bt k h) / 4096

/-! ## As the kernel arranges it -/

/-- A score: the query scaled first, then the inner product. -/
def scoreK (x : X3) (Wq : W2) (bq : B1) (Wk : W2) (bk : B1) (bt : Fin 8) (q k : Fin 4096) : ℝ :=
  ∑ h : Fin 256, (proj x Wq bq bt q h * (1 / 16)) * proj x Wk bk bt k h

/-- An attention weight: the shifted exponential times the reciprocal of the row's sum. -/
def attnK (s : Fin 4096 → Fin 4096 → ℝ) (q k : Fin 4096) : ℝ := expRow (s q) k * (1 / rowSum (s q))

/-- Query r of tile j. -/
def tileRow (j : Fin 16) (r : Fin 256) : Fin 4096 := ⟨256 * j.val + r.val, by have := j.isLt; have := r.isLt; omega⟩

/-- The running column sum after the first n tiles: from zero, each tile adds the sum of its 256 queries' weights. -/
def colSum (s : Fin 4096 → Fin 4096 → ℝ) : (n : ℕ) → n ≤ 16 → Fin 4096 → ℝ
  | 0, _ => fun _ => 0
  | n + 1, hn => fun k => colSum s n (Nat.le_of_succ_le hn) k + ∑ r : Fin 256, attnK s (tileRow ⟨n, hn⟩ r) k

/-- The pooled output: the column sum scaled by 1/4096, times the values. -/
def kerOut (x : X3) (Wq : W2) (bq : B1) (Wk : W2) (bk : B1) (Wv : W2) (bv : B1) (bt : Fin 8) (h : Fin 256) : ℝ :=
  ∑ k : Fin 4096, (colSum (scoreK x Wq bq Wk bk bt) 16 le_rfl k * (1 / 4096)) * proj x Wv bv bt k h

end Cert.Attn

end
-- ==== Proof.Coe.lean ====
/-
  Arrays of extended reals that hold real numbers, and the pieces of them the kernel's windows stage: a batch's
  rows, one query tile of a batch, a bias vector as a row.
-/
import proofs.«430896_j86268713107582_3_alg».proof.Proof.Spec
import Idealize.ShloMosaic.Lib.ValueIdx

noncomputable section

namespace Cert.Attn

open Idealize.ShloMosaic

abbrev Sx : Shape := ⟨3, ![8, 4096, 256]⟩
abbrev Sw : Shape := ⟨2, ![256, 256]⟩
abbrev Sb : Shape := ⟨1, ![256]⟩
abbrev So : Shape := ⟨2, ![8, 256]⟩
abbrev Sxb : Shape := ⟨3, ![1, 4096, 256]⟩
abbrev Sxq : Shape := ⟨3, ![1, 256, 256]⟩
abbrev Sbr : Shape := ⟨2, ![1, 256]⟩
abbrev Sor : Shape := ⟨3, ![1, 1, 256]⟩

/-- The rows as extended reals. -/
def ex (x : X3) : Sx.Idx → EReal := fun i => ((x ⟨(i 0).val, (i 0).isLt⟩ ⟨(i 1).val, (i 1).isLt⟩ ⟨(i 2).val, (i 2).isLt⟩ : ℝ) : EReal)
/-- A weight matrix as extended reals. -/
def ew (W : W2) : Sw.Idx → EReal := fun i => ((W ⟨(i 0).val, (i 0).isLt⟩ ⟨(i 1).val, (i 1).isLt⟩ : ℝ) : EReal)
/-- A bias vector as extended reals. -/
def eb (b : B1) : Sb.Idx → EReal := fun i => ((b ⟨(i 0).val, (i 0).isLt⟩ : ℝ) : EReal)
/-- A real result as extended reals. -/
def eo (f : Fin 8 → Fin 256 → ℝ) : So.Idx → EReal := fun i => ((f ⟨(i 0).val, (i 0).isLt⟩ ⟨(i 1).val, (i 1).isLt⟩ : ℝ) : EReal)

/-- The rows of batch b: the block at (b, 0, 0) of extent 1 x 4096 x 256. -/
def batchRows {α : Type} (X : Sx.Idx → α) (b : Fin 8) : Sxb.Idx → α := fun y =>
  X (fun a => match a with
    | ⟨0, _⟩ => ⟨b.val, b.isLt⟩
    | ⟨1, _⟩ => ⟨(y 1).val, (y 1).isLt⟩
    | ⟨2, _⟩ => ⟨(y 2).val, (y 2).isLt⟩)

/-- Query tile j of batch b: the block at (b, j, 0) of extent 1 x 256 x 256. -/
def queryTile {α : Type} (X : Sx.Idx → α) (b : Fin 8) (j : Fin 16) : Sxq.Idx → α := fun y =>
  X (fun a => match a with
    | ⟨0, _⟩ => ⟨b.val, b.isLt⟩
    | ⟨1, _⟩ => ⟨256 * j.val + (y 1).val, by have h1 := j.isLt; have h2 : (y 1).val < 256 := (y 1).isLt; show 256 * j.val + (y 1).val < 4096; omega⟩
    | ⟨2, _⟩ => ⟨(y 2).val, (y 2).isLt⟩)

/-- A bias vector as a 1 x 256 row (the reshape @main applies before the region). -/
def biasRow {α : Type} (B : Sb.Idx → α) : Sbr.Idx → α := fun y => B (fun a => match a with
    | ⟨0, _⟩ => ⟨(y 1).val, (y 1).isLt⟩)

end Cert.Attn

end
-- ==== Proof.KI.Result.lean ====
/-
  The result array after the region, as one function of the arrays the region found.

  The output window's block (b, 0, 0) is written back once, after the last tile of batch b, with the pooled row the
  body stored there; the eight blocks cover the 8 x 1 x 256 array. What the scratch buffers hold at a batch's last tile
  unrolls, tile by tile back to the batch's first, into the chain of the batch's sixteen query tiles; and each staged
  block is the corresponding piece of its array.
-/
import proofs.«430896_j86268713107582_3_alg».proof.Proof.KI.State
import proofs.«430896_j86268713107582_3_alg».proof.Proof.Coe
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Attn (queryTile batchRows)

/-! ## The grid's points, and the windows' block indices there -/

/-- The point of batch b, tile j: position 16 b + j of the row-major walk. -/
abbrev pt (b : Fin 8) (j : Fin 16) : Fin cfg0.N :=
  ⟨16 * b.val + j.val, by have := b.isLt; have := j.isLt; show _ < grid0.N; rw [N_0]; omega⟩

/-- The last tile of a batch. -/
abbrev last15 : Fin 16 := ⟨15, by omega⟩

theorem pt_lt (b : Fin 8) (j : ℕ) (hj : j < 16) : 16 * b.val + j < cfg0.N := by
  have := b.isLt; show _ < grid0.N; rw [N_0]; omega

/-- The query tile's block index at point t is (t / 16, t % 16, 0). -/
theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
/-- The batch rows' block index at point t is (t / 16, 0, 0). -/
theorem idx1 : ∀ t : Fin cfg0.N, win0_1.index t (0 : Fin 3) = t.val / 16 ∧ win0_1.index t (1 : Fin 3) = 0 ∧ win0_1.index t (2 : Fin 3) = 0 :=
  (by decide +kernel : ∀ t : Fin grid0.N, _)
/-- The weight matrices' and bias rows' block index is (0, 0) at every point. -/
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
/-- The output's block index at point t is (t / 16, 0, 0). -/
theorem idx8 : ∀ t : Fin cfg0.N, win0_8.index t (0 : Fin 3) = t.val / 16 ∧ win0_8.index t (1 : Fin 3) = 0 ∧ win0_8.index t (2 : Fin 3) = 0 :=
  (by decide +kernel : ∀ t : Fin grid0.N, _)

/-! ## Each staged block is a piece of its array

An entry of a block sits in its array, on each axis, at the block index times the block's size plus its own coordinate. -/

/-- At tile j of batch b the first window stages query tile j of batch b. -/
theorem xq_eq (c : Dev nD) (b : Fin 8) (j : Fin 16) :
    xq m c (pt b j) = queryTile (V m c main_arg0) b j := by
  obtain ⟨e0, e1, e2⟩ := idx0 (pt b j)
  funext y
  show iblk m c 0 (pt b j) y = _
  unfold iblk queryTile
  rw [View.read_apply]
  show V m c main_arg0 _ = V m c main_arg0 _
  congr 1
  funext a
  apply Fin.ext
  have hb := b.isLt
  have hj := j.isLt
  match a with
  | ⟨0, _⟩ =>
    show win0_0.index (pt b j) (0 : Fin 3) * 1 + 1 * (y 0).val = b.val
    have hy : (y 0).val < 1 := (y 0).isLt
    rw [e0]; show (16 * b.val + j.val) / 16 * 1 + 1 * (y 0).val = b.val; omega
  | ⟨1, _⟩ =>
    show win0_0.index (pt b j) (1 : Fin 3) * 256 + 1 * (y 1).val = 256 * j.val + (y 1).val
    rw [e1]; show (16 * b.val + j.val) % 16 * 256 + 1 * (y 1).val = 256 * j.val + (y 1).val; omega
  | ⟨2, _⟩ =>
    show win0_0.index (pt b j) (2 : Fin 3) * 256 + 1 * (y 2).val = (y 2).val
    rw [e2]; omega

/-- At every tile of batch b the second window stages the rows of batch b. -/
theorem xb_eq (c : Dev nD) (b : Fin 8) (j : Fin 16) :
    xb m c (pt b j) = batchRows (V m c main_arg0) b := by
  obtain ⟨e0, e1, e2⟩ := idx1 (pt b j)
  funext y
  show iblk m c 1 (pt b j) y = _
  unfold iblk batchRows
  rw [View.read_apply]
  show V m c main_arg0 _ = V m c main_arg0 _
  congr 1
  funext a
  apply Fin.ext
  have hb := b.isLt
  have hj := j.isLt
  match a with
  | ⟨0, _⟩ =>
    show win0_1.index (pt b j) (0 : Fin 3) * 1 + 1 * (y 0).val = b.val
    have hy : (y 0).val < 1 := (y 0).isLt
    rw [e0]; show (16 * b.val + j.val) / 16 * 1 + 1 * (y 0).val = b.val; omega
  | ⟨1, _⟩ =>
    show win0_1.index (pt b j) (1 : Fin 3) * 4096 + 1 * (y 1).val = (y 1).val
    rw [e1]; omega
  | ⟨2, _⟩ =>
    show win0_1.index (pt b j) (2 : Fin 3) * 256 + 1 * (y 2).val = (y 2).val
    rw [e2]; omega

/-- The query weights' block is the whole matrix. -/
theorem wq_eq (c : Dev nD) (t : Fin cfg0.N) : wq m c t = V m c main_arg1 := by
  obtain ⟨e0, e1⟩ := idx2 t
  funext y
  show iblk m c 2 t y = _
  unfold iblk
  rw [View.read_apply]
  show V m c main_arg1 _ = V m c main_arg1 _
  congr 1
  funext a
  apply Fin.ext
  match a with
  | ⟨0, _⟩ => show win0_2.index t (0 : Fin 2) * 256 + 1 * (y 0).val = (y 0).val; rw [e0]; omega
  | ⟨1, _⟩ => show win0_2.index t (1 : Fin 2) * 256 + 1 * (y 1).val = (y 1).val; rw [e1]; omega

/-- The query bias's block is the whole row. -/
theorem bq_eq (c : Dev nD) (t : Fin cfg0.N) : bq m c t = V m c main_v0 := by
  obtain ⟨e0, e1⟩ := idx3 t
  funext y
  show iblk m c 3 t y = _
  unfold iblk
  rw [View.read_apply]
  show V m c main_v0 _ = V m c main_v0 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 256 + 1 * (y 1).val = (y 1).val; rw [e1]; omega

/-- The key weights' block is the whole matrix. -/
theorem wk_eq (c : Dev nD) (t : Fin cfg0.N) : wk m c t = V m c main_arg3 := by
  obtain ⟨e0, e1⟩ := idx4 t
  funext y
  show iblk m c 4 t y = _
  unfold iblk
  rw [View.read_apply]
  show V m c main_arg3 _ = V m c main_arg3 _
  congr 1
  funext a
  apply Fin.ext
  match a with
  | ⟨0, _⟩ => show win0_4.index t (0 : Fin 2) * 256 + 1 * (y 0).val = (y 0).val; rw [e0]; omega
  | ⟨1, _⟩ => show win0_4.index t (1 : Fin 2) * 256 + 1 * (y 1).val = (y 1).val; rw [e1]; omega

/-- The key bias's block is the whole row. -/
theorem bk_eq (c : Dev nD) (t : Fin cfg0.N) : bk m c t = V m c main_v1 := by
  obtain ⟨e0, e1⟩ := idx5 t
  funext y
  show iblk m c 5 t y = _
  unfold iblk
  rw [View.read_apply]
  show V m c main_v1 _ = V m c main_v1 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 256 + 1 * (y 1).val = (y 1).val; rw [e1]; omega

/-- The value weights' block is the whole matrix. -/
theorem wv_eq (c : Dev nD) (t : Fin cfg0.N) : wv m c t = V m c main_arg5 := by
  obtain ⟨e0, e1⟩ := idx6 t
  funext y
  show iblk m c 6 t y = _
  unfold iblk
  rw [View.read_apply]
  show V m c main_arg5 _ = V m c main_arg5 _
  congr 1
  funext a
  apply Fin.ext
  match a with
  | ⟨0, _⟩ => show win0_6.index t (0 : Fin 2) * 256 + 1 * (y 0).val = (y 0).val; rw [e0]; omega
  | ⟨1, _⟩ => show win0_6.index t (1 : Fin 2) * 256 + 1 * (y 1).val = (y 1).val; rw [e1]; omega

/-- The value bias's block is the whole row. -/
theorem bv_eq (c : Dev nD) (t : Fin cfg0.N) : bv m c t = V m c main_v2 := by
  obtain ⟨e0, e1⟩ := idx7 t
  funext y
  show iblk m c 7 t y = _
  unfold iblk
  rw [View.read_apply]
  show V m c main_v2 _ = V m c main_v2 _
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 256 + 1 * (y 1).val = (y 1).val; rw [e1]; omega

/-! ## The scratch buffers inside a batch, unrolled to the batch's first tile -/

/-- The scratch contents at equal positions are equal. -/
theorem scAt_congr (c : Dev nD) (n n' : ℕ) (h : n < cfg0.N) (h' : n' < cfg0.N) (e : n = n') :
    scAt m c n h = scAt m c n' h' := by
  subst e; rfl

/-- After tile j of batch b the keys' and values' scratch hold the batch's keys and values, and the column sum is
    the chain of tiles 0 .. j from zero: by induction on j, the first tile projecting and clearing, each later tile
    keeping the keys and values and bumping the column sum once. -/
theorem scAt_batch (c : Dev nD) (b : Fin 8) : ∀ (j : ℕ) (hj : j < 16),
    scAt m c (16 * b.val + j) (pt_lt b j hj) =
      (keys (batchRows (V m c main_arg0) b) (V m c main_arg3) (V m c main_v1),
       vals (batchRows (V m c main_arg0) b) (V m c main_arg5) (V m c main_v2),
       colAcc (fun j => queryTile (V m c main_arg0) b j) (V m c main_arg1) (V m c main_v0)
         (keys (batchRows (V m c main_arg0) b) (V m c main_arg3) (V m c main_v1)) (j + 1) (Nat.succ_le_of_lt hj))
  | 0, hj => by
    have h := scAt_first m c (pt b ⟨0, hj⟩) (by show (16 * b.val + 0) % 16 = 0; omega)
    rw [xb_eq m c b ⟨0, hj⟩, wk_eq m c (pt b ⟨0, hj⟩), bk_eq m c (pt b ⟨0, hj⟩), wv_eq m c (pt b ⟨0, hj⟩),
      bv_eq m c (pt b ⟨0, hj⟩), xq_eq m c b ⟨0, hj⟩, wq_eq m c (pt b ⟨0, hj⟩), bq_eq m c (pt b ⟨0, hj⟩)] at h
    exact h
  | j + 1, hj => by
    have h := scAt_later m c (pt b ⟨j + 1, hj⟩) (by show ¬(16 * b.val + (j + 1)) % 16 = 0; omega)
    rw [scAt_congr m c ((pt b ⟨j + 1, hj⟩).val - 1) (16 * b.val + j) _ (pt_lt b j (Nat.lt_of_succ_lt hj))
      (by show 16 * b.val + (j + 1) - 1 = 16 * b.val + j; omega)] at h
    rw [scAt_batch c b j (Nat.lt_of_succ_lt hj)] at h
    rw [xq_eq m c b ⟨j + 1, hj⟩, wq_eq m c (pt b ⟨j + 1, hj⟩), bq_eq m c (pt b ⟨j + 1, hj⟩)] at h
    exact h

/-- Batch b's pooled row, from the arrays the region found. -/
abbrev BO (c : Dev nD) (b : Fin 8) : Vec F S1x1x256 .f32 :=
  batchOut (F := F) (fun j => queryTile (V m c main_arg0) b j) (batchRows (V m c main_arg0) b)
    (V m c main_arg1) (V m c main_v0) (V m c main_arg3) (V m c main_v1) (V m c main_arg5) (V m c main_v2)

/-- What the last tile of batch b stores is the batch's pooled row. -/
theorem outAt_last (c : Dev nD) (b : Fin 8) : outAt m c (pt b last15) = BO m c b := by
  have h := scAt_batch m c b 15 (by decide)
  show pooled (scAt m c (16 * b.val + 15) _).2.2 (scAt m c (16 * b.val + 15) _).2.1 = _
  rw [h]
  rfl

/-! ## The eight write-backs build the result array -/

/-- The array the write-backs build: entry (b, 0, h) is entry (0, 0, h) of batch b's pooled row. -/
abbrev G8 (c : Dev nD) : S8x1x256.Idx → Elt F .f32 := fun i =>
  BO m c ⟨(i 0).val, (i 0).isLt⟩ (fun a => match a with
    | ⟨0, _⟩ => ⟨0, Nat.one_pos⟩
    | ⟨1, _⟩ => ⟨(i 1).val, (i 1).isLt⟩
    | ⟨2, _⟩ => ⟨(i 2).val, (i 2).isLt⟩)

/-- That array at the entry of batch b's block with block coordinates y. -/
theorem G8_emb (c : Dev nD) (b : Fin 8) (y : S1x1x256.Idx) (E : S8x1x256.Idx)
    (h0 : (E 0).val = b.val) (h1 : (E 1).val = (y 1).val) (h2 : (E 2).val = (y 2).val) :
    G8 m c E = BO m c b y := by
  have hb : (⟨(E 0).val, (E 0).isLt⟩ : Fin 8) = b := Fin.ext h0
  show BO m c ⟨(E 0).val, (E 0).isLt⟩ _ = BO m c b y
  rw [hb]
  congr 1
  funext a
  apply Fin.ext
  match a with
  | ⟨0, _⟩ => show 0 = (y 0).val; have : (y 0).val < 1 := (y 0).isLt; omega
  | ⟨1, _⟩ => exact h1
  | ⟨2, _⟩ => exact h2

/-- The last tile of batch b writes back block (b, 0, 0) of that array. -/
theorem flushed8_pt (c : Dev nD) (b : Fin 8) :
    (dats m 0 c).flushed 8 (pt b last15)
      = ((cfg0.win 8).blk (pt b last15)).view.read (Elt F) (G8 m c) := by
  obtain ⟨e0, e1, e2⟩ := idx8 (pt b last15)
  have hb := b.isLt
  show (cfg0.win 8).cut (grid0.coords (pt b last15)) ((dats m 0 c).after 8 (pt b last15)) = _
  rw [after_8, outAt_last]
  funext y
  rw [View.read_apply]
  show BO m c b ((cfg0.win 8).xinj (grid0.coords (pt b last15)) y)
    = G8 m c (((cfg0.win 8).blk (pt b last15)).view.emb y : S8x1x256.Idx)
  refine (G8_emb m c b _ _ ?_ ?_ ?_).symm
  · show win0_8.index (pt b last15) (0 : Fin 3) * 1 + 1 * (y 0).val = b.val
    have hy : (y 0).val < 1 := (y 0).isLt
    rw [e0]; show (16 * b.val + 15) / 16 * 1 + 1 * (y 0).val = b.val; omega
  · show win0_8.index (pt b last15) (1 : Fin 3) * 1 + 1 * (y 1).val = (y 1).val
    rw [e1]; omega
  · show win0_8.index (pt b last15) (2 : Fin 3) * 256 + 1 * (y 2).val = (y 2).val
    rw [e2]; omega

/-- Every write-back is the last tile of its batch, and writes its block of that array. -/
theorem flushed8_eq (c : Dev nD) (t : Fin cfg0.N) (hf : (cfg0.win 8).flush t = true) :
    (dats m 0 c).flushed 8 t = ((cfg0.win 8).blk t).view.read (Elt F) (G8 m c) := by
  have h15 : t.val % 16 = 15 := (flush0_8 t).mp hf
  have hN : cfg0.N = 128 := N_0
  have hlt := t.isLt
  have ht : t = pt ⟨t.val / 16, by omega⟩ last15 :=
    Fin.ext (by show t.val = 16 * (t.val / 16) + 15; omega)
  rw [ht]
  exact flushed8_pt m c _

/-- The eight blocks cover the array: entry (b, 0, h) lies in the block the last tile of batch b writes back. -/
theorem cover8 (i : S8x1x256.Idx) :
    ∃ t : Fin cfg0.N, (cfg0.win 8).flush t = true ∧ i ∈ ((cfg0.win 8).blk t).view.set := by
  have hi0 : (i 0).val < 8 := (i 0).isLt
  have hi1 : (i 1).val < 1 := (i 1).isLt
  have hi2 : (i 2).val < 256 := (i 2).isLt
  obtain ⟨e0, e1, e2⟩ := idx8 (pt ⟨(i 0).val, hi0⟩ last15)
  refine ⟨pt ⟨(i 0).val, hi0⟩ last15,
    (flush0_8 _).mpr (by show (16 * (i 0).val + 15) % 16 = 15; omega), ?_⟩
  show i ∈ ((View.whole main_v3).slice (win0_8.rect (pt ⟨(i 0).val, hi0⟩ last15))).set
  rw [View.set_slice_whole, Rect.mem_set_unit]
  intro a
  match a with
  | ⟨0, _⟩ =>
    show win0_8.index (pt ⟨(i 0).val, hi0⟩ last15) (0 : Fin 3) * 1 ≤ (i 0).val
      ∧ (i 0).val < win0_8.index (pt ⟨(i 0).val, hi0⟩ last15) (0 : Fin 3) * 1 + 1
    rw [e0]; show (16 * (i 0).val + 15) / 16 * 1 ≤ (i 0).val ∧ (i 0).val < (16 * (i 0).val + 15) / 16 * 1 + 1; omega
  | ⟨1, _⟩ =>
    show win0_8.index (pt ⟨(i 0).val, hi0⟩ last15) (1 : Fin 3) * 1 ≤ (i 1).val
      ∧ (i 1).val < win0_8.index (pt ⟨(i 0).val, hi0⟩ last15) (1 : Fin 3) * 1 + 1
    rw [e1]; omega
  | ⟨2, _⟩ =>
    show win0_8.index (pt ⟨(i 0).val, hi0⟩ last15) (2 : Fin 3) * 256 ≤ (i 2).val
      ∧ (i 2).val < win0_8.index (pt ⟨(i 0).val, hi0⟩ last15) (2 : Fin 3) * 256 + 256
    rw [e2]; omega

/-- Every entry (b, 0, h) of the result array after the last write-back is entry (0, 0, h) of batch b's pooled row,
    computed from batch b's sixteen query tiles and rows of x, the three weight matrices and the three bias rows as
    the region found them. -/
theorem result_eq (c : Dev nD) (i : S8x1x256.Idx) :
    (dats m 0 c).arrAt 8 cfg0.N i
      = batchOut (F := F)
          (fun j => queryTile (V m c main_arg0) ⟨(i 0).val, (i 0).isLt⟩ j)
          (batchRows (V m c main_arg0) ⟨(i 0).val, (i 0).isLt⟩)
          (V m c main_arg1) (V m c main_v0) (V m c main_arg3) (V m c main_v1) (V m c main_arg5) (V m c main_v2)
          (fun a => match a with
            | ⟨0, _⟩ => ⟨0, Nat.one_pos⟩
            | ⟨1, _⟩ => ⟨(i 1).val, (i 1).isLt⟩
            | ⟨2, _⟩ => ⟨(i 2).val, (i 2).isLt⟩) := by
  have h := (dats m 0 c).arrAt_eq_of_cover 8 (G8 m c) (flushed8_eq m c) cover8
  exact congrFun h i

end Cert.KernelIdeal.Hand

end
-- ==== Proof.KerValue.lean ====
/-
  The kernel's chain of stores for one batch, over arrays holding real numbers, is the kernel arrangement of
  attention pooling.

  The argument goes array by array and index by index. Each of the kernel's four matrix products, read at a row and
  a column, is the sum over the inner coordinate of the operands' products. The keys and the values are then the
  affine projections of the batch's rows. For one query tile the scaled queries are the projections times 1/16, the
  scores their inner products with the keys, the row maximum the largest score of the row (a fold of max from the
  least extended real over real numbers is their supremum), the exponentials real exponentials, the row sum a
  positive real, so that one over it is the real reciprocal, and the tile's sum over its 256 rows is a real sum.
  By induction on the number of tiles the running column sum is the real running column sum, and the pooled row is
  the sum over the keys of the scaled column sum times the values.
-/
import proofs.«430896_j86268713107582_3_alg».proof.Proof.Coe
import proofs.«430896_j86268713107582_3_alg».proof.Proof.KI.Chain
import Idealize.ShloMosaic.PureOps.Ideal.Laws
import Idealize.ShloMosaic.Lib.ValueLayout
import Idealize.ShloMosaic.Lib.Pipeline.Value

noncomputable section

namespace Cert.Attn

open Idealize.ShloMosaic

section Steps

open Idealize.ShloMosaic.ValueIdx
open Cert.KernelIdeal Cert.KernelIdeal.Gen Cert.KernelIdeal.Hand
open scoped BigOperators

/-! ## Bit patterns of the kernel's constants -/

theorem ofBits_sixteenth : Ideal.ofBits .f32 0x3D800000#32 = ((1 / 16 : ℝ) : EReal) := by
  simp [Ideal.ofBits, Ideal.ieee, -EReal.coe_mul]; norm_num
theorem ofBits_inv4096 : Ideal.ofBits .f32 0x39800000#32 = ((1 / 4096 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_negInf : Ideal.ofBits .f32 0xFF800000#32 = ⊥ := by
  simp [Ideal.ofBits, Ideal.ieee]

/-! ## Sums and maxima of real numbers read as extended reals -/

theorem coe_sum {ι : Type} (t : Finset ι) (f : ι → ℝ) : ∑ k ∈ t, ((f k : ℝ) : EReal) = ((∑ k ∈ t, f k : ℝ) : EReal) := by
  classical
  induction t using Finset.induction_on with
  | empty => simp
  | insert a t ha ih => rw [Finset.sum_insert ha, Finset.sum_insert ha, ih, EReal.coe_add]

theorem coe_max' (a b : ℝ) : max ((a : ℝ) : EReal) ((b : ℝ) : EReal) = ((max a b : ℝ) : EReal) :=
  (EReal.coe_strictMono.monotone.map_max).symm

theorem fold_max_coe {ι : Type} (t : Finset ι) (ht : t.Nonempty) (f : ι → ℝ) :
    t.fold max (⊥ : EReal) (fun k => ((f k : ℝ) : EReal)) = ((t.sup' ht f : ℝ) : EReal) := by
  induction ht using Finset.Nonempty.cons_induction with
  | singleton a => rw [Finset.fold_singleton, Finset.sup'_singleton]; exact max_bot_right _
  | cons a t ha ht ih => rw [Finset.fold_cons, ih, Finset.sup'_cons ht, coe_max']

/-! ## A matrix product read at an index

Every product of the kernel is rows by columns: the left operand's second axis against the right operand's first. -/

section Dot
variable {m n p : ℕ} (D : DotDims (⟨2, ![m, n]⟩ : Shape) (⟨2, ![n, p]⟩ : Shape) (⟨2, ![m, p]⟩ : Shape))

theorem dot_lhs0 (hlb : D.lhsBatch = []) (hln : D.lhsNonContracting = [0])
    (j : (⟨2, ![m, p]⟩ : Shape).Idx) (q : D.contr.Idx) : (D.lhsIdx j q 0).val = (j 0).val := by
  unfold DotDims.lhsIdx
  rw [dif_neg (show ¬ (0 : Fin (⟨2, ![m, n]⟩ : Shape).rank) ∈ D.lhsBatch by rw [hlb]; exact List.not_mem_nil),
    dif_pos (show (0 : Fin (⟨2, ![m, n]⟩ : Shape).rank) ∈ D.lhsNonContracting by rw [hln]; exact List.mem_singleton.mpr rfl)]
  simp only [Fin.val_cast]
  have key : ∀ (a b : Nat) (ha : a < (⟨2, ![m, p]⟩ : Shape).rank) (hb : b < (⟨2, ![m, p]⟩ : Shape).rank), a = b →
      (j ⟨a, ha⟩).val = (j ⟨b, hb⟩).val := fun a b ha hb h => by subst h; rfl
  exact key _ _ _ _ (by simp [hlb, hln])

theorem dot_rhs1 (hlb : D.lhsBatch = []) (hln : D.lhsNonContracting = [0]) (hrb : D.rhsBatch = []) (hrn : D.rhsNonContracting = [1])
    (j : (⟨2, ![m, p]⟩ : Shape).Idx) (q : D.contr.Idx) : (D.rhsIdx j q 1).val = (j 1).val := by
  unfold DotDims.rhsIdx
  rw [dif_neg (show ¬ (1 : Fin (⟨2, ![n, p]⟩ : Shape).rank) ∈ D.rhsBatch by rw [hrb]; exact List.not_mem_nil),
    dif_pos (show (1 : Fin (⟨2, ![n, p]⟩ : Shape).rank) ∈ D.rhsNonContracting by rw [hrn]; exact List.mem_singleton.mpr rfl)]
  simp only [Fin.val_cast]
  have key : ∀ (a b : Nat) (ha : a < (⟨2, ![m, p]⟩ : Shape).rank) (hb : b < (⟨2, ![m, p]⟩ : Shape).rank), a = b →
      (j ⟨a, ha⟩).val = (j ⟨b, hb⟩).val := fun a b ha hb h => by subst h; rfl
  exact key _ _ _ _ (by simp [hlb, hln, hrn])

/-- The product into a zero accumulator, at row `i` and column `c`: the sum over the inner coordinate. -/
theorem dot_apply (hlb : D.lhsBatch = []) (hln : D.lhsNonContracting = [0]) (hlc : D.lhsContracting = [1])
    (hrb : D.rhsBatch = []) (hrn : D.rhsNonContracting = [1]) (hrc : D.rhsContracting = [0])
    {φ₁ φ₂ : FTy} (prec : Option ContractPrecision)
    (L : FVec Ideal (⟨2, ![m, n]⟩ : Shape) φ₁) (R : FVec Ideal (⟨2, ![n, p]⟩ : Shape) φ₂) (i : Fin m) (c : Fin p) :
    FloatOps.matmul D prec L R (constant (F := Ideal) (⟨2, ![m, p]⟩ : Shape) .f32 0x00000000#32) (ix2 i c)
      = ∑ k : Fin n, L (ix2 i k) * R (ix2 k c) := by
  have hr : D.contr.rank = 1 := by rw [D.rank_contr, hlc]; rfl
  have hs : D.contr.size ⟨0, by omega⟩ = n := by
    rw [D.size_contr 0 (by rw [hlc]; exact Nat.one_pos)]
    simp [hlc]
  rw [Ideal.matmul_constant_zero_apply, ← Equiv.sum_comp (contrEquiv1 D n hr hs).symm]
  refine Finset.sum_congr rfl fun k _ => ?_
  have hk := contrEquiv1_symm_val D n hr hs k
  have el : D.lhsIdx (ix2 i c) ((contrEquiv1 D n hr hs).symm k) = ix2 i k := funext fun a => Fin.ext (by
    match a with
    | ⟨0, _⟩ => exact dot_lhs0 D hlb hln _ _
    | ⟨1, _⟩ => exact (D.lhsIdx_val_of_single hlc _ _).trans hk)
  have er : D.rhsIdx (ix2 i c) ((contrEquiv1 D n hr hs).symm k) = ix2 k c := funext fun a => Fin.ext (by
    match a with
    | ⟨0, _⟩ => exact (D.rhsIdx_val_of_single hrc _ _).trans hk
    | ⟨1, _⟩ => exact dot_rhs1 D hlb hln hrb hrn _ _)
  rw [el, er]

end Dot

/-! ## Layout operations around a column of row statistics -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(r, c)`, the operand's one column at `r`. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-! ## The kernel's four products -/

theorem dotP_apply {φ₁ φ₂ : FTy} (L : FVec Ideal S4096x256 φ₁) (R : FVec Ideal S256x256 φ₂) (i : Fin 4096) (c : Fin 256) :
    FloatOps.matmul dot_S4096x256_S256x256_S4096x256_1_0_0_1_n_n none L R (constant (F := Ideal) S4096x256 .f32 0x00000000#32) (ix2 i c)
      = ∑ k : Fin 256, L (ix2 i k) * R (ix2 k c) :=
  dot_apply _ rfl rfl rfl rfl rfl rfl none L R i c

theorem dotQ_apply {φ₁ φ₂ : FTy} (L : FVec Ideal S256x256 φ₁) (R : FVec Ideal S256x256 φ₂) (i : Fin 256) (c : Fin 256) :
    FloatOps.matmul dot_S256x256_S256x256_S256x256_1_0_0_1_n_n none L R (constant (F := Ideal) S256x256 .f32 0x00000000#32) (ix2 i c)
      = ∑ k : Fin 256, L (ix2 i k) * R (ix2 k c) :=
  dot_apply _ rfl rfl rfl rfl rfl rfl none L R i c

theorem dotS_apply {φ₁ φ₂ : FTy} (L : FVec Ideal S256x256 φ₁) (R : FVec Ideal S256x4096 φ₂) (i : Fin 256) (c : Fin 4096) :
    FloatOps.matmul dot_S256x256_S256x4096_S256x4096_1_0_0_1_n_n none L R (constant (F := Ideal) S256x4096 .f32 0x00000000#32) (ix2 i c)
      = ∑ k : Fin 256, L (ix2 i k) * R (ix2 k c) :=
  dot_apply _ rfl rfl rfl rfl rfl rfl none L R i c

theorem dotO_apply {φ₁ φ₂ : FTy} (L : FVec Ideal S1x4096 φ₁) (R : FVec Ideal S4096x256 φ₂) (i : Fin 1) (c : Fin 256) :
    FloatOps.matmul dot_S1x4096_S4096x256_S1x256_1_0_0_1_n_n none L R (constant (F := Ideal) S1x256 .f32 0x00000000#32) (ix2 i c)
      = ∑ k : Fin 4096, L (ix2 i k) * R (ix2 k c) :=
  dot_apply _ rfl rfl rfl rfl rfl rfl none L R i c

/-! ## The keys and the values of a batch -/

/-- An affine projection of a batch's rows, as the kernel computes it: a product into zero plus the bias row. -/
theorem pay4_apply (x : X3) (W : W2) (bb : B1) (b : Fin 8) (n : Fin 4096) (h : Fin 256) :
    k0_pay4 (F := Ideal) (batchRows (ex x) b) (ew W) (biasRow (eb bb)) (ix2 n h) = ((proj x W bb b n h : ℝ) : EReal) := by
  unfold k0_pay4
  rw [shapeCast_self]
  rw [truncf_apply, addf_apply, broadcastTo_1b_ab_apply, shapeCast_self]
  simp only [matmul]
  rw [dotP_apply]
  unfold proj
  rw [EReal.coe_add, ← coe_sum]
  congr 1
  refine Finset.sum_congr rfl fun k _ => ?_
  rw [EReal.coe_mul]
  congr 1
  unfold k0_pay3
  rw [truncf_apply, shapeCast_1ab_ab_apply]
  rfl

theorem pay5_apply (x : X3) (W : W2) (bb : B1) (b : Fin 8) (n : Fin 4096) (h : Fin 256) :
    k0_pay5 (F := Ideal) (batchRows (ex x) b) (ew W) (biasRow (eb bb)) (ix2 n h) = ((proj x W bb b n h : ℝ) : EReal) := by
  unfold k0_pay5
  rw [shapeCast_self]
  rw [truncf_apply, addf_apply, broadcastTo_1b_ab_apply, shapeCast_self]
  simp only [matmul]
  rw [dotP_apply]
  unfold proj
  rw [EReal.coe_add, ← coe_sum]
  congr 1
  refine Finset.sum_congr rfl fun k _ => ?_
  rw [EReal.coe_mul]
  congr 1
  unfold k0_pay3
  rw [truncf_apply, shapeCast_1ab_ab_apply]
  rfl

/-- A real matrix as an array of extended reals. -/
def eM {a b : ℕ} (f : Fin a → Fin b → ℝ) : (⟨2, ![a, b]⟩ : Shape).Idx → EReal :=
  fun i => ((f ⟨(i 0).val, (i 0).isLt⟩ ⟨(i 1).val, (i 1).isLt⟩ : ℝ) : EReal)
theorem eM_ix2 {a b : ℕ} (f : Fin a → Fin b → ℝ) (r : Fin a) (c : Fin b) : eM f (ix2 r c) = ((f r c : ℝ) : EReal) := rfl
/-- A real vector as a one-row array of extended reals. -/
def eC {a : ℕ} (f : Fin a → ℝ) : (⟨2, ![1, a]⟩ : Shape).Idx → EReal := fun i => ((f ⟨(i 1).val, (i 1).isLt⟩ : ℝ) : EReal)
theorem eC_ix2 {a : ℕ} (f : Fin a → ℝ) (u : Fin 1) (c : Fin a) : eC f (ix2 u c) = ((f c : ℝ) : EReal) := rfl

theorem keys_eq (x : X3) (W : W2) (bb : B1) (b : Fin 8) :
    k0_pay4 (F := Ideal) (batchRows (ex x) b) (ew W) (biasRow (eb bb)) = eM (proj x W bb b) := by
  funext i
  obtain ⟨n, h, rfl⟩ : ∃ (n : Fin 4096) (h : Fin 256), i = ix2 n h := ⟨i 0, i 1, eq_ix2 i⟩
  exact pay4_apply x W bb b n h

theorem vals_eq (x : X3) (W : W2) (bb : B1) (b : Fin 8) :
    k0_pay5 (F := Ideal) (batchRows (ex x) b) (ew W) (biasRow (eb bb)) = eM (proj x W bb b) := by
  funext i
  obtain ⟨n, h, rfl⟩ : ∃ (n : Fin 4096) (h : Fin 256), i = ix2 n h := ⟨i 0, i 1, eq_ix2 i⟩
  exact pay5_apply x W bb b n h

/-! ## One tile's update of the column sum, stage by stage -/

/-- The tile's queries, scaled by 1/16. -/
def kQ (xq : Vec Ideal S1x256x256 .f32) (wq : Vec Ideal S256x256 .f32) (bq : Vec Ideal S1x256 .f32) : FVec Ideal S256x256 .bf16 :=
  truncf .bf16 (mulf (addf (matmul dot_S256x256_S256x256_S256x256_1_0_0_1_n_n none
      (truncf .bf16 (shapeCast S256x256 xq shapeCasts_S1x256x256_S256x256) bitsLt_bf16_f32) (truncf .bf16 wq bitsLt_bf16_f32)
      (constant S256x256 .f32 0x00000000#32))
    (broadcastTo S256x256 (shapeCast S1x256 bq shapeCasts_S1x256_S1x256) broadcasts_S1x256_S256x256))
    (broadcast S256x256 (Scalar.ofBits .f32 0x3D800000#32))) bitsLt_bf16_f32
/-- The scores of the tile's queries against all the keys. -/
def kS (Q : FVec Ideal S256x256 .bf16) (K : Vec Ideal S4096x256 .bf16) : FVec Ideal S256x4096 .f32 :=
  matmul dot_S256x256_S256x4096_S256x4096_1_0_0_1_n_n none Q
    (transpose S256x4096 [1, 0] K transposes_S4096x256_p1_0_S256x4096 : FVec Ideal S256x4096 .bf16) (constant S256x4096 .f32 0x00000000#32)
/-- The maximum of each row. -/
def kMax (S : FVec Ideal S256x4096 .f32) : FVec Ideal S256 .f32 :=
  multiReduction .maximumf [1] S256 S 0xFF800000#32 reduces_S256x4096_S256 (.inl rfl) rfl
/-- The exponentials of the scores shifted by their row's maximum. -/
def kE (S : FVec Ideal S256x4096 .f32) : FVec Ideal S256x4096 .f32 :=
  exp (subf S (broadcastTo S256x4096 (shapeCast S256x1 (kMax S) shapeCasts_S256_S256x1) broadcasts_S256x1_S256x4096))
/-- The sum of each row. -/
def kSum (E : FVec Ideal S256x4096 .f32) : FVec Ideal S256 .f32 :=
  multiReduction .add [1] S256 E 0x00000000#32 reduces_S256x4096_S256 (.inl rfl) rfl
/-- The attention weights: each exponential times the reciprocal of its row's sum. -/
def kA (E : FVec Ideal S256x4096 .f32) : FVec Ideal S256x4096 .f32 :=
  mulf E (broadcastTo S256x4096 (divf (broadcast S256x1 (Scalar.ofBits .f32 0x3F800000#32))
    (shapeCast S256x1 (kSum E) shapeCasts_S256_S256x1)) broadcasts_S256x1_S256x4096)
/-- The sum of the weights over the tile's rows, as a row. -/
def kCol (A : FVec Ideal S256x4096 .f32) : FVec Ideal S1x4096 .f32 :=
  shapeCast S1x4096 (multiReduction .add [0] S4096 A 0x00000000#32 reduces_S256x4096_S4096 (.inl rfl) rfl) shapeCasts_S4096_S1x4096

theorem pay7_eq (xq : Vec Ideal S1x256x256 .f32) (wq : Vec Ideal S256x256 .f32) (bq : Vec Ideal S1x256 .f32)
    (K : Vec Ideal S4096x256 .bf16) (C : Vec Ideal S1x4096 .f32) :
    k0_pay7 (F := Ideal) xq wq bq K C = addf C (kCol (kA (kE (kS (kQ xq wq bq) K)))) := rfl

theorem lift_row (r : Fin 256) (k : Fin 4096) : reduces_S256x4096_S256.lift (ix1 r) k = ix2 r k :=
  funext fun a => Fin.ext (by
    match a with
    | ⟨0, _⟩ => rfl
    | ⟨1, _⟩ => rfl)

theorem lift_col (k : Fin 4096) (r : Fin 256) : reduces_S256x4096_S4096.lift (ix1 k) r = ix2 r k :=
  funext fun a => Fin.ext (by
    match a with
    | ⟨0, _⟩ => rfl
    | ⟨1, _⟩ => rfl)

theorem kS_apply (Q : FVec Ideal S256x256 .bf16) (K : Vec Ideal S4096x256 .bf16) (r : Fin 256) (k : Fin 4096) :
    kS Q K (ix2 r k) = ∑ h : Fin 256, Q (ix2 r h) * K (ix2 k h) := by
  unfold kS
  simp only [matmul]
  rw [dotS_apply]
  refine Finset.sum_congr rfl fun h _ => ?_
  rw [transpose_ix2_apply]

theorem kMax_apply (S : FVec Ideal S256x4096 .f32) (r : Fin 256) :
    kMax S (ix1 r) = Finset.univ.fold max (⊥ : EReal) (fun k : Fin 4096 => S (ix2 r k)) := by
  unfold kMax
  refine (Ideal.multiReduction_maximumf_single S _ reduces_S256x4096_S256 _ _ (ix1 r)).trans ?_
  show Finset.fold max (Ideal.ofBits .f32 0xFF800000#32) (fun k : Fin 4096 => S (reduces_S256x4096_S256.lift (ix1 r) k)) Finset.univ = _
  rw [ofBits_negInf]
  simp only [lift_row]

theorem kE_apply (S : FVec Ideal S256x4096 .f32) (r : Fin 256) (k : Fin 4096) :
    kE S (ix2 r k) = Ideal.exp (S (ix2 r k) - Finset.univ.fold max (⊥ : EReal) (fun k' : Fin 4096 => S (ix2 r k'))) := by
  unfold kE
  show Ideal.exp (subf S _ (ix2 r k)) = _
  rw [subf_apply, broadcastTo_a1_ab_apply, shapeCast_a_a1_apply, kMax_apply]

theorem kSum_apply (E : FVec Ideal S256x4096 .f32) (r : Fin 256) : kSum E (ix1 r) = ∑ k : Fin 4096, E (ix2 r k) := by
  unfold kSum
  refine (Ideal.multiReduction_add_single E _ reduces_S256x4096_S256 _ _ (ix1 r)).trans ?_
  show ∑ k : Fin 4096, E (reduces_S256x4096_S256.lift (ix1 r) k) = _
  simp only [lift_row]

theorem kA_apply (E : FVec Ideal S256x4096 .f32) (r : Fin 256) (k : Fin 4096) :
    kA E (ix2 r k) = E (ix2 r k) * Ideal.div ((1 : ℝ) : EReal) (∑ k' : Fin 4096, E (ix2 r k')) := by
  unfold kA
  rw [mulf_apply, broadcastTo_a1_ab_apply, divf_apply, shapeCast_a_a1_apply, kSum_apply, broadcast_apply]
  show _ * Ideal.div (Ideal.ofBits .f32 0x3F800000#32) _ = _
  rw [ofBits_one]

theorem kCol_apply (A : FVec Ideal S256x4096 .f32) (u : Fin 1) (k : Fin 4096) : kCol A (ix2 u k) = ∑ r : Fin 256, A (ix2 r k) := by
  unfold kCol
  rw [shapeCast_a_1a_apply]
  refine (Ideal.multiReduction_add_single A _ reduces_S256x4096_S4096 _ _ (ix1 k)).trans ?_
  show ∑ r : Fin 256, A (reduces_S256x4096_S4096.lift (ix1 k) r) = _
  simp only [lift_col]

theorem kQ_apply (x : X3) (Wq : W2) (bq : B1) (b : Fin 8) (j : Fin 16) (r h : Fin 256) :
    kQ (queryTile (ex x) b j) (ew Wq) (biasRow (eb bq)) (ix2 r h) = ((proj x Wq bq b (tileRow j r) h * (1 / 16) : ℝ) : EReal) := by
  unfold kQ
  rw [truncf_apply, mulf_apply, addf_apply, broadcastTo_1b_ab_apply, shapeCast_self, broadcast_apply]
  simp only [matmul]
  rw [dotQ_apply]
  show _ * Ideal.ofBits .f32 0x3D800000#32 = _
  rw [ofBits_sixteenth, EReal.coe_mul]
  congr 1
  unfold proj
  rw [EReal.coe_add, ← coe_sum]
  congr 1
  refine Finset.sum_congr rfl fun k _ => ?_
  rw [EReal.coe_mul]
  congr 1
  rw [truncf_apply, shapeCast_1ab_ab_apply]
  rfl

/-! ## The stages over real arrays -/

theorem kQ_eq (x : X3) (Wq : W2) (bq : B1) (b : Fin 8) (j : Fin 16) :
    kQ (queryTile (ex x) b j) (ew Wq) (biasRow (eb bq)) = eM (fun r h => proj x Wq bq b (tileRow j r) h * (1 / 16)) := by
  funext i
  obtain ⟨r, h, rfl⟩ : ∃ (r : Fin 256) (h : Fin 256), i = ix2 r h := ⟨i 0, i 1, eq_ix2 i⟩
  exact kQ_apply x Wq bq b j r h

theorem kS_eq (q : Fin 256 → Fin 256 → ℝ) (kf : Fin 4096 → Fin 256 → ℝ) :
    kS (eM q) (eM kf) = eM (fun r k => ∑ h : Fin 256, q r h * kf k h) := by
  funext i
  obtain ⟨r, k, rfl⟩ : ∃ (r : Fin 256) (k : Fin 4096), i = ix2 r k := ⟨i 0, i 1, eq_ix2 i⟩
  rw [kS_apply, eM_ix2, ← coe_sum]
  refine Finset.sum_congr rfl fun h _ => ?_
  rw [eM_ix2, eM_ix2, EReal.coe_mul]

theorem kE_eq (s : Fin 256 → Fin 4096 → ℝ) : kE (eM s) = eM (fun r k => expRow (s r) k) := by
  funext i
  obtain ⟨r, k, rfl⟩ : ∃ (r : Fin 256) (k : Fin 4096), i = ix2 r k := ⟨i 0, i 1, eq_ix2 i⟩
  rw [kE_apply]
  simp only [eM_ix2]
  rw [fold_max_coe Finset.univ Finset.univ_nonempty, ← EReal.coe_sub]
  rfl

/-- A row's sum of shifted exponentials is positive. -/
theorem rowSum_pos (s : Fin 4096 → ℝ) : 0 < rowSum s :=
  Finset.sum_pos (fun k _ => Real.exp_pos _) Finset.univ_nonempty

theorem kA_eq (s : Fin 256 → Fin 4096 → ℝ) :
    kA (eM (fun r k => expRow (s r) k)) = eM (fun r k => expRow (s r) k * (1 / rowSum (s r))) := by
  funext i
  obtain ⟨r, k, rfl⟩ : ∃ (r : Fin 256) (k : Fin 4096), i = ix2 r k := ⟨i 0, i 1, eq_ix2 i⟩
  rw [kA_apply]
  simp only [eM_ix2]
  rw [coe_sum]
  show _ * Ideal.div ((1 : ℝ) : EReal) ((rowSum (s r) : ℝ) : EReal) = _
  rw [Ideal.div_coe (rowSum_pos (s r)).ne', ← EReal.coe_mul, one_mul, ← EReal.coe_mul]

theorem kCol_eq (a : Fin 256 → Fin 4096 → ℝ) : kCol (eM a) = eC (fun k => ∑ r : Fin 256, a r k) := by
  funext i
  obtain ⟨u, k, rfl⟩ : ∃ (u : Fin 1) (k : Fin 4096), i = ix2 u k := ⟨i 0, i 1, eq_ix2 i⟩
  rw [kCol_apply, eC_ix2, ← coe_sum]
  rfl

/-! ## One tile's update, the running column sum, the pooled row -/

theorem bump_eq (x : X3) (Wq : W2) (bq : B1) (Wk : W2) (bk : B1) (b : Fin 8) (j : Fin 16) (C : Fin 4096 → ℝ) :
    bump (F := Ideal) (queryTile (ex x) b j) (ew Wq) (biasRow (eb bq)) (eM (proj x Wk bk b)) (eC C)
      = eC (fun k => C k + ∑ r : Fin 256, attnK (scoreK x Wq bq Wk bk b) (tileRow j r) k) := by
  unfold bump k0_pay1
  rw [shapeCast_self, pay7_eq, kQ_eq, kS_eq, kE_eq, kA_eq, kCol_eq]
  funext i
  obtain ⟨u, k, rfl⟩ : ∃ (u : Fin 1) (k : Fin 4096), i = ix2 u k := ⟨i 0, i 1, eq_ix2 i⟩
  rw [addf_apply, eC_ix2, eC_ix2, eC_ix2, ← EReal.coe_add]
  rfl

theorem colAcc_eq (x : X3) (Wq : W2) (bq : B1) (Wk : W2) (bk : B1) (b : Fin 8) : ∀ (n : ℕ) (hn : n ≤ 16),
    colAcc (F := Ideal) (fun j => queryTile (ex x) b j) (ew Wq) (biasRow (eb bq)) (eM (proj x Wk bk b)) n hn
      = eC (colSum (scoreK x Wq bq Wk bk b) n hn)
  | 0, _ => by
    show k0_pay6 (F := Ideal) = _
    unfold k0_pay6
    dsimp only
    rw [shapeCast_self]
    funext i
    rw [broadcast_apply]
    show Ideal.ofBits .f32 0x00000000#32 = ((0 : ℝ) : EReal)
    rw [Ideal.ofBits_zero_f32]
    exact EReal.coe_zero.symm
  | n + 1, hn => by
    show bump (F := Ideal) _ _ _ _ (colAcc _ _ _ _ n _) = _
    rw [colAcc_eq x Wq bq Wk bk b n (Nat.le_of_succ_le hn), bump_eq]
    rfl

theorem pooled_apply (x : X3) (Wv : W2) (bv : B1) (b : Fin 8) (c : Fin 4096 → ℝ) (u v : Fin 1) (h : Fin 256) :
    k0_pay2 (F := Ideal) (eC c) (eM (proj x Wv bv b)) (ix3 u v h)
      = ((∑ k : Fin 4096, (c k * (1 / 4096)) * proj x Wv bv b k h : ℝ) : EReal) := by
  unfold k0_pay2
  rw [shapeCast_ab_1ab_apply]
  simp only [matmul]
  rw [dotO_apply, ← coe_sum]
  refine Finset.sum_congr rfl fun k _ => ?_
  rw [truncf_apply, mulf_apply, broadcast_apply, eC_ix2, eM_ix2]
  show (_ * Ideal.ofBits .f32 0x39800000#32) * _ = _
  rw [ofBits_inv4096, ← EReal.coe_mul, ← EReal.coe_mul]

theorem ker_value_steps (x : X3) (Wq : W2) (bq : B1) (Wk : W2) (bk : B1) (Wv : W2) (bv : B1) (b : Fin 8) :
    Cert.KernelIdeal.Hand.batchOut (F := Ideal) (fun j => queryTile (ex x) b j) (batchRows (ex x) b)
        (ew Wq) (biasRow (eb bq)) (ew Wk) (biasRow (eb bk)) (ew Wv) (biasRow (eb bv))
      = fun y => ((kerOut x Wq bq Wk bk Wv bv b ⟨(y 2).val, (y 2).isLt⟩ : ℝ) : EReal) := by
  unfold batchOut pooled keys vals
  rw [keys_eq, vals_eq, colAcc_eq]
  funext y
  obtain ⟨u, v, h, rfl⟩ : ∃ (u v : Fin 1) (h : Fin 256), y = ix3 u v h := ⟨y 0, y 1, y 2, eq_ix3 y⟩
  rw [pooled_apply]
  rfl

end Steps

theorem ker_value (x : X3) (Wq : W2) (bq : B1) (Wk : W2) (bk : B1) (Wv : W2) (bv : B1) (b : Fin 8) :
    Cert.KernelIdeal.Hand.batchOut (F := Ideal) (fun j => queryTile (ex x) b j) (batchRows (ex x) b)
        (ew Wq) (biasRow (eb bq)) (ew Wk) (biasRow (eb bk)) (ew Wv) (biasRow (eb bv))
      = fun y => ((kerOut x Wq bq Wk bk Wv bv b ⟨(y 2).val, (y 2).isLt⟩ : ℝ) : EReal) :=
  ker_value_steps x Wq bq Wk bk Wv bv b

end Cert.Attn

end
-- ==== Proof.KernelValue.lean ====
/-
  The idealized kernel's result buffer, over argument arrays that hold real numbers.

  @main's last line reads the pipeline's result array, whose entry (b, 0, h) is batch b's pooled row at h; the pooled
  row is computed from the blocks of the arguments as the region finds them: x and the three weight matrices as
  launched, the three bias vectors reshaped to rows by @main's first three lines. Over real arrays the chain is the
  kernel's arrangement of attention pooling.
-/
import proofs.«430896_j86268713107582_3_alg».proof.Defs
import proofs.«430896_j86268713107582_3_alg».proof.Proof.KI.Run
import proofs.«430896_j86268713107582_3_alg».proof.Proof.KI.Result
import proofs.«430896_j86268713107582_3_alg».proof.Proof.KerValue
import Idealize.ShloMosaic.Lib.StableHlo.Run
import Idealize.ShloMosaic.Lib.ValueLayout

set_option maxRecDepth 16384

noncomputable section

namespace Cert.Proof.KernelValue

open Cert.KernelIdeal Cert.KernelIdeal.Gen Cert.KernelIdeal.Hand
open Idealize.ShloMosaic Idealize.ShloMosaic.TcCoe Idealize.SL.Sem Idealize.ShloMosaic.StableHlo
open Cert.Attn

open Idealize.ShloMosaic.ValueIdx

variable (m : (ℓ : Loc nD τ sig) → Buf (Elt Ideal) ℓ)

/-- A vector reshaped to a row, read at (0, j), is the vector at j. -/
theorem row_of_vector (B : S256.Idx → EReal) (i : S1x256.Idx) :
    shapeCast S1x256 B shapeCasts_S256_S1x256 i = biasRow B i := by
  obtain ⟨u, j, rfl⟩ : ∃ (u : Fin 1) (j : Fin 256), i = ix2 u j := ⟨i 0, i 1, eq_ix2 i⟩
  refine (shapeCast_a_1a_apply B shapeCasts_S256_S1x256 u j).trans ?_
  unfold biasRow
  exact congrArg B (funext fun a => Fin.ext (by match a with | ⟨0, _⟩ => rfl))

/-- The region finds each bias vector reshaped to a row. -/
theorem V_bias0 (c : Dev nD) : (V m c main_v0 : S1x256.Idx → EReal) = biasRow (m ((c.tc : Thread nD τ).loc main_arg2)) := by
  show StableHlo.after (List.flatten [hostOps0]) (fun b => m (c, b)) (Proc.devRef .tc main_v0) = _
  simp only [List.flatten_cons, List.flatten_nil, List.append_nil, hostOps0]
  after_results
  exact funext fun i => row_of_vector _ i
theorem V_bias1 (c : Dev nD) : (V m c main_v1 : S1x256.Idx → EReal) = biasRow (m ((c.tc : Thread nD τ).loc main_arg4)) := by
  show StableHlo.after (List.flatten [hostOps0]) (fun b => m (c, b)) (Proc.devRef .tc main_v1) = _
  simp only [List.flatten_cons, List.flatten_nil, List.append_nil, hostOps0]
  after_results
  exact funext fun i => row_of_vector _ i
theorem V_bias2 (c : Dev nD) : (V m c main_v2 : S1x256.Idx → EReal) = biasRow (m ((c.tc : Thread nD τ).loc main_arg6)) := by
  show StableHlo.after (List.flatten [hostOps0]) (fun b => m (c, b)) (Proc.devRef .tc main_v2) = _
  simp only [List.flatten_cons, List.flatten_nil, List.append_nil, hostOps0]
  after_results
  exact funext fun i => row_of_vector _ i

/-- @main's last line drops the result array's middle axis. -/
theorem out_line (W : Valuation τ sig (Elt Ideal)) (i : S8x256.Idx) :
    (StableHlo.after hostOps1 W (Proc.devRef .tc main_v4) : S8x256.Idx → EReal) i
      = (W (Proc.devRef .tc main_v3) : S8x1x256.Idx → EReal) (fun a => match a with
          | ⟨0, _⟩ => ⟨(i 0).val, (i 0).isLt⟩
          | ⟨1, _⟩ => ⟨0, Nat.one_pos⟩
          | ⟨2, _⟩ => ⟨(i 1).val, (i 1).isLt⟩) := by
  simp only [hostOps1]
  after_results
  show shapeCast S8x256 (W (Proc.devRef .tc main_v3) : S8x1x256.Idx → EReal) shapeCasts_S8x1x256_S8x256 i = _
  refine shapeCast_apply _ _ i _ ?_
  show (S8x1x256.rowMajor _).val = (S8x256.rowMajor i).val
  rw [Shape.rowMajor_val_three, Shape.rowMajor_val_two]
  show ((i 0).val * 1 + 0) * 256 + (i 1).val = (i 0).val * 256 + (i 1).val
  omega

/-- Over argument arrays that hold real numbers, @main's result is the kernel's arrangement of attention pooling:
    the last line reads the result array, whose entry (b, 0, h) is batch b's pooled row at h, computed from the blocks
    of the arguments as the region found them. -/
theorem kernel_value_real (x : X3) (wq : W2) (bq : B1) (wk : W2) (bk : B1) (wv : W2) (bv : B1)
    (c : Dev nD)
    (h0 : (m ((c.tc : Thread nD τ).loc main_arg0) : S8x4096x256.Idx → EReal) = ex x)
    (h1 : (m ((c.tc : Thread nD τ).loc main_arg1) : S256x256.Idx → EReal) = ew wq)
    (h2 : (m ((c.tc : Thread nD τ).loc main_arg2) : S256.Idx → EReal) = eb bq)
    (h3 : (m ((c.tc : Thread nD τ).loc main_arg3) : S256x256.Idx → EReal) = ew wk)
    (h4 : (m ((c.tc : Thread nD τ).loc main_arg4) : S256.Idx → EReal) = eb bk)
    (h5 : (m ((c.tc : Thread nD τ).loc main_arg5) : S256x256.Idx → EReal) = ew wv)
    (h6 : (m ((c.tc : Thread nD τ).loc main_arg6) : S256.Idx → EReal) = eb bv) :
    (StableHlo.after hostOps1 (exitVal m (dats m) c) (Proc.devRef .tc main_v4) : S8x256.Idx → EReal)
      = eo (kerOut x wq bq wk bk wv bv) := by
  funext i
  rw [out_line, exitVal_out, result_eq]
  rw [V_arg m c main_arg0 (by decide) (by decide) (by decide), V_arg m c main_arg1 (by decide) (by decide) (by decide),
    V_arg m c main_arg3 (by decide) (by decide) (by decide), V_arg m c main_arg5 (by decide) (by decide) (by decide),
    V_bias0, V_bias1, V_bias2, h0, h1, h2, h3, h4, h5, h6]
  exact (congrFun (ker_value x wq bq wk bk wv bv ⟨(i 0).val, (i 0).isLt⟩) _).trans rfl

end Cert.Proof.KernelValue

end
-- ==== Proof.RefValue.lean ====
/-
  The reference program's result, read one operation at a time over arrays holding real numbers, is the
  reference arrangement of attention pooling.
-/
import proofs.«430896_j86268713107582_3_alg».proof.Proof.Coe
import proofs.«430896_j86268713107582_3_alg».proof.Proof.Gen.ReferenceIdeal.Read
import Idealize.ShloMosaic.PureOps.Ideal.Laws

noncomputable section

namespace Cert.Attn

open Idealize.ShloMosaic

/-! Each stage of the reference, read at an index over arrays of real numbers, is the coercion of a real formula:
    the projections, the scale 1/16, a score, a row's maximum, the shifted exponential, the row's sum, an attention
    weight, the two outer sums, and the division by 4096. -/
namespace RefValue

open Cert.ReferenceIdeal Cert.ReferenceIdeal.Read
open scoped BigOperators

/-- A finite sum of real numbers read as extended reals is the real sum read as an extended real. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The maximum of finitely many real numbers, folded from -∞ over the extended reals, is the real maximum. -/
theorem fold_max_coe {ι : Type} (s : Finset ι) (hs : s.Nonempty) (f : ι → ℝ) :
    s.fold max (⊥ : EReal) (fun k => ((f k : ℝ) : EReal)) = ((s.sup' hs f : ℝ) : EReal) := by
  induction hs using Finset.Nonempty.cons_induction with
  | singleton a =>
    rw [Finset.fold_singleton, Finset.sup'_singleton]
    exact max_bot_right _
  | cons a s ha hs ih =>
    rw [Finset.fold_cons, ih, Finset.sup'_cons hs f]
    exact (EReal.coe_strictMono.monotone.map_max).symm

/-- The bit patterns of the program's constants: 1, 256, 4096 and -∞. -/
theorem ofBits_one : Ideal.ofBits .f32 0x3F800000#32 = ((1 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
theorem ofBits_4096 : Ideal.ofBits .f32 0x45800000#32 = ((4096 : ℝ) : EReal) := by
  simp [Ideal.ofBits, Ideal.ieee, -EReal.coe_mul]; norm_num
theorem ofBits_neginf : Ideal.ofBits .f32 0xFF800000#32 = (⊥ : EReal) := by
  simp [Ideal.ofBits, Ideal.ieee]

/-- An affine projection, read at an index: the inner product with a column of the weights plus the bias. -/
theorem v3_real (x : X3) (W : W2) (b : B1) (i : S8x4096x256.Idx) :
    val_main_v3 (F := Ideal) (ex x) (ew W) (eb b) i
      = ((proj x W b ⟨(i 0).val, (i 0).isLt⟩ ⟨(i 1).val, (i 1).isLt⟩ ⟨(i 2).val, (i 2).isLt⟩ : ℝ) : EReal) := by
  rw [val_main_v3_apply, val_main_v0_apply, val_main_v2_apply, val_main_v1_apply]
  show (∑ k : Fin 256, ex x (lidx_main_v0 i k) * ew W (ridx_main_v0 i k)) + eb b (idx_main_v1 (idx_main_v2 i)) = _
  unfold proj
  rw [EReal.coe_add, ← coe_sum]
  exact congrArg₂ (· + ·) (Finset.sum_congr rfl fun k _ => (EReal.coe_mul _ _).symm) rfl

theorem v7_real (x : X3) (W : W2) (b : B1) (i : S8x4096x256.Idx) :
    val_main_v7 (F := Ideal) (ex x) (ew W) (eb b) i
      = ((proj x W b ⟨(i 0).val, (i 0).isLt⟩ ⟨(i 1).val, (i 1).isLt⟩ ⟨(i 2).val, (i 2).isLt⟩ : ℝ) : EReal) :=
  v3_real x W b i

theorem v11_real (x : X3) (W : W2) (b : B1) (i : S8x4096x256.Idx) :
    val_main_v11 (F := Ideal) (ex x) (ew W) (eb b) i
      = ((proj x W b ⟨(i 0).val, (i 0).isLt⟩ ⟨(i 1).val, (i 1).isLt⟩ ⟨(i 2).val, (i 2).isLt⟩ : ℝ) : EReal) :=
  v3_real x W b i

/-- The scale: one over the square root of 256 is 1/16. -/
theorem v13_real (i : S_.Idx) : val_main_v13 (F := Ideal) i = ((1 / 16 : ℝ) : EReal) := by
  rw [val_main_v13_apply, val_main_v12_apply, val_main_cst_apply, val_main_cst_0_apply]
  show Ideal.div (Ideal.ofBits .f32 0x3F800000#32) (Ideal.sqrt (Ideal.ofBits .f32 0x43800000#32)) = _
  have hs : Real.sqrt 256 = 16 := by
    rw [show (256 : ℝ) = 16 ^ 2 by norm_num]; exact Real.sqrt_sq (by norm_num)
  rw [ofBits_one, ofBits_256, Ideal.sqrt_coe, if_neg (by norm_num), hs, Ideal.div_coe (by norm_num : (16 : ℝ) ≠ 0),
    ← EReal.coe_mul, one_mul]

/-- A score: the inner product of a query and a key, times 1/16. -/
theorem v16_real (x : X3) (Wq : W2) (bq : B1) (Wk : W2) (bk : B1) (i : S8x4096x4096.Idx) :
    val_main_v16 (F := Ideal) (ex x) (ew Wq) (eb bq) (ew Wk) (eb bk) i
      = ((scoreR x Wq bq Wk bk ⟨(i 0).val, (i 0).isLt⟩ ⟨(i 1).val, (i 1).isLt⟩ ⟨(i 2).val, (i 2).isLt⟩ : ℝ) : EReal) := by
  rw [val_main_v16_apply, val_main_v14_apply, val_main_v15_apply, v13_real]
  show (∑ k : Fin 256, val_main_v3 (F := Ideal) (ex x) (ew Wq) (eb bq) (lidx_main_v14 i k)
        * val_main_v7 (F := Ideal) (ex x) (ew Wk) (eb bk) (ridx_main_v14 i k)) * ((1 / 16 : ℝ) : EReal) = _
  unfold scoreR
  rw [EReal.coe_mul, ← coe_sum]
  refine congrArg₂ (· * ·) (Finset.sum_congr rfl fun k _ => ?_) rfl
  exact (congrArg₂ (· * ·) (v3_real x Wq bq (lidx_main_v14 i k)) (v7_real x Wk bk (ridx_main_v14 i k))).trans
    (EReal.coe_mul _ _).symm

/-- The ideal maximum is the order's maximum, so a fold of one is a fold of the other. -/
theorem fold_maximumf_eq {ι : Type} (s : Finset ι) (b : EReal) (g : ι → EReal) :
    s.fold (FloatOps.maximumf (F := Ideal) (φ := .f32)) b g = s.fold max b g := rfl

/-- The fold of max from -∞ over a row of real numbers is the row's largest entry. -/
theorem rowMax_eq_fold (s : Fin 4096 → ℝ) :
    (Finset.univ : Finset (Fin 4096)).fold max (⊥ : EReal) (fun k => ((s k : ℝ) : EReal)) = ((rowMax s : ℝ) : EReal) :=
  fold_max_coe Finset.univ Finset.univ_nonempty s

/-- A maximum taken along the last axis of any array, from any initial value: at a row, the fold of max over the
    row's entries. -/
theorem reduce_max_row (y0 : (⟨S8x4096x4096, .f32⟩ : BufTy).Contents (Elt Ideal)) (init : (⟨S_, .f32⟩ : BufTy).Contents (Elt Ideal))
    (h' : S8x4096x4096.ReducesTo [2] S8x4096) (hu : 0 < S_.numel) (i : S8x4096.Idx) :
    Host.reduce (FloatOps.maximumf (F := Ideal) (φ := .f32)) y0 init h' hu i
      = (Finset.univ : Finset (Fin 4096)).fold max (init (Shape.Idx.first hu)) (fun k : Fin 4096 => y0 (idx_main_v24 i k)) := by
  rw [Host.reduce_eq_fold_single (FloatOps.maximumf (F := Ideal) (φ := .f32)) y0 init h' (by decide) hu i]
  refine (fold_maximumf_eq _ _ _).trans ?_
  refine Finset.fold_congr fun k _ => ?_
  exact congrArg y0 (funext fun a => Fin.ext (by match a with | ⟨0, _⟩ => rfl | ⟨1, _⟩ => rfl | ⟨2, _⟩ => rfl))

/-- The row maximum: the fold of max from -∞ over a row of real scores is the largest of them. -/
theorem v17_real (x : X3) (Wq : W2) (bq : B1) (Wk : W2) (bk : B1) (j : S8x4096.Idx) :
    val_main_v17 (F := Ideal) (ex x) (ew Wq) (eb bq) (ew Wk) (eb bk) j
      = ((rowMax (scoreR x Wq bq Wk bk ⟨(j 0).val, (j 0).isLt⟩ ⟨(j 1).val, (j 1).isLt⟩) : ℝ) : EReal) := by
  have hb : ∀ i, val_main_cst_1 (F := Ideal) i = (⊥ : EReal) := fun i => by
    rw [val_main_cst_1_apply]; exact ofBits_neginf
  have hv : ∀ k : Fin 4096, val_main_v16 (F := Ideal) (ex x) (ew Wq) (eb bq) (ew Wk) (eb bk) (idx_main_v24 j k)
      = ((scoreR x Wq bq Wk bk ⟨(j 0).val, (j 0).isLt⟩ ⟨(j 1).val, (j 1).isLt⟩ k : ℝ) : EReal) :=
    fun k => v16_real x Wq bq Wk bk (idx_main_v24 j k)
  unfold val_main_v17
  generalize val_main_v16 (F := Ideal) (ex x) (ew Wq) (eb bq) (ew Wk) (eb bk) = y0 at hv ⊢
  refine (reduce_max_row y0 _ _ _ j).trans ?_
  rw [hb]
  exact (congrArg (fun g => Finset.fold max (⊥ : EReal) g (Finset.univ : Finset (Fin 4096))) (funext hv)).trans
    (rowMax_eq_fold _)

theorem v19_real (x : X3) (Wq : W2) (bq : B1) (Wk : W2) (bk : B1) (j : S8x4096.Idx) :
    val_main_v19 (F := Ideal) (ex x) (ew Wq) (eb bq) (ew Wk) (eb bk) j
      = ((rowMax (scoreR x Wq bq Wk bk ⟨(j 0).val, (j 0).isLt⟩ ⟨(j 1).val, (j 1).isLt⟩) : ℝ) : EReal) := by
  rw [val_main_v19_apply, val_main_v18_apply, val_main_cst_2_apply, v17_real]
  show max (Ideal.ofBits .f32 0xFF800000#32) _ = _
  rw [ofBits_neginf]
  exact max_bot_left _

/-- The shifted exponential of a score. -/
theorem v23_real (x : X3) (Wq : W2) (bq : B1) (Wk : W2) (bk : B1) (i : S8x4096x4096.Idx) :
    val_main_v23 (F := Ideal) (ex x) (ew Wq) (eb bq) (ew Wk) (eb bk) i
      = ((expRow (scoreR x Wq bq Wk bk ⟨(i 0).val, (i 0).isLt⟩ ⟨(i 1).val, (i 1).isLt⟩) ⟨(i 2).val, (i 2).isLt⟩ : ℝ) : EReal) := by
  rw [val_main_v23_apply, val_main_v22_apply, v16_real, val_main_v21_apply, val_main_v20_apply, v19_real,
    Ideal.hostUnary_exp_def, Ideal.subf_def, ← EReal.coe_sub, Ideal.exp_coe]
  unfold expRow
  rfl

/-- The sum of a row's shifted exponentials, and that it is positive. -/
theorem v24_real (x : X3) (Wq : W2) (bq : B1) (Wk : W2) (bk : B1) (j : S8x4096.Idx) :
    val_main_v24 (F := Ideal) (ex x) (ew Wq) (eb bq) (ew Wk) (eb bk) j
      = ((rowSum (scoreR x Wq bq Wk bk ⟨(j 0).val, (j 0).isLt⟩ ⟨(j 1).val, (j 1).isLt⟩) : ℝ) : EReal) := by
  rw [val_main_v24_apply, val_main_cst_3_apply]
  show Ideal.ofBits .f32 0x00000000#32 + _ = _
  rw [Ideal.ofBits_zero_f32, zero_add]
  unfold rowSum
  rw [← coe_sum]
  exact Finset.sum_congr rfl fun k _ => v23_real x Wq bq Wk bk (idx_main_v24 j k)

theorem rowSum_pos (s : Fin 4096 → ℝ) : 0 < rowSum s :=
  Finset.sum_pos (fun k _ => Real.exp_pos _) Finset.univ_nonempty

/-- An attention weight: the shifted exponential over the row's sum. -/
theorem v27_real (x : X3) (Wq : W2) (bq : B1) (Wk : W2) (bk : B1) (i : S8x4096x4096.Idx) :
    val_main_v27 (F := Ideal) (ex x) (ew Wq) (eb bq) (ew Wk) (eb bk) i
      = ((attnR (scoreR x Wq bq Wk bk ⟨(i 0).val, (i 0).isLt⟩) ⟨(i 1).val, (i 1).isLt⟩ ⟨(i 2).val, (i 2).isLt⟩ : ℝ) : EReal) := by
  rw [val_main_v27_apply, v23_real, val_main_v26_apply, val_main_v25_apply, v24_real]
  show Ideal.div _ _ = _
  rw [Ideal.div_coe (rowSum_pos _).ne', ← EReal.coe_mul]
  unfold attnR
  exact congrArg Real.toEReal (div_eq_mul_one_div _ _).symm

/-- Attention times values, summed over the keys. -/
theorem v28_real (x : X3) (Wq : W2) (bq : B1) (Wk : W2) (bk : B1) (Wv : W2) (bv : B1) (i : S8x4096x256.Idx) :
    val_main_v28 (F := Ideal) (ex x) (ew Wq) (eb bq) (ew Wk) (eb bk) (ew Wv) (eb bv) i
      = ((∑ k : Fin 4096, attnR (scoreR x Wq bq Wk bk ⟨(i 0).val, (i 0).isLt⟩) ⟨(i 1).val, (i 1).isLt⟩ k
            * proj x Wv bv ⟨(i 0).val, (i 0).isLt⟩ k ⟨(i 2).val, (i 2).isLt⟩ : ℝ) : EReal) := by
  rw [val_main_v28_apply, ← coe_sum]
  refine Finset.sum_congr rfl fun k _ => ?_
  exact (congrArg₂ (· * ·) (v27_real x Wq bq Wk bk (lidx_main_v28 i k)) (v11_real x Wv bv (ridx_main_v28 i k))).trans
    (EReal.coe_mul _ _).symm

/-- Summed over the queries. -/
theorem v29_real (x : X3) (Wq : W2) (bq : B1) (Wk : W2) (bk : B1) (Wv : W2) (bv : B1) (i : S8x256.Idx) :
    val_main_v29 (F := Ideal) (ex x) (ew Wq) (eb bq) (ew Wk) (eb bk) (ew Wv) (eb bv) i
      = ((∑ q : Fin 4096, ∑ k : Fin 4096, attnR (scoreR x Wq bq Wk bk ⟨(i 0).val, (i 0).isLt⟩) q k
            * proj x Wv bv ⟨(i 0).val, (i 0).isLt⟩ k ⟨(i 1).val, (i 1).isLt⟩ : ℝ) : EReal) := by
  rw [val_main_v29_apply, val_main_cst_4_apply]
  show Ideal.ofBits .f32 0x00000000#32 + _ = _
  rw [Ideal.ofBits_zero_f32, zero_add, ← coe_sum]
  exact Finset.sum_congr rfl fun q _ => v28_real x Wq bq Wk bk Wv bv (idx_main_v29 i q)

/-- The last stage: the sum over queries and keys, over 4096. -/
theorem v31_real (x : X3) (Wq : W2) (bq : B1) (Wk : W2) (bk : B1) (Wv : W2) (bv : B1) :
    Cert.ReferenceIdeal.Read.val_main_v31 (F := Ideal) (ex x) (ew Wq) (eb bq) (ew Wk) (eb bk) (ew Wv) (eb bv)
      = eo (refOut x Wq bq Wk bk Wv bv) := by
  funext i
  rw [val_main_v31_apply, v29_real, val_main_v30_apply, val_main_cst_5_apply]
  show Ideal.div _ (Ideal.ofBits .f32 0x45800000#32)
    = ((refOut x Wq bq Wk bk Wv bv ⟨(i 0).val, (i 0).isLt⟩ ⟨(i 1).val, (i 1).isLt⟩ : ℝ) : EReal)
  rw [ofBits_4096, Ideal.div_coe (by norm_num : (4096 : ℝ) ≠ 0), ← EReal.coe_mul]
  unfold refOut
  exact congrArg Real.toEReal (div_eq_mul_one_div _ _).symm

end RefValue

theorem ref_value (x : X3) (Wq : W2) (bq : B1) (Wk : W2) (bk : B1) (Wv : W2) (bv : B1) :
    Cert.ReferenceIdeal.Read.val_main_v31 (F := Ideal) (ex x) (ew Wq) (eb bq) (ew Wk) (eb bk) (ew Wv) (eb bv)
      = eo (refOut x Wq bq Wk bk Wv bv) := by
  exact RefValue.v31_real x Wq bq Wk bk Wv bv

end Cert.Attn

end
-- ==== Proof.Algebra.lean ====
/-
  The two arrangements of attention pooling agree over the reals.
-/
import proofs.«430896_j86268713107582_3_alg».proof.Proof.Spec

noncomputable section

namespace Cert.Attn

open scoped BigOperators

/-- Scaling one factor of every product by 1/16 scales the inner product by 1/16. -/
theorem scoreK_eq_scoreR (x : X3) (Wq : W2) (bq : B1) (Wk : W2) (bk : B1) (bt : Fin 8) :
    scoreK x Wq bq Wk bk bt = scoreR x Wq bq Wk bk bt := by
  funext q k
  unfold scoreK scoreR
  rw [Finset.sum_mul]
  refine Finset.sum_congr rfl (fun h _ => ?_)
  ring

/-- Multiplying by the reciprocal of the row sum is dividing by it. -/
theorem attnK_eq_attnR (s : Fin 4096 → Fin 4096 → ℝ) (q k : Fin 4096) : attnK s q k = attnR s q k := by
  unfold attnK attnR
  rw [mul_one_div]

/-- After n tiles the running column sum is the sum over those n tiles of each tile's 256 weights. -/
theorem colSum_eq_sum_tiles (s : Fin 4096 → Fin 4096 → ℝ) (k : Fin 4096) : ∀ (n : ℕ) (hn : n ≤ 16),
    colSum s n hn k = ∑ j : Fin n, ∑ r : Fin 256, attnK s (tileRow ⟨j.val, lt_of_lt_of_le j.isLt hn⟩ r) k
  | 0, _ => by simp [colSum]
  | n + 1, hn => by
    show colSum s n (Nat.le_of_succ_le hn) k + ∑ r : Fin 256, attnK s (tileRow ⟨n, hn⟩ r) k = _
    rw [colSum_eq_sum_tiles s k n (Nat.le_of_succ_le hn)]
    exact (Fin.sum_univ_castSucc
      (fun j : Fin (n + 1) => ∑ r : Fin 256, attnK s (tileRow ⟨j.val, lt_of_lt_of_le j.isLt hn⟩ r) k)).symm

/-- Sixteen tiles of 256 rows list every one of the 4096 rows exactly once. -/
theorem sum_tiles (f : Fin 4096 → ℝ) :
    ∑ j : Fin 16, ∑ r : Fin 256, f (tileRow j r) = ∑ q : Fin 4096, f q := by
  rw [← Fintype.sum_prod_type']
  refine Fintype.sum_equiv (finProdFinEquiv : Fin 16 × Fin 256 ≃ Fin (16 * 256)) _ _ ?_
  rintro ⟨j, r⟩
  congr 1
  apply Fin.ext
  simp [tileRow, finProdFinEquiv]
  omega

/-- After all sixteen tiles the column sum is the sum of the weights over every query. -/
theorem colSum_full (s : Fin 4096 → Fin 4096 → ℝ) (k : Fin 4096) :
    colSum s 16 le_rfl k = ∑ q : Fin 4096, attnK s q k := by
  rw [colSum_eq_sum_tiles s k 16 le_rfl]
  exact sum_tiles (fun q => attnK s q k)

/-- Scaling the query before the inner product, or the inner product after it; multiplying by the reciprocal of the
    row sum, or dividing by it; summing the weights over the queries before multiplying by the values, or after;
    scaling by 1/4096 inside the sum over keys, or dividing the whole by 4096: the same real number. -/
theorem kerOut_eq_refOut (x : X3) (Wq : W2) (bq : B1) (Wk : W2) (bk : B1) (Wv : W2) (bv : B1) (bt : Fin 8) (h : Fin 256) :
    kerOut x Wq bq Wk bk Wv bv bt h = refOut x Wq bq Wk bk Wv bv bt h := by
  unfold kerOut refOut
  rw [scoreK_eq_scoreR, Finset.sum_comm, Finset.sum_div]
  refine Finset.sum_congr rfl (fun k _ => ?_)
  rw [colSum_full, Finset.sum_mul, Finset.sum_mul, Finset.sum_div]
  refine Finset.sum_congr rfl (fun q _ => ?_)
  rw [attnK_eq_attnR]
  ring

end Cert.Attn

end
-- ==== Proof.Finite.lean ====
/-
  Under the precondition every argument array holds real numbers.
-/
import proofs.«430896_j86268713107582_3_alg».proof.Proof.Coe
import proofs.«430896_j86268713107582_3_alg».proof.Pre_finite_inputs
import proofs.«430896_j86268713107582_3_alg».proof.Proof.Gen.Pre_finite_inputs
import Idealize.ShloMosaic.Lib.ReduceAll

noncomputable section

namespace Cert.Attn

open Idealize.ShloMosaic

/-- An extended real whose absolute value max x (-x) is below +infinity is neither infinity: it is the real number
    it projects to. -/
private theorem coe_toReal_of_abs_lt_top (x : EReal) (h : max x (-x) < ⊤) : x = ((x.toReal : ℝ) : EReal) := by
  have h1 : x ≠ ⊤ := fun e => by subst e; simp at h
  have h2 : x ≠ ⊥ := fun e => by subst e; simp at h
  exact (EReal.coe_toReal h1 h2).symm

/-- The bit pattern 0x7F800000 (exponent all ones, fraction zero, sign clear) denotes +infinity. -/
private theorem ofBits_inf : Ideal.ofBits .f32 0x7F800000#32 = ⊤ := by simp [Ideal.ofBits, Ideal.ieee]

/-- The comparison |x| < +infinity coming out 1 says x is a real number. -/
private theorem coe_toReal_of_cmp (x : EReal)
    (h : Ideal.cmp .olt (max x (-x)) (Ideal.ofBits .f32 0x7F800000#32) = 1#1) : x = ((x.toReal : ℝ) : EReal) := by
  rw [ofBits_inf] at h
  refine coe_toReal_of_abs_lt_top x ?_
  by_contra hn
  simp [Ideal.cmp, hn] at h

/-- One array: if the conjunction over all entries of |A i| < +infinity is 1, the array is an array of reals. -/
private theorem real_of_all {s : Shape} {axes : List (Fin s.rank)} (A : s.Idx → EReal)
    (hb : Pre_finite_inputs.S_.BroadcastsInDim s (![] : Fin 0 → Fin s.rank))
    (hr : s.ReducesTo axes Pre_finite_inputs.S_) (hu : 0 < Pre_finite_inputs.S_.numel)
    (e : Host.reduce IntOp.andi
        (cmpf (F := Ideal) .olt (Host.absf (φ := .f32) A)
          (broadcastInDim s ![] hb (constant Pre_finite_inputs.S_ .f32 0x7F800000#32)))
        (constantI Pre_finite_inputs.S_ 1 1#1) hr hu ValueIdx.ix0 = 1#1) :
    A = fun i => (((A i).toReal : ℝ) : EReal) := by
  -- the rank-0 result shape has one index, so every entry reduces into it
  haveI : Subsingleton Pre_finite_inputs.S_.Idx := ⟨fun a b => funext fun d => d.elim0⟩
  funext i
  have hi := Host.reduce_andi_all _ _ hr hu _ e i
  exact coe_toReal_of_cmp (A i) hi

/-- The rows of a rank-3 array of reals read back at an index: the coordinates rebuilt from their values are the
    index's own. -/
private theorem eq_ex (X : Sx.Idx → EReal) (e : X = fun i => (((X i).toReal : ℝ) : EReal)) :
    X = ex (fun a b c => (X (ValueIdx.ix3 a b c)).toReal) := by
  funext i
  have hi : ValueIdx.ix3 (⟨(i 0).val, (i 0).isLt⟩ : Fin 8) (⟨(i 1).val, (i 1).isLt⟩ : Fin 4096)
      (⟨(i 2).val, (i 2).isLt⟩ : Fin 256) = i := (ValueIdx.eq_ix3 i).symm
  show X i = (((X (ValueIdx.ix3 _ _ _)).toReal : ℝ) : EReal)
  rw [hi]
  exact congrFun e i

/-- The same for a matrix. -/
private theorem eq_ew (W : Sw.Idx → EReal) (e : W = fun i => (((W i).toReal : ℝ) : EReal)) :
    W = ew (fun a b => (W (ValueIdx.ix2 a b)).toReal) := by
  funext i
  have hi : ValueIdx.ix2 (⟨(i 0).val, (i 0).isLt⟩ : Fin 256) (⟨(i 1).val, (i 1).isLt⟩ : Fin 256) = i :=
    (ValueIdx.eq_ix2 i).symm
  show W i = (((W (ValueIdx.ix2 _ _)).toReal : ℝ) : EReal)
  rw [hi]
  exact congrFun e i

/-- The same for a vector. -/
private theorem eq_eb (B : Sb.Idx → EReal) (e : B = fun i => (((B i).toReal : ℝ) : EReal)) :
    B = eb (fun a => (B (ValueIdx.ix1 a)).toReal) := by
  funext i
  have hi : ValueIdx.ix1 (⟨(i 0).val, (i 0).isLt⟩ : Fin 256) = i := (ValueIdx.eq_ix1 i).symm
  show B i = (((B (ValueIdx.ix1 _)).toReal : ℝ) : EReal)
  rw [hi]
  exact congrFun e i

/-- The precondition says each entry's absolute value is below +infinity: each entry is then a real number, and the
    seven arrays are arrays of reals read as extended reals. -/
theorem real_of_finite (X : Sx.Idx → EReal) (Wq : Sw.Idx → EReal) (Bq : Sb.Idx → EReal) (Wk : Sw.Idx → EReal) (Bk : Sb.Idx → EReal)
    (Wv : Sw.Idx → EReal) (Bv : Sb.Idx → EReal)
    (h : Cert.Pre_finite_inputs.fn (F := Ideal) X Wq Bq Wk Bk Wv Bv = fun _ => 1#1) :
    ∃ (x : X3) (wq : W2) (bq : B1) (wk : W2) (bk : B1) (wv : W2) (bv : B1),
      X = ex x ∧ Wq = ew wq ∧ Bq = eb bq ∧ Wk = ew wk ∧ Bk = eb bk ∧ Wv = ew wv ∧ Bv = eb bv := by
  have h0 := congrFun h ValueIdx.ix0
  dsimp only [Cert.Pre_finite_inputs.fn, Cert.Pre_finite_inputs.fn_part1] at h0
  -- the result is the conjunction of the seven arrays' tests, nested to the left
  obtain ⟨h0, hBv⟩ := IntOp.andi_eq_one.1 h0
  obtain ⟨h0, hWv⟩ := IntOp.andi_eq_one.1 h0
  obtain ⟨h0, hBk⟩ := IntOp.andi_eq_one.1 h0
  obtain ⟨h0, hWk⟩ := IntOp.andi_eq_one.1 h0
  obtain ⟨h0, hBq⟩ := IntOp.andi_eq_one.1 h0
  obtain ⟨hX, hWq⟩ := IntOp.andi_eq_one.1 h0
  exact ⟨_, _, _, _, _, _, _,
    eq_ex X (real_of_all X _ _ _ hX), eq_ew Wq (real_of_all Wq _ _ _ hWq), eq_eb Bq (real_of_all Bq _ _ _ hBq),
    eq_ew Wk (real_of_all Wk _ _ _ hWk), eq_eb Bk (real_of_all Bk _ _ _ hBk),
    eq_ew Wv (real_of_all Wv _ _ _ hWv), eq_eb Bv (real_of_all Bv _ _ _ hBv)⟩

end Cert.Attn

end
-- ==== Proof.lean ====
/-
  The fused attention-pool kernel against its reference: the five claims.

  The kernel pools attention for one batch without ever forming attention times values per query: the mean over the
  queries commutes with the product by the values, so it accumulates the column sum of the attention weights over
  sixteen query tiles and multiplies it into the values once. The reference forms the whole product and then takes
  the mean. At the ideal instance, over inputs that the precondition makes real numbers, both are the same sum
  rearranged: the two scalings (1/16 on the scores, 1/4096 on the mean) distribute over sums, a quotient by the
  positive row sum is a product with its reciprocal, and the sums over queries and keys commute.

  The frames of the two kernel programs are the one run at the two instances; the reference is a straight-line host
  program; the idealization rewrote nothing.
-/
import proofs.«430896_j86268713107582_3_alg».proof.Defs
import proofs.«430896_j86268713107582_3_alg».proof.Proof.Gen.Kernel
import proofs.«430896_j86268713107582_3_alg».proof.Proof.Gen.KernelIdeal
import proofs.«430896_j86268713107582_3_alg».proof.Proof.Gen.ReferenceIdeal
import proofs.«430896_j86268713107582_3_alg».proof.Proof.Gen.Pre_finite_inputs
import proofs.«430896_j86268713107582_3_alg».proof.Proof.KB.Run
import proofs.«430896_j86268713107582_3_alg».proof.Proof.KI.Run
import proofs.«430896_j86268713107582_3_alg».proof.Proof.RefFrame
import proofs.«430896_j86268713107582_3_alg».proof.Proof.KernelValue
import proofs.«430896_j86268713107582_3_alg».proof.Proof.RefValue
import proofs.«430896_j86268713107582_3_alg».proof.Proof.Algebra
import proofs.«430896_j86268713107582_3_alg».proof.Proof.Finite
import proofs.«430896_j86268713107582_3_alg».proof.Proof.Gen.ReferenceIdeal.Run
import proofs.«430896_j86268713107582_3_alg».proof.Proof.Gen.ReferenceIdeal.Read
import Idealize.ShloMosaic.Adequacy
import Idealize.ShloMosaic.Init

noncomputable section

namespace Cert.Proof

open Idealize.ShloMosaic Idealize.ShloMosaic.TcCoe Idealize.SL.Sem
open Cert.Attn

/-- The word-level kernel terminates, faults nowhere and leaves its arguments unchanged. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The idealization rewrote no operation. -/
theorem preserves : Cert.preserves_Kernel_KernelIdeal := trivial

/-- Under the precondition the kernel's result buffer holds what the reference's last operation computes from the
    same arguments: the arguments are arrays of reals; over them the kernel's result is its arrangement of attention
    pooling, the reference's is the other, and the two arrangements agree. -/
theorem kernel_is_reference (m : (ℓ : Loc Cert.KernelIdeal.nD Cert.KernelIdeal.τ Cert.KernelIdeal.sig) → Buf (Elt Ideal) ℓ)
    (hpre : Cert.Pre_KernelIdeal m) (c : Dev Cert.KernelIdeal.nD) :
    (StableHlo.after Cert.KernelIdeal.Gen.hostOps1 (Cert.KernelIdeal.Hand.exitVal m (Cert.KernelIdeal.Hand.dats m) c)
        (Proc.devRef .tc Cert.KernelIdeal.main_v4) : Cert.KernelIdeal.S8x256.Idx → EReal)
      = Cert.ReferenceIdeal.Read.val_main_v31 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  obtain ⟨x, wq, bq, wk, bk, wv, bv, h0, h1, h2, h3, h4, h5, h6⟩ := real_of_finite _ _ _ _ _ _ _ (hpre c)
  rw [Cert.Proof.KernelValue.kernel_value_real m x wq bq wk bk wv bv c h0 h1 h2 h3 h4 h5 h6, h0, h1, h2, h3, h4, h5, h6, ref_value]
  exact congrArg eo (funext fun b => funext fun h => kerOut_eq_refOut x wq bq wk bk wv bv b h)

/-- From memories agreeing on the arguments the two idealized programs end with equal results. -/
theorem algebraic : Cert.algebraic_KernelIdeal_ReferenceIdeal := by
  intro m ρ m' ρ' hpre hagree
  refine ⟨fun c => Cert.ReferenceIdeal.Read.val_main_v31 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1.trans (kernel_is_reference m hpre c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v31_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, Cert.Proof.RefFrame.frame_ri, preserves, algebraic⟩

end Cert.Proof

end
